-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1024 : Shape := ⟨2, ![128, 1024]⟩
abbrev S1024 : Shape := ⟨1, ![1024]⟩
abbrev S1024x1024 : Shape := ⟨2, ![1024, 1024]⟩
abbrev S1024x128 : Shape := ⟨2, ![1024, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg2 : IVec S50000 32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S50000 32 := broadcastInDim S50000 ![] bcast_S_S50000 main_c_28
  let main_v75 : IVec S50000 1 := cmpi .sge main_arg2 main_v74
  let main_c_29 : IVec S_ 1 := constantI S_ 1 1#1
  let main_v76 : IVec S_ 1 := (fun x v => Host.reduce IntOp.andi x v reducesTo_S50000_S_d0 h_S_) main_v75 main_c_29
  let main_v77 : IVec S_ 1 := andi main_v73 main_v76
  main_v77

def fn_part3 {F : FTy → Type} [FloatOps F] (main_arg2 : IVec S50000 32) (main_arg13 : FVec F S1024x1024 .f32) (main_arg14 : FVec F S1024 .f32) (main_arg15 : FVec F S1024x128 .f32) (main_arg16 : FVec F S128 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg13
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg14
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x128 .f32 := Host.absf main_arg15
  let main_cst_24 : FVec F S_ .f32 := constant S_ .f32 0x7F800000#32
  let main_v65 : FVec F S1024x128 .f32 := broadcastInDim S1024x128 ![] bcast_S_S1024x128 main_cst_24
  let main_v66 : IVec S1024x128 1 := cmpf .olt main_v64 main_v65
  let main_c_25 : IVec S_ 1 := constantI S_ 1 1#1
  let main_v67 : IVec S_ 1 := (fun x v => Host.reduce IntOp.andi x v reducesTo_S1024x128_S_d0_1 h_S_) main_v66 main_c_25
  fn_part4 (F := F) main_arg2 main_arg16 main_v63 main_v67

def fn_part2 {F : FTy → Type} [FloatOps F] (main_arg2 : IVec S50000 32) (main_arg9 : FVec F S128x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x128 .f32) (main_arg16 : FVec F S128 .f32) (main_v33 : IVec S_ 1) : IVec S_ 1 :=
  let main_v34 : FVec F S128x1024 .f32 := Host.absf main_arg9
  let main_cst_12 : FVec F S_ .f32 := constant S_ .f32 0x7F800000#32
  let main_v35 : FVec F S128x1024 .f32 := broadcastInDim S128x1024 ![] bcast_S_S128x1024 main_cst_12
  let main_v36 : IVec S128x1024 1 := cmpf .olt main_v34 main_v35
  let main_c_13 : IVec S_ 1 := constantI S_ 1 1#1
  let main_v37 : IVec S_ 1 := (fun x v => Host.reduce IntOp.andi x v reducesTo_S128x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg11
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg2 main_arg13 main_arg14 main_arg15 main_arg16 main_v48 main_v49 main_v50

def fn_part1 {F : FTy → Type} [FloatOps F] (main_arg2 : IVec S50000 32) (main_arg6 : FVec F S128 .f32) (main_arg7 : FVec F S128x128 .f32) (main_arg8 : FVec F S128 .f32) (main_arg9 : FVec F S128x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x128 .f32) (main_arg16 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x128 .f32) (main_arg6 : FVec F S128 .f32) (main_arg7 : FVec F S128x128 .f32) (main_arg8 : FVec F S128 .f32) (main_arg9 : FVec F S128x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg2 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1024 : Shape := ⟨2, ![128, 1024]⟩
abbrev S1024 : Shape := ⟨1, ![1024]⟩
abbrev S1024x1024 : Shape := ⟨2, ![1024, 1024]⟩
abbrev S1024x128 : Shape := ⟨2, ![1024, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x1 : Shape := ⟨2, ![50000, 1]⟩
abbrev S2000x1 : Shape := ⟨2, ![2000, 1]⟩
abbrev S256x1 : Shape := ⟨2, ![256, 1]⟩
abbrev S1x1024 : Shape := ⟨2, ![1, 1024]⟩
abbrev S256x1024 : Shape := ⟨2, ![256, 1024]⟩
abbrev S32768 : Shape := ⟨1, ![32768]⟩

abbrev nBuf : Space → Nat
  | .hbm => 128
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S50000, .i32⟩
  | .hbm, ⟨22, _⟩ => ⟨S850000, .i32⟩
  | .hbm, ⟨23, _⟩ => ⟨S850000, .i32⟩
  | .hbm, ⟨24, _⟩ => ⟨S_, .f32⟩
  | .hbm, ⟨25, _⟩ => ⟨S850000, .f32⟩
  | .hbm, ⟨26, _⟩ => ⟨S_, .f32⟩
  | .hbm, ⟨27, _⟩ => ⟨S50000, .f32⟩
  | .hbm, ⟨28, _⟩ => ⟨S850000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S50000x256, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x256, .f32⟩
  | .hbm, ⟨67, _⟩ => ⟨S850000x1, .f32⟩
  | .hbm, ⟨68, _⟩ => ⟨S850000x256, .f32⟩
  | .hbm, ⟨69, _⟩ => ⟨S850000x256, .f32⟩
  | .hbm, ⟨70, _⟩ => ⟨S_, .f32⟩
  | .hbm, ⟨71, _⟩ => ⟨S50000x256, .f32⟩
  | .hbm, ⟨72, _⟩ => ⟨S850000x1, .i32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x1, .i32⟩
  | .hbm, ⟨96, _⟩ => ⟨S256x128, .f32⟩
  | .hbm, ⟨97, _⟩ => ⟨S_, .i32⟩
  | .hbm, ⟨98, _⟩ => ⟨S256, .i32⟩
  | .hbm, ⟨99, _⟩ => ⟨S_, .i32⟩
  | .hbm, ⟨100, _⟩ => ⟨S_, .i32⟩
  | .hbm, ⟨101, _⟩ => ⟨S50000, .i32⟩
  | .hbm, ⟨102, _⟩ => ⟨S50000, .i32⟩
  | .hbm, ⟨103, _⟩ => ⟨S_, .i32⟩
  | .hbm, ⟨104, _⟩ => ⟨S50000, .i32⟩
  | .hbm, ⟨105, _⟩ => ⟨S50000, .i1⟩
  | .hbm, ⟨106, _⟩ => ⟨S_, .i32⟩
  | .hbm, ⟨107, _⟩ => ⟨S50000, .i32⟩
  | .hbm, ⟨108, _⟩ => ⟨S50000, .i32⟩
  | .hbm, ⟨109, _⟩ => ⟨S50000, .i32⟩
  | .hbm, ⟨110, _⟩ => ⟨S50000x1, .i32⟩
  | .hbm, ⟨111, _⟩ => ⟨S_, .i32⟩
  | .hbm, ⟨112, _⟩ => ⟨S50000, .i32⟩
  | .hbm, ⟨113, _⟩ => ⟨S256, .i32⟩
  | .hbm, ⟨114, _⟩ => ⟨S256, .f32⟩
  | .hbm, ⟨115, _⟩ => ⟨S_, .f32⟩
  | .hbm, ⟨116, _⟩ => ⟨S256, .f32⟩
  | .hbm, ⟨117, _⟩ => ⟨S256, .f32⟩
  | .hbm, ⟨118, _⟩ => ⟨S256x1, .f32⟩
  | .hbm, ⟨119, _⟩ => ⟨S256x128, .f32⟩
  | .hbm, ⟨120, _⟩ => ⟨S256x128, .f32⟩
  | .hbm, ⟨121, _⟩ => ⟨S1x128, .f32⟩
  | .hbm, ⟨122, _⟩ => ⟨S1x1024, .f32⟩
  | .hbm, ⟨123, _⟩ => ⟨S1x1024, .f32⟩
  | .hbm, ⟨124, _⟩ => ⟨S1x1024, .f32⟩
  | .hbm, ⟨125, _⟩ => ⟨S1x128, .f32⟩
  | .hbm, ⟨126, _⟩ => ⟨S256x128, .f32⟩
  | .hbm, ⟨127, _⟩ => ⟨S32768, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .i32⟩
  | .local _ .vmem, ⟨23, _⟩ => ⟨S2000x1, .i32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S128x128, .f32⟩
  | .local _ .vmem, ⟨28, _⟩ => ⟨S1x128, .f32⟩
  | .local _ .vmem, ⟨29, _⟩ => ⟨S128x1024, .f32⟩
  | .local _ .vmem, ⟨30, _⟩ => ⟨S1x1024, .f32⟩
  | .local _ .vmem, ⟨31, _⟩ => ⟨S1024x1024, .f32⟩
  | .local _ .vmem, ⟨32, _⟩ => ⟨S1x1024, .f32⟩
  | .local _ .vmem, ⟨33, _⟩ => ⟨S1024x1024, .f32⟩
  | .local _ .vmem, ⟨34, _⟩ => ⟨S1x1024, .f32⟩
  | .local _ .vmem, ⟨35, _⟩ => ⟨S1024x128, .f32⟩
  | .local _ .vmem, ⟨36, _⟩ => ⟨S1x128, .f32⟩
  | .local _ .vmem, ⟨37, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_c_13 : Ref sig .tc := ⟨.hbm, 99, rfl⟩
abbrev main_call1_v0 : Ref sig .tc := ⟨.hbm, 100, rfl⟩
abbrev main_call1_v1 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg5_0 : Ref sig .tc := ⟨.vmem, 31, rfl⟩
abbrev cc5_stg6_0 : Ref sig .tc := ⟨.vmem, 32, rfl⟩
abbrev cc5_stg7_0 : Ref sig .tc := ⟨.vmem, 33, rfl⟩
abbrev cc5_stg8_0 : Ref sig .tc := ⟨.vmem, 34, rfl⟩
abbrev cc5_stg9_0 : Ref sig .tc := ⟨.vmem, 35, rfl⟩
abbrev cc5_stg10_0 : Ref sig .tc := ⟨.vmem, 36, rfl⟩
abbrev cc5_stg11_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30
abbrev cc5_sem6_0 : DmaSem sig := 31
abbrev cc5_sem7_0 : DmaSem sig := 32
abbrev cc5_sem8_0 : DmaSem sig := 33
abbrev cc5_sem9_0 : DmaSem sig := 34
abbrev cc5_sem10_0 : DmaSem sig := 35
abbrev cc5_sem11_0 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1024x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1024x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1024x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S256x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000_S50000x1 : S50000.ShapeCasts S50000x1
  shapeCasts_S256x128_S256x128 : S256x128.ShapeCasts S256x128
  iota_S2000x256_d1_w32 : S2000x256.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  natLt_1_32 : 1 < 32
  bcast_S_S256 : S_.BroadcastsInDim S256 (![] : Fin 0 → Fin S256.rank)
  bcast_S50000_S50000x1_0 : S50000.BroadcastsInDim S50000x1 (![0] : Fin 1 → Fin S50000x1.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S1024_S1x1024 : S1024.ShapeCasts S1x1024
  inb_S128x128_S128x128_0_0 : ∀ a, (![0, 0] : Fin 2 → Nat) a + S128x128.size a ≤ S128x128.size a
  h_S128x128 : 0 < S128x128.numel
  broadcasts_S1x128_S256x128 : S1x128.Broadcasts S256x128
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S256x128_S32768 : S256x128.ShapeCasts S32768
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x256_S2000x128_S256x128_0_0_1_1_n_n_wf : DotDims.WF S2000x256 S2000x128 S256x128 [0] [0] [1] [1] [] []
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1024_S256x1024_1_0_0_1_n_n_wf : DotDims.WF S256x128 S128x1024 S256x1024 [1] [0] [0] [1] [] []
  dot_S256x1024_S1024x1024_S256x1024_1_0_0_1_n_n_wf : DotDims.WF S256x1024 S1024x1024 S256x1024 [1] [0] [0] [1] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1024.size a ≤ S128x1024.size a
  hwx5_3 : ∀ i : grid5.Coords, EltTy.bits .f32 = 32 ∨ (Rect.block (s := S128x1024) S128x1024.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x1024.size a
  hwx5_4 : ∀ i : grid5.Coords, EltTy.bits .f32 = 32 ∨ (Rect.block (s := S1x1024) S1x1024.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1024x1024.size a ≤ S1024x1024.size a
  hwx5_5 : ∀ i : grid5.Coords, EltTy.bits .f32 = 32 ∨ (Rect.block (s := S1024x1024) S1024x1024.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1024.size a ≤ S1x1024.size a
  hwx5_6 : ∀ i : grid5.Coords, EltTy.bits .f32 = 32 ∨ (Rect.block (s := S1x1024) S1x1024.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1024x1024.size a ≤ S1024x1024.size a
  hwx5_7 : ∀ i : grid5.Coords, EltTy.bits .f32 = 32 ∨ (Rect.block (s := S1024x1024) S1024x1024.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1024.size a ≤ S1x1024.size a
  hwx5_8 : ∀ i : grid5.Coords, EltTy.bits .f32 = 32 ∨ (Rect.block (s := S1x1024) S1x1024.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1024x128.size a ≤ S1024x128.size a
  hwx5_9 : ∀ i : grid5.Coords, EltTy.bits .f32 = 32 ∨ (Rect.block (s := S1024x128) S1024x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S256x128.size a ≤ S256x128.size a
  hwx5_11 : ∀ i : grid5.Coords, EltTy.bits .f32 = 32 ∨ (Rect.block (s := S256x128) S256x128.size (cc5_transform_11 i) (hinb5_11 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S256x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v79) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S1024x1024.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v82) S1x1024.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg13) S1024x1024.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v83) S1x1024.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg15) S1024x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v84) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v85) S256x128.size cc5_transform_11 reads5_11 true true 1 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1024 : Shape := ⟨2, ![128, 1024]⟩
abbrev S1024 : Shape := ⟨1, ![1024]⟩
abbrev S1024x1024 : Shape := ⟨2, ![1024, 1024]⟩
abbrev S1024x128 : Shape := ⟨2, ![1024, 128]⟩
abbrev S1x800000 : Shape := ⟨2, ![1, 800000]⟩
abbrev S800000 : Shape := ⟨1, ![800000]⟩
abbrev S50000x256 : Shape := ⟨2, ![50000, 256]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x1 : Shape := ⟨2, ![50000, 1]⟩
abbrev S256x1 : Shape := ⟨2, ![256, 1]⟩
abbrev S256x1024 : Shape := ⟨2, ![256, 1024]⟩
abbrev S1x1024 : Shape := ⟨2, ![1, 1024]⟩
abbrev S32768 : Shape := ⟨1, ![32768]⟩

abbrev nBuf : Space → Nat
  | .hbm => 188
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x128, .f32⟩
  | 6 => ⟨S128, .f32⟩
  | 7 => ⟨S128x128, .f32⟩
  | 8 => ⟨S128, .f32⟩
  | 9 => ⟨S128x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S50000x256, .f32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x256, .f32⟩
  | 67 => ⟨S850000x1, .f32⟩
  | 68 => ⟨S850000x256, .f32⟩
  | 69 => ⟨S850000x256, .f32⟩
  | 70 => ⟨S_, .f32⟩
  | 71 => ⟨S50000x256, .f32⟩
  | 72 => ⟨S850000x1, .i32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x128, .f32⟩
  | 81 => ⟨S50000, .i32⟩
  | 82 => ⟨S850000, .i32⟩
  | 83 => ⟨S850000, .i32⟩
  | 84 => ⟨S_, .f32⟩
  | 85 => ⟨S850000, .f32⟩
  | 86 => ⟨S_, .f32⟩
  | 87 => ⟨S50000, .f32⟩
  | 88 => ⟨S850000x1, .i32⟩
  | 89 => ⟨S50000, .f32⟩
  | 90 => ⟨S_, .f32⟩
  | 91 => ⟨S50000, .f32⟩
  | 92 => ⟨S50000, .i1⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x128, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S256x128, .f32⟩
  | 13 => ⟨S50000x1, .i32⟩
  | 14 => ⟨S256x128, .f32⟩
  | 15 => ⟨S_, .f32⟩
  | 16 => ⟨S50000, .f32⟩
  | 17 => ⟨S_, .f32⟩
  | 18 => ⟨S256, .f32⟩
  | 19 => ⟨S50000x1, .i32⟩
  | 20 => ⟨S256, .f32⟩
  | 21 => ⟨S_, .f32⟩
  | 22 => ⟨S256, .f32⟩
  | 23 => ⟨S256, .f32⟩
  | 24 => ⟨S256x1, .f32⟩
  | 25 => ⟨S256x128, .f32⟩
  | 26 => ⟨S256x128, .f32⟩
  | 27 => ⟨S256x128, .f32⟩
  | 28 => ⟨S1x128, .f32⟩
  | 29 => ⟨S256x128, .f32⟩
  | 30 => ⟨S256x128, .f32⟩
  | 31 => ⟨S_, .f32⟩
  | 32 => ⟨S256x128, .f32⟩
  | 33 => ⟨S256x128, .f32⟩
  | 34 => ⟨S256x1024, .f32⟩
  | 35 => ⟨S1x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S1x1024, .f32⟩
  | 43 => ⟨S256x1024, .f32⟩
  | 44 => ⟨S256x1024, .f32⟩
  | 45 => ⟨S_, .f32⟩
  | 46 => ⟨S256x1024, .f32⟩
  | 47 => ⟨S256x1024, .f32⟩
  | 48 => ⟨S256x1024, .f32⟩
  | 49 => ⟨S1x1024, .f32⟩
  | 50 => ⟨S256x1024, .f32⟩
  | 51 => ⟨S256x1024, .f32⟩
  | 52 => ⟨S_, .f32⟩
  | 53 => ⟨S256x1024, .f32⟩
  | 54 => ⟨S256x1024, .f32⟩
  | 55 => ⟨S256x128, .f32⟩
  | 56 => ⟨S1x128, .f32⟩
  | 57 => ⟨S256x128, .f32⟩
  | 58 => ⟨S256x128, .f32⟩
  | 59 => ⟨S32768, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v59 : Ref sig .tc := ⟨.hbm, 97, rfl⟩
abbrev main_c_13 : Ref sig .tc := ⟨.hbm, 98, rfl⟩
abbrev main_v60 : Ref sig .tc := ⟨.hbm, 99, rfl⟩
abbrev main_v61 : Ref sig .tc := ⟨.hbm, 100, rfl⟩
abbrev main_c_14 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_15 : Ref sig .tc := ⟨.hbm, 107, rfl⟩
abbrev main_v67 : Ref sig .tc := ⟨.hbm, 108, rfl⟩
abbrev main_v68 : Ref sig .tc := ⟨.hbm, 109, rfl⟩
abbrev main_c_16 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_17 : Ref sig .tc := ⟨.hbm, 117, rfl⟩
abbrev main_v75 : Ref sig .tc := ⟨.hbm, 118, rfl⟩
abbrev main_v76 : Ref sig .tc := ⟨.hbm, 119, rfl⟩
abbrev main_c_18 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_19 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call3_cst : Ref sig .tc := ⟨.hbm, 136, rfl⟩
abbrev main_call3_v0 : Ref sig .tc := ⟨.hbm, 137, rfl⟩
abbrev main_v91 : Ref sig .tc := ⟨.hbm, 138, rfl⟩
abbrev main_cst_20 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_21 : Ref sig .tc := ⟨.hbm, 143, rfl⟩
abbrev main_v95 : Ref sig .tc := ⟨.hbm, 144, rfl⟩
abbrev main_cst_22 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_23 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_call4_cst : Ref sig .tc := ⟨.hbm, 159, rfl⟩
abbrev main_call4_v0 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_call5_cst : Ref sig .tc := ⟨.hbm, 166, rfl⟩
abbrev main_call5_v0 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_call6_cst : Ref sig .tc := ⟨.hbm, 173, rfl⟩
abbrev main_call6_v0 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_call7_cst : Ref sig .tc := ⟨.hbm, 180, rfl⟩
abbrev main_call7_v0 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  shapeCasts_S256x128_S32768 : S256x128.ShapeCasts S32768
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1024_S256x1024_1_0_0_1_n_n_wf : DotDims.WF S256x128 S128x1024 S256x1024 [1] [0] [0] [1] [] []
  dot_S256x1024_S1024x1024_S256x1024_1_0_0_1_n_n_wf : DotDims.WF S256x1024 S1024x1024 S256x1024 [1] [0] [0] [1] [] []
  dot_S256x1024_S1024x128_S256x128_1_0_0_1_n_n_wf : DotDims.WF S256x1024 S1024x128 S256x128 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

class Facts : Prop extends Facts₀ where

variable [Facts]
-- ==== Proof.FrameKernel.R0.lean ====
/-
  The first dense projection, one 2000-row tile of the node features per grid point (25 points): the tile times the
  whole 128 x 256 weight matrix, written to the matching 2000-row tile of the result. Stated at any float instance and
  at any contents `V` of the buffers on entry: which block of which array each staging buffer holds at a point, what
  the body leaves in the output's staging buffer, the body's triple, and the pipeline's proof data with its obligation.
-/
import proofs.«413413_j23441931501599_1_alg».proof.Proof.Gen.Kernel.Launch
import proofs.«413413_j23441931501599_1_alg».proof.Proof.Gen.Kernel.Skeleton
import proofs.«413413_j23441931501599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched at that very
    point (the weights are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev rx0 : Rect S2000x128 := Rect.unit (s := S2000x128) ![0, 0] S2000x128.size inb_S2000x128_S2000x128_0_0
abbrev rw0 : Rect S128x256 := Rect.unit (s := S128x256) ![0, 0] S128x256.size inb_S128x256_S128x256_0_0
abbrev ro0 : Rect S2000x256 := Rect.unit (s := S2000x256) ![0, 0] S2000x256.size inb_S2000x256_S2000x256_0_0

/-- The output tile after the body: one store of the product of the tile and the weights over the whole buffer. -/
def out0_2 (x0 : Vec F S2000x128 .f32) (x1 : Vec F S128x256 .f32) : Vec F S2000x256 .f32 :=
  View.canon [⟨ro0, k0_pay1 (View.ld x0 rx0) (View.ld x1 rw0)⟩]

/-- That one store covers the buffer. -/
theorem cover0_2 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-! ## The body's triple -/

set_option maxHeartbeats 1000000 in
/-- On whole staging buffers, the inputs at `x0`, `x1` and the output at anything, the body runs to its end leaving
    the inputs as they were and the output at `out0_2 x0 x1`. -/
theorem sound_kernel0 (c : Dev nD) (E : Set ℕ) (i : grid0.Coords) (arg1 : Memref sig .tc .vmem S2000x128 .f32) (harg1 : arg1.IsWhole)
    (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input buffer still at its block and the output buffer at
    the product of the two blocks; the invariant is the unopened scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameKernel.R1.lean ====
/-
  The bias-and-rectify step that follows the first aggregation, one 2000-row tile of the aggregated messages per grid
  point (25 points): the 1 x 256 bias row is added to every row of the tile and each entry is then replaced by its
  maximum with zero; the result goes to the matching 2000-row tile of the output. Stated at any float instance and at
  any contents `V` of the buffers on entry: which block of which array each staging buffer holds at a point, what the
  body leaves in the output's staging buffer, the body's triple, and the pipeline's proof data with its obligation.
-/
import proofs.«413413_j23441931501599_1_alg».proof.Proof.Gen.Kernel.Launch
import proofs.«413413_j23441931501599_1_alg».proof.Proof.Gen.Kernel.Skeleton
import proofs.«413413_j23441931501599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched at that very
    point (the bias row is fetched once: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

abbrev rx1 : Rect S2000x256 := Rect.unit (s := S2000x256) ![0, 0] S2000x256.size inb_S2000x256_S2000x256_0_0
abbrev rb1 : Rect S1x256 := Rect.unit (s := S1x256) ![0, 0] S1x256.size inb_S1x256_S1x256_0_0
abbrev ro1 : Rect S2000x256 := Rect.unit (s := S2000x256) ![0, 0] S2000x256.size inb_S2000x256_S2000x256_0_0

/-- The output tile after the body: one store, over the whole buffer, of the tile plus the bias row, rectified. -/
def out1_2 (x0 : Vec F S2000x256 .f32) (x1 : Vec F S1x256 .f32) : Vec F S2000x256 .f32 :=
  View.canon [⟨ro1, k1_pay1 (View.ld x0 rx1) (View.ld x1 rb1)⟩]

/-- That one store covers the buffer. -/
theorem cover1_2 (p0 : Vec F S2000x256 .f32) (y : S2000x256.Idx) :
    ∃ pc ∈ ([⟨ro1, p0⟩] : List (View.Piece (Elt F) S2000x256 .f32)), y ∈ pc.1.set :=
  View.cover_of_tiled [⟨ro1, p0⟩] S2000x256.size (by rfl) y

/-! ## The body's triple -/

set_option maxHeartbeats 1000000 in
/-- On whole staging buffers, the inputs at `x0`, `x1` and the output at anything, the body runs to its end leaving
    the inputs as they were and the output at `out1_2 x0 x1`. -/
theorem sound_kernel1 (c : Dev nD) (E : Set ℕ) (i : grid1.Coords) (arg1 : Memref sig .tc .vmem S2000x256 .f32) (harg1 : arg1.IsWhole)
    (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The arrays as the region finds them; after the body each input buffer still at its block and the output buffer at
    the rectified sum of the tile and the bias row; the invariant is the unopened scoped rest and the generator
    register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameKernel.R2.lean ====
/-
  The second dense projection, one 2000-row tile of the rectified hidden features per grid point (25 points): the tile times the
  whole 256 x 128 weight matrix, written to the matching 2000-row tile of the result. Stated at any float instance and
  at any contents `V` of the buffers on entry: which block of which array each staging buffer holds at a point, what
  the body leaves in the output's staging buffer, the body's triple, and the pipeline's proof data with its obligation.
-/
import proofs.«413413_j23441931501599_1_alg».proof.Proof.Gen.Kernel.Launch
import proofs.«413413_j23441931501599_1_alg».proof.Proof.Gen.Kernel.Skeleton
import proofs.«413413_j23441931501599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched at that very
    point (the weights are fetched once: their block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes -/

abbrev rx2 : Rect S2000x256 := Rect.unit (s := S2000x256) ![0, 0] S2000x256.size inb_S2000x256_S2000x256_0_0
abbrev rw2 : Rect S256x128 := Rect.unit (s := S256x128) ![0, 0] S256x128.size inb_S256x128_S256x128_0_0
abbrev ro2 : Rect S2000x128 := Rect.unit (s := S2000x128) ![0, 0] S2000x128.size inb_S2000x128_S2000x128_0_0

/-- The output tile after the body: one store of the product of the tile and the weights over the whole buffer. -/
def out2_2 (x0 : Vec F S2000x256 .f32) (x1 : Vec F S256x128 .f32) : Vec F S2000x128 .f32 :=
  View.canon [⟨ro2, k2_pay1 (View.ld x0 rx2) (View.ld x1 rw2)⟩]

/-- That one store covers the buffer. -/
theorem cover2_2 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

/-! ## The body's triple -/

set_option maxHeartbeats 1000000 in
/-- On whole staging buffers, the inputs at `x0`, `x1` and the output at anything, the body runs to its end leaving
    the inputs as they were and the output at `out2_2 x0 x1`. -/
theorem sound_kernel2 (c : Dev nD) (E : Set ℕ) (i : grid2.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The arrays as the region finds them; after the body each input buffer still at its block and the output buffer at
    the product of the two blocks; the invariant is the unopened scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The obligation at a point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameKernel.R3.lean ====
/-
  The bias-and-rectify step that follows the second aggregation, one 2000-row tile of the aggregated messages per grid
  point (25 points): the 1 x 128 bias row is added to every row of the tile and each entry is then replaced by its
  maximum with zero; the result goes to the matching 2000-row tile of the output. Stated at any float instance and at
  any contents `V` of the buffers on entry: which block of which array each staging buffer holds at a point, what the
  body leaves in the output's staging buffer, the body's triple, and the pipeline's proof data with its obligation.
-/
import proofs.«413413_j23441931501599_1_alg».proof.Proof.Gen.Kernel.Launch
import proofs.«413413_j23441931501599_1_alg».proof.Proof.Gen.Kernel.Skeleton
import proofs.«413413_j23441931501599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether or not the block was fetched at that very
    point (the bias row is fetched once: its block index never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

abbrev rx3 : Rect S2000x128 := Rect.unit (s := S2000x128) ![0, 0] S2000x128.size inb_S2000x128_S2000x128_0_0
abbrev rb3 : Rect S1x128 := Rect.unit (s := S1x128) ![0, 0] S1x128.size inb_S1x128_S1x128_0_0
abbrev ro3 : Rect S2000x128 := Rect.unit (s := S2000x128) ![0, 0] S2000x128.size inb_S2000x128_S2000x128_0_0

/-- The output tile after the body: one store, over the whole buffer, of the tile plus the bias row, rectified. -/
def out3_2 (x0 : Vec F S2000x128 .f32) (x1 : Vec F S1x128 .f32) : Vec F S2000x128 .f32 :=
  View.canon [⟨ro3, k3_pay1 (View.ld x0 rx3) (View.ld x1 rb3)⟩]

/-- That one store covers the buffer. -/
theorem cover3_2 (p0 : Vec F S2000x128 .f32) (y : S2000x128.Idx) :
    ∃ pc ∈ ([⟨ro3, p0⟩] : List (View.Piece (Elt F) S2000x128 .f32)), y ∈ pc.1.set :=
  View.cover_of_tiled [⟨ro3, p0⟩] S2000x128.size (by rfl) y

/-! ## The body's triple -/

set_option maxHeartbeats 1000000 in
/-- On whole staging buffers, the inputs at `x0`, `x1` and the output at anything, the body runs to its end leaving
    the inputs as they were and the output at `out3_2 x0 x1`. -/
theorem sound_kernel3 (c : Dev nD) (E : Set ℕ) (i : grid3.Coords) (arg1 : Memref sig .tc .vmem S2000x128 .f32) (harg1 : arg1.IsWhole)
    (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The arrays as the region finds them; after the body each input buffer still at its block and the output buffer at
    the rectified sum of the tile and the bias row; the invariant is the unopened scoped rest and the generator
    register; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The obligation at a point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.FrameKernel.R4.lean ====
/-
  The per-graph pooling of node rows, one 2000-row tile of rows and the matching 2000 graph ids per grid point
  (25 points): each point adds, for every graph, the tile's rows of that graph to a 256 x 128 accumulator that lives
  in a scratch buffer the kernel keeps from point to point; the first point clears the accumulator before adding, the
  last point copies it to the output's staging buffer, which is written back only then. Stated at any float instance
  and at any contents `V` of the buffers on entry: which block of which array each staging buffer holds at a point,
  what the accumulator holds after each point (by recursion on the point), the body's triple in each of its three
  control cases, and the pipeline's proof data with its obligation and the two ends of its invariant.
-/
import proofs.«413413_j23441931501599_1_alg».proof.Proof.Gen.Kernel.Launch
import proofs.«413413_j23441931501599_1_alg».proof.Proof.Gen.Kernel.Skeleton
import proofs.«413413_j23441931501599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w`'s array that point `t` works on, read off the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not the block was fetched at that very
    point: the window is never cut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the body reads and writes -/

/-- The whole tile of rows, the whole tile of ids, the whole accumulator (and the whole output buffer, of the same shape). -/
abbrev rx4 : Rect S2000x128 := Rect.unit (s := S2000x128) ![0, 0] S2000x128.size inb_S2000x128_S2000x128_0_0
abbrev ri4 : Rect S2000x1 := Rect.unit (s := S2000x1) ![0, 0] S2000x1.size inb_S2000x1_S2000x1_0_0
abbrev rs4 : Rect S256x128 := Rect.unit (s := S256x128) ![0, 0] S256x128.size inb_S256x128_S256x128_0_0

/-- The scratch operand: a whole scoped buffer of the kernel's own, passed beside the windows. -/
abbrev scM4 : Memref sig .tc .vmem S256x128 .f32 := Memref.whole cc4_scratch0

/-- The accumulator as the first point clears it: one store of zeros over the whole buffer. -/
def clear4 : Vec F S256x128 .f32 := View.canon [⟨rs4, k4_pay1 (F := F)⟩]

/-- One point's step on the accumulator: one store, over the whole buffer, of the accumulator `acc` plus the per-graph
    sums of the tile `rows` under the ids `ids`. -/
def step4 (ids : Vec F S2000x1 .i32) (rows : Vec F S2000x128 .f32) (acc : Vec F S256x128 .f32) : Vec F S256x128 .f32 :=
  View.canon [⟨rs4, k4_pay2 (View.ld ids ri4) (View.ld rows rx4) (View.ld acc rs4)⟩]

/-- THE ACCUMULATION. What the scratch holds after the body at point `n`: the step of the point's two blocks on the
    cleared accumulator at the first point, on what the point before left at every later one. -/
def sc4 (c : Dev nD) : (n : ℕ) → n < cfg4.N → Vec F S256x128 .f32
  | 0, hn => step4 (iblk4 V c 1 ⟨0, hn⟩) (iblk4 V c 0 ⟨0, hn⟩) clear4
  | n + 1, hn => step4 (iblk4 V c 1 ⟨n + 1, hn⟩) (iblk4 V c 0 ⟨n + 1, hn⟩) (sc4 c n (Nat.lt_of_succ_lt hn))

theorem sc4_zero (c : Dev nD) (hn : 0 < cfg4.N) :
    sc4 V c 0 hn = View.canon [⟨rs4, k4_pay2 (View.ld (iblk4 V c 1 ⟨0, hn⟩) ri4) (View.ld (iblk4 V c 0 ⟨0, hn⟩) rx4)
      (View.ld (View.canon [⟨rs4, k4_pay1 (F := F)⟩]) rs4)⟩] := rfl

theorem sc4_succ (c : Dev nD) (n : ℕ) (hn : n + 1 < cfg4.N) :
    sc4 V c (n + 1) hn = View.canon [⟨rs4, k4_pay2 (View.ld (iblk4 V c 1 ⟨n + 1, hn⟩) ri4) (View.ld (iblk4 V c 0 ⟨n + 1, hn⟩) rx4)
      (View.ld (sc4 V c n (Nat.lt_of_succ_lt hn)) rs4)⟩] := rfl

/-- At the first point, stated at the point; -/
theorem sc4_first (c : Dev nD) (t : Fin cfg4.N) (h0 : t.val = 0) :
    sc4 V c t.val t.isLt = step4 (iblk4 V c 1 t) (iblk4 V c 0 t) clear4 := by
  obtain ⟨n, hn⟩ := t
  cases n with
  | zero => rfl
  | succ n => exact absurd h0 (Nat.succ_ne_zero n)

/-- at a later point, over what the point before left. -/
theorem sc4_later (c : Dev nD) (t : Fin cfg4.N) (h0 : t.val ≠ 0) :
    sc4 V c t.val t.isLt = step4 (iblk4 V c 1 t) (iblk4 V c 0 t) (sc4 V c (t.val - 1) (Nat.lt_of_le_of_lt (Nat.sub_le _ _) t.isLt)) := by
  obtain ⟨n, hn⟩ := t
  cases n with
  | zero => exact absurd rfl h0
  | succ n => rfl

/-! ## The body's branch conditions and where the output window is idle -/

/-- The condition of the body's first conditional (the clearing of the accumulator), from the grid coordinate. -/
abbrev cond4_0 (i : grid4.Coords) : Prop :=
  (Scalar.cmpi .ne (Scalar.extui (Scalar.cmpi .eq (BitVec.ofNat 32 (i 0).val) 0#32)) 0#32) = 1#1
/-- The condition of its second conditional (the copy to the output's buffer). -/
abbrev cond4_1 (i : grid4.Coords) : Prop := k4_cond2 i = 1#1

/-- The first holds at the first point only, the second at the last point only: decided over the grid. -/
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 24 :=
  (by decide +kernel : ∀ t : Fin grid4.N, cond4_1 (grid4.coords t) ↔ t.val = 24)

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the output window is idle and its block is not written back; at the last point it is live. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body's triple, case by case -/

/-- The offsets of every rectangle here are zero. -/
theorem zero_off4 : (![0, 0] : Fin 2 → Nat) = fun _ => 0 := funext fun a => by fin_cases a <;> rfl

/-- One store over the whole accumulator covers it; so do two. -/
theorem cover4_1 (p0 : Vec F S256x128 .f32) (y : S256x128.Idx) :
    ∃ pc ∈ ([⟨rs4, p0⟩] : List (View.Piece (Elt F) S256x128 .f32)), y ∈ pc.1.set :=
  View.cover_of_tiled [⟨rs4, p0⟩] S256x128.size (by rfl) y
theorem cover4_2 (p0 p1 : Vec F S256x128 .f32) (y : S256x128.Idx) :
    ∃ pc ∈ ([⟨rs4, p0⟩, ⟨rs4, p1⟩] : List (View.Piece (Elt F) S256x128 .f32)), y ∈ pc.1.set := by
  obtain ⟨pc, hm, hy⟩ := cover4_1 p0 y
  exact ⟨pc, by rw [List.mem_singleton.mp hm]; exact List.mem_cons_self, hy⟩

/-- Of two stores over the whole accumulator only the later one is read back; -/
theorem canon4_2 (p0 p1 : Vec F S256x128 .f32) :
    View.canon [(⟨rs4, p0⟩ : View.Piece (Elt F) S256x128 .f32), ⟨rs4, p1⟩] = View.canon [⟨rs4, p0⟩] := by
  rw [View.canon_cons_unit_zero (S := S256x128) zero_off4, View.canon_unit_zero (S := S256x128) zero_off4]

/-- a load of the whole accumulator after one such store reads what the store left; -/
theorem readCov4 (v : View sig .tc .vmem S256x128 .f32) (p0 : Vec F S256x128 .f32) :
    v.readCov [⟨rs4, p0⟩] rs4.toLoadRect = View.ld (View.canon [⟨rs4, p0⟩]) rs4 :=
  View.readCov_eq_canon_ld _ _ _ (cover4_1 p0)

/-- and storing that load over a whole buffer of the same shape leaves there what the first store left. -/
theorem roundtrip4 (v : View sig .tc .vmem S256x128 .f32) (p0 : Vec F S256x128 .f32) :
    View.canon [(⟨rs4, v.readCov [⟨rs4, p0⟩] rs4.toLoadRect⟩ : View.Piece (Elt F) S256x128 .f32)] = View.canon [⟨rs4, p0⟩] := by
  rw [View.readCov_unit_zero (S := S256x128) v zero_off4]

set_option maxHeartbeats 1000000 in
/-- THE FIRST POINT: on whole buffers, the rows at `x0`, the ids at `x1`, the output's buffer at `xi` and the scratch at
    anything, the body runs to its end leaving the inputs and the output's buffer as they were and the scratch at the
    step of the two blocks on the cleared accumulator. -/
theorem sound_kernel4_first (c : Dev nD) (E : Set ℕ) (i : grid4.Coords) (hc0 : cond4_0 i) (hc1 : ¬cond4_1 i)
    (arg1 : Memref sig .tc .vmem S2000x128 .f32) (harg1 : arg1.IsWhole)
    (arg2 : Memref sig .tc .vmem S2000x1 .i32) (harg2 : arg2.IsWhole) (arg3 : Memref sig .tc .vmem S256x128 .f32) (harg3 : arg3.IsWhole)
    (arg4 : Memref sig .tc .vmem S256x128 .f32) (harg4 : arg4.IsWhole)
    (x0 : Vec F S2000x128 .f32) (x1 : Vec F S2000x1 .i32) (xi : Vec F S256x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (step4 x1 x0 clear4)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover4_2 _ _)).trans ?_
  rw [canon4_2, readCov4]
  rfl

set_option maxHeartbeats 1000000 in
/-- A MIDDLE POINT: the scratch at `xs` goes to the step of the two blocks on `xs`; everything else is left as it was. -/
theorem sound_kernel4_mid (c : Dev nD) (E : Set ℕ) (i : grid4.Coords) (hc0 : ¬cond4_0 i) (hc1 : ¬cond4_1 i)
    (arg1 : Memref sig .tc .vmem S2000x128 .f32) (harg1 : arg1.IsWhole)
    (arg2 : Memref sig .tc .vmem S2000x1 .i32) (harg2 : arg2.IsWhole) (arg3 : Memref sig .tc .vmem S256x128 .f32) (harg3 : arg3.IsWhole)
    (arg4 : Memref sig .tc .vmem S256x128 .f32) (harg4 : arg4.IsWhole)
    (x0 : Vec F S2000x128 .f32) (x1 : Vec F S2000x1 .i32) (xi : Vec F S256x128 .f32) (xs : Vec F S256x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (step4 x1 x0 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_1 _)

set_option maxHeartbeats 1000000 in
/-- THE LAST POINT: the scratch at `xs` goes to the step of the two blocks on `xs`, and the output's buffer, at anything
    before, is left at that same accumulator. -/
theorem sound_kernel4_last (c : Dev nD) (E : Set ℕ) (i : grid4.Coords) (hc0 : ¬cond4_0 i) (hc1 : cond4_1 i)
    (arg1 : Memref sig .tc .vmem S2000x128 .f32) (harg1 : arg1.IsWhole)
    (arg2 : Memref sig .tc .vmem S2000x1 .i32) (harg2 : arg2.IsWhole) (arg3 : Memref sig .tc .vmem S256x128 .f32) (harg3 : arg3.IsWhole)
    (arg4 : Memref sig .tc .vmem S256x128 .f32) (harg4 : arg4.IsWhole)
    (x0 : Vec F S2000x128 .f32) (x1 : Vec F S2000x1 .i32) (xs : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (step4 x1 x0 xs)
            ∗ owns (c : Thread nD τ) arg4 fullShare (step4 x1 x0 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (cover4_1 _)).trans (roundtrip4 _ _)
  iexists _; isplitr
  swap; · iexact H3
  ipureintro
  exact View.read_writes_eq_canon _ _ _ (cover4_1 _)

/-! ## The invariant and the proof data -/

/-- The region's invariant before position `n`: before the first point the scoped rest unopened and the generator
    register at some state; afterwards the scratch whole at what the point before left in it, the remainder of the
    scoped rest unopened, and the generator register at some state. -/
def Phi4 (c : Dev nD) : (n : ℕ) → n ≤ cfg4.N → sProp 𝕄
  | 0, _ => Pipeline.ΦA spec4 c
  | n + 1, hn => iprop((owns (c : Thread nD τ) scM4 fullShare (sc4 V c n hn)
      ∗ Pipeline.scopedRestBut (Ix := Unit) (Name := ℕ) (U := UR sig nD τ) (Lvl := ℕ) (Val := Elt F) spec4 c [cc4_scratch0])
      ∗ (∃ r, prngReg c r))

/-- The arrays as the region finds them; after the body each input buffer still at its block and the output buffer at
    the accumulator (what the last point stores into it: at the other points the window is idle and nothing reads this);
    the invariant carries the accumulator; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => sc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = sc4 V c t.val t.isLt := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The invariant's forms -/

theorem Phi4_zero (c : Dev nD) (n : ℕ) (h : n ≤ cfg4.N) (hz : n = 0) : Phi4 V c n h = Pipeline.ΦA spec4 c := by
  subst hz; rfl

/-- After point `n` (before point `n + 1`): the scratch at that point's accumulator. -/
theorem Phi4_succ (c : Dev nD) (n : ℕ) (hn : n < cfg4.N) :
    Phi4 V c (n + 1) hn = iprop((owns (c : Thread nD τ) scM4 fullShare (sc4 V c n hn)
      ∗ Pipeline.scopedRestBut (Ix := Unit) (Name := ℕ) (U := UR sig nD τ) (Lvl := ℕ) (Val := Elt F) spec4 c [cc4_scratch0])
      ∗ (∃ r, prngReg c r)) := rfl

/-- Before a point that is not the first: the scratch at what the point before left. -/
theorem Phi4_pos (c : Dev nD) (n : ℕ) (h : n ≤ cfg4.N) (hz : n ≠ 0) :
    Phi4 V c n h = iprop((owns (c : Thread nD τ) scM4 fullShare (sc4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The invariant at a point's start, restated at the point's number. -/
theorem Phi4_castSucc (c : Dev nD) (t : Fin cfg4.N) :
    (dat4 V c).Φ t.castSucc = Phi4 V c t.val (Nat.le_of_lt t.isLt) := by
  dsimp only [dat4]; simp only [Fin.coe_castSucc]

/-- What the launch hands the region, with the kernel's scratch split off the scoped rest as a memref owned at some
    contents. -/
theorem PhiA4_eq (c : Dev nD) :
    (Pipeline.ΦA spec4 c : sProp 𝕄)
      = iprop(((∃ d, owns (c : Thread nD τ) scM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-! ## The obligation at a point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point: the inputs' buffers hold their blocks; the point's number says which of the three cases it
    is in; the invariant hands the body the scratch (at anything at the first point, at what the point before left
    afterwards) and takes it back at this point's accumulator; away from the last point the output's buffer is handed
    back as it was found, at the last point it holds the accumulator; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 25 := lt_of_lt_of_eq t.isLt (show cfg4.N = 25 from N_4)
  by_cases h0 : t.val = 0
  · have h1 : ¬t.val = 24 := by omega
    rw [Dat.leavesExact_idle (dat4 V c) 2 t (idleAt4_2 t (fun h => h1 ((hcond4_1 t).mp h))) (noFlush4_2 t (fun h => h1 ((hcond4_1 t).mp h)))]
    rw [sc4_first V c t h0]
    rw [Phi4_castSucc V c t, Phi4_zero V c _ _ h0, PhiA4_eq]
    iintro ⟨⟨⟨HS, Hr⟩, Hg⟩, Ho, ⟨%d0, H0⟩, ⟨%d1, H1⟩, ⟨%d2, H2⟩⟩
    iapply (sound_kernel4_first c Set.univ (grid4.coords t) ((hcond4_0 t).mpr h0) (fun h => h1 ((hcond4_1 t).mp h))
      _ _ _ _ _ _ _ _ (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 24
    · rw [show (dat4 V c).leavesExact 2 t = owns (c : Thread nD τ) (st4_2 t) fullShare ((dat4 V c).after 2 t) from by
        unfold Dat.leavesExact; rw [liveAt4_2 t ((hcond4_1 t).mpr h1)], after4_2]
      rw [sc4_later V c t h0]
      rw [Phi4_castSucc V c t, Phi4_pos V c _ _ h0]
      iintro ⟨⟨⟨HS, Hr⟩, Hg⟩, Ho, ⟨%d0, H0⟩, ⟨%d1, H1⟩, ⟨%d2, H2⟩⟩
      iapply (sound_kernel4_last c Set.univ (grid4.coords t) (fun h => h0 ((hcond4_0 t).mp h)) ((hcond4_1 t).mpr h1)
        _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      rw [sc4_later V c t h0]
      rw [Phi4_castSucc V c t, Phi4_pos V c _ _ h0]
      iintro ⟨⟨⟨HS, Hr⟩, Hg⟩, Ho, ⟨%d0, H0⟩, ⟨%d1, H1⟩, ⟨%d2, H2⟩⟩
      iapply (sound_kernel4_mid c Set.univ (grid4.coords t) (fun h => h0 ((hcond4_0 t).mp h)) (fun h => h1 ((hcond4_1 t).mp h))
        _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives it back: what the scratch holds is forgotten. -/
theorem hout4 (c : Dev nD) : (dat4 V c).Φ (Fin.last cfg4.N) ⊢ Pipeline.ΦA spec4 c := by
  have hN : cfg4.N = 25 := N_4
  rw [show (dat4 V c).Φ (Fin.last cfg4.N) = Phi4 V c (Fin.last cfg4.N).val (Nat.le_of_lt_succ (Fin.last cfg4.N).isLt) from rfl,
    Phi4_pos V c _ _ (by rw [Fin.val_last]; omega), PhiA4_eq]
  iintro ⟨⟨HS, Hr⟩, Hg⟩
  isplitl [HS Hr]
  · isplitl [HS]; · iexists _; iexact HS
    iexact Hr
  iexact Hg

end Cert.Kernel.Hand

end
-- ==== Proof.FrameKernel.R5.lean ====
/-
  The five-layer dense stack on the pooled rows, at its single grid point: the 256 x 128 pooled block goes through
  128 -> 128, 128 -> 1024, 1024 -> 1024, 1024 -> 1024 (each followed by its bias row and a clamp at zero) and a last
  1024 -> 128 layer with its bias row; the result is written over the whole 256 x 128 output block. Every window is
  its whole array. Stated at any float instance and at any contents V of the buffers on entry: which block each
  staging buffer holds, what the body leaves in the output's staging buffer, the body's triple, and the pipeline's
  proof data with its obligation.
-/
import proofs.«413413_j23441931501599_1_alg».proof.Proof.Gen.Kernel.Launch
import proofs.«413413_j23441931501599_1_alg».proof.Proof.Gen.Kernel.Skeleton
import proofs.«413413_j23441931501599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window w's array that the point works on, read off the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each of the eleven input windows' staging buffers holds its block when the body starts: the body leaves the
    inputs in place, and a fetch of an uncut window puts the block there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## What the body reads and writes -/

-- the whole-array rectangle of each of the seven shapes met
abbrev r5_256x128 : Rect S256x128 := Rect.unit (s := S256x128) ![0, 0] S256x128.size inb_S256x128_S256x128_0_0
abbrev r5_128x128 : Rect S128x128 := Rect.unit (s := S128x128) ![0, 0] S128x128.size inb_S128x128_S128x128_0_0
abbrev r5_1x128 : Rect S1x128 := Rect.unit (s := S1x128) ![0, 0] S1x128.size inb_S1x128_S1x128_0_0
abbrev r5_128x1024 : Rect S128x1024 := Rect.unit (s := S128x1024) ![0, 0] S128x1024.size inb_S128x1024_S128x1024_0_0
abbrev r5_1x1024 : Rect S1x1024 := Rect.unit (s := S1x1024) ![0, 0] S1x1024.size inb_S1x1024_S1x1024_0_0
abbrev r5_1024x1024 : Rect S1024x1024 := Rect.unit (s := S1024x1024) ![0, 0] S1024x1024.size inb_S1024x1024_S1024x1024_0_0
abbrev r5_1024x128 : Rect S1024x128 := Rect.unit (s := S1024x128) ![0, 0] S1024x128.size inb_S1024x128_S1024x128_0_0

/-- The output block after the body: one store, over the whole buffer, of the last layer applied to what the first
    four layers make of the pooled block. -/
def out5_11 (x0 : Vec F S256x128 .f32) (x1 : Vec F S128x128 .f32) (x2 : Vec F S1x128 .f32) (x3 : Vec F S128x1024 .f32)
    (x4 : Vec F S1x1024 .f32) (x5 : Vec F S1024x1024 .f32) (x6 : Vec F S1x1024 .f32) (x7 : Vec F S1024x1024 .f32)
    (x8 : Vec F S1x1024 .f32) (x9 : Vec F S1024x128 .f32) (x10 : Vec F S1x128 .f32) : Vec F S256x128 .f32 :=
  View.canon [⟨r5_256x128,
    k5_pay1
      (k5_pay2 (View.ld x0 r5_256x128) (View.ld x1 r5_128x128) (View.ld x2 r5_1x128) (View.ld x3 r5_128x1024)
        (View.ld x4 r5_1x1024) (View.ld x5 r5_1024x1024) (View.ld x6 r5_1x1024) (View.ld x7 r5_1024x1024))
      (View.ld x8 r5_1x1024) (View.ld x9 r5_1024x128) (View.ld x10 r5_1x128)⟩]

/-- That one store covers the buffer. -/
theorem cover5_11 (p0 : Vec F S256x128 .f32) (y : S256x128.Idx) :
    ∃ pc ∈ ([⟨r5_256x128, p0⟩] : List (View.Piece (Elt F) S256x128 .f32)), y ∈ pc.1.set :=
  View.cover_of_tiled [⟨r5_256x128, p0⟩] S256x128.size (by rfl) y

/-! ## The body's triple -/

set_option maxHeartbeats 4000000 in
/-- On whole staging buffers, the eleven inputs at x0 .. x10 and the output at anything, the body runs to its end
    leaving the inputs as they were and the output at out5_11 x0 .. x10. -/
theorem sound_kernel5 (c : Dev nD) (E : Set ℕ) (i : grid5.Coords)
    (arg1 : Memref sig .tc .vmem S256x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1x1024 .f32) (harg7 : arg7.IsWhole)
    (arg8 : Memref sig .tc .vmem S1024x1024 .f32) (harg8 : arg8.IsWhole)
    (arg9 : Memref sig .tc .vmem S1x1024 .f32) (harg9 : arg9.IsWhole)
    (arg10 : Memref sig .tc .vmem S1024x128 .f32) (harg10 : arg10.IsWhole)
    (arg11 : Memref sig .tc .vmem S1x128 .f32) (harg11 : arg11.IsWhole)
    (arg12 : Memref sig .tc .vmem S256x128 .f32) (harg12 : arg12.IsWhole)
    (x0 : Vec F S256x128 .f32) (x1 : Vec F S128x128 .f32) (x2 : Vec F S1x128 .f32) (x3 : Vec F S128x1024 .f32)
    (x4 : Vec F S1x1024 .f32) (x5 : Vec F S1024x1024 .f32) (x6 : Vec F S1x1024 .f32) (x7 : Vec F S1024x1024 .f32)
    (x8 : Vec F S1x1024 .f32) (x9 : Vec F S1024x128 .f32) (x10 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out5_11 x0 x1 x2 x3 x4 x5 x6 x7 x8 x9 x10)) -∗ K ⟨⟩))
      ⊢ wp frame (wpE (defs₀ (F := F)) Variants.none c none) E
          (cc5__mlp_kernel i arg1 harg1 arg2 harg2 arg3 harg3 arg4 harg4 arg5 harg5 arg6 harg6 arg7 harg7 arg8 harg8
            arg9 harg9 arg10 harg10 arg11 harg11 arg12 harg12) K := by
  simp only [cc5__mlp_kernel_eq_skeleton]; unfold cc5__mlp_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover5_11 _)

/-! ## The proof data -/

/-- The arrays as the region finds them; after the body each of the eleven input buffers still at its block and the
    output buffer at the stack applied to those blocks; the invariant is the unopened scoped rest and the generator
    register; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t =
    out5_11 (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The obligation at a point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8,
    before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10,
    after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩⟩
  iapply (sound_kernel5 c Set.univ _ _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.FrameKernel.Fold.lean ====
/-
  The contents of a core's unscoped buffers through the whole kernel program. Between two items of @main a core's unscoped buffers hold a known valuation:
  the launch memory, then each host stretch applied, then - at a kernel region's exit - the region's result array
  replaced by what the pipeline's proof data compute for it (every other buffer as entered). Stated here: those valuations, the instantiation of the generated conditional frame's unknowns by them, what each
  region's arrays hold at its exit, and the family of the six pipelines' proof data. Any float instance.
-/
import proofs.«413413_j23441931501599_1_alg».proof.Proof.FrameKernel.R0
import proofs.«413413_j23441931501599_1_alg».proof.Proof.FrameKernel.R1
import proofs.«413413_j23441931501599_1_alg».proof.Proof.FrameKernel.R2
import proofs.«413413_j23441931501599_1_alg».proof.Proof.FrameKernel.R3
import proofs.«413413_j23441931501599_1_alg».proof.Proof.FrameKernel.R4
import proofs.«413413_j23441931501599_1_alg».proof.Proof.FrameKernel.R5
import proofs.«413413_j23441931501599_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's own references: what a region's proof data take. -/
abbrev atTc (W : Dev nD → Valuation τ sig (Elt F)) : (c : Dev nD) → (b : Ref sig .tc) → Buf (Elt F) ((c : Thread nD τ).loc b) :=
  fun c b => W c b

/-- Before region 0: the launch memory after the first three host stretches. -/
abbrev W3 : Dev nD → Valuation τ sig (Elt F) := fun c => Gen.V3 m c
/-- After region 0: the first projection's result in place. -/
def W4 (c : Dev nD) : Valuation τ sig (Elt F) :=
  Function.update (W3 m c) main_v30 ((dat0 (atTc (W3 m)) c).arrAt 2 cfg0.N)
abbrev W5 : Dev nD → Valuation τ sig (Elt F) := fun c => StableHlo.after hostOps1 (W4 m c)
/-- After region 1. -/
def W6 (c : Dev nD) : Valuation τ sig (Elt F) :=
  Function.update (W5 m c) main_v45 ((dat1 (atTc (W5 m)) c).arrAt 2 cfg1.N)
/-- After region 2. -/
def W7 (c : Dev nD) : Valuation τ sig (Elt F) :=
  Function.update (W6 m c) main_v46 ((dat2 (atTc (W6 m)) c).arrAt 2 cfg2.N)
abbrev W8 : Dev nD → Valuation τ sig (Elt F) := fun c => StableHlo.after hostOps3 (W7 m c)
/-- After region 3. -/
def W9 (c : Dev nD) : Valuation τ sig (Elt F) :=
  Function.update (W8 m c) main_v61 ((dat3 (atTc (W8 m)) c).arrAt 2 cfg3.N)
abbrev W10 : Dev nD → Valuation τ sig (Elt F) := fun c => StableHlo.after hostOps4 (W9 m c)
/-- After region 4: the per-graph sums in place. -/
def W11 (c : Dev nD) : Valuation τ sig (Elt F) :=
  Function.update (W10 m c) main_v63 ((dat4 (atTc (W10 m)) c).arrAt 2 cfg4.N)
abbrev W12 : Dev nD → Valuation τ sig (Elt F) := fun c => StableHlo.after hostOps5 (W11 m c)
abbrev W13 : Dev nD → Valuation τ sig (Elt F) := fun c => StableHlo.after hostOps5_1 (W12 m c)
abbrev W14 : Dev nD → Valuation τ sig (Elt F) := fun c => StableHlo.after hostOps5_2 (W13 m c)
/-- After region 5: the dense stack's output in place. -/
def W15 (c : Dev nD) : Valuation τ sig (Elt F) :=
  Function.update (W14 m c) main_v85 ((dat5 (atTc (W14 m)) c).arrAt 11 cfg5.N)
abbrev W16 : Dev nD → Valuation τ sig (Elt F) := fun c => StableHlo.after hostOps6 (W15 m c)

/-! A region's exit valuation differs from its entry valuation at the result array only. -/

theorem W4_of_ne (c : Dev nD) (r : Ref sig .tc) (h : r ≠ main_v30) : W4 m c r = W3 m c r :=
  Function.update_of_ne (StableHlo.devRef_ne_of_ne h) _ _
theorem W4_self (c : Dev nD) : W4 m c main_v30 = (dat0 (atTc (W3 m)) c).arrAt 2 cfg0.N := Function.update_self ..
theorem W6_of_ne (c : Dev nD) (r : Ref sig .tc) (h : r ≠ main_v45) : W6 m c r = W5 m c r :=
  Function.update_of_ne (StableHlo.devRef_ne_of_ne h) _ _
theorem W6_self (c : Dev nD) : W6 m c main_v45 = (dat1 (atTc (W5 m)) c).arrAt 2 cfg1.N := Function.update_self ..
theorem W7_of_ne (c : Dev nD) (r : Ref sig .tc) (h : r ≠ main_v46) : W7 m c r = W6 m c r :=
  Function.update_of_ne (StableHlo.devRef_ne_of_ne h) _ _
theorem W7_self (c : Dev nD) : W7 m c main_v46 = (dat2 (atTc (W6 m)) c).arrAt 2 cfg2.N := Function.update_self ..
theorem W9_of_ne (c : Dev nD) (r : Ref sig .tc) (h : r ≠ main_v61) : W9 m c r = W8 m c r :=
  Function.update_of_ne (StableHlo.devRef_ne_of_ne h) _ _
theorem W9_self (c : Dev nD) : W9 m c main_v61 = (dat3 (atTc (W8 m)) c).arrAt 2 cfg3.N := Function.update_self ..
theorem W11_of_ne (c : Dev nD) (r : Ref sig .tc) (h : r ≠ main_v63) : W11 m c r = W10 m c r :=
  Function.update_of_ne (StableHlo.devRef_ne_of_ne h) _ _
theorem W11_self (c : Dev nD) : W11 m c main_v63 = (dat4 (atTc (W10 m)) c).arrAt 2 cfg4.N := Function.update_self ..
theorem W15_of_ne (c : Dev nD) (r : Ref sig .tc) (h : r ≠ main_v85) : W15 m c r = W14 m c r :=
  Function.update_of_ne (StableHlo.devRef_ne_of_ne h) _ _
theorem W15_self (c : Dev nD) : W15 m c main_v85 = (dat5 (atTc (W14 m)) c).arrAt 11 cfg5.N := Function.update_self ..

/-! ## The conditional frame's unknowns, instantiated -/

/-- What each region leaves in its result array is what the fold holds there (the other entries are never read). -/
def outs : Gen.Outs (F := F) := fun J r c => match J with
  | 4 => W4 m c r
  | 6 => W6 m c r
  | 7 => W7 m c r
  | 9 => W9 m c r
  | 11 => W11 m c r
  | 15 => W15 m c r
  | _ => W3 m c r

/-- With that choice the conditional frame's valuations are the fold's, item by item. -/
theorem V4_eq (c : Dev nD) : Gen.V4 m (outs m) c = W4 m c := by
  unfold W4; exact congrArg (Function.update (Gen.V3 m c) (Proc.devRef .tc main_v30)) (W4_self m c)
theorem V5_eq (c : Dev nD) : Gen.V5 m (outs m) c = W5 m c :=
  congrArg (StableHlo.after (hostOps1 (F := F))) (V4_eq m c)
theorem V6_eq (c : Dev nD) : Gen.V6 m (outs m) c = W6 m c :=
  (congrArg (fun W => Function.update W (Proc.devRef .tc main_v45) (outs m 6 main_v45 c)) (V5_eq m c)).trans
    (congrArg (Function.update (W5 m c) (Proc.devRef .tc main_v45)) (W6_self m c))
theorem V7_eq (c : Dev nD) : Gen.V7 m (outs m) c = W7 m c :=
  (congrArg (fun W => Function.update W (Proc.devRef .tc main_v46) (outs m 7 main_v46 c)) (V6_eq m c)).trans
    (congrArg (Function.update (W6 m c) (Proc.devRef .tc main_v46)) (W7_self m c))
theorem V8_eq (c : Dev nD) : Gen.V8 m (outs m) c = W8 m c :=
  congrArg (StableHlo.after (hostOps3 (F := F))) (V7_eq m c)
theorem V9_eq (c : Dev nD) : Gen.V9 m (outs m) c = W9 m c :=
  (congrArg (fun W => Function.update W (Proc.devRef .tc main_v61) (outs m 9 main_v61 c)) (V8_eq m c)).trans
    (congrArg (Function.update (W8 m c) (Proc.devRef .tc main_v61)) (W9_self m c))
theorem V10_eq (c : Dev nD) : Gen.V10 m (outs m) c = W10 m c :=
  congrArg (StableHlo.after (hostOps4 (F := F))) (V9_eq m c)
theorem V11_eq (c : Dev nD) : Gen.V11 m (outs m) c = W11 m c :=
  (congrArg (fun W => Function.update W (Proc.devRef .tc main_v63) (outs m 11 main_v63 c)) (V10_eq m c)).trans
    (congrArg (Function.update (W10 m c) (Proc.devRef .tc main_v63)) (W11_self m c))
theorem V12_eq (c : Dev nD) : Gen.V12 m (outs m) c = W12 m c :=
  congrArg (StableHlo.after (hostOps5 (F := F))) (V11_eq m c)
theorem V13_eq (c : Dev nD) : Gen.V13 m (outs m) c = W13 m c :=
  congrArg (StableHlo.after (hostOps5_1 (F := F))) (V12_eq m c)
theorem V14_eq (c : Dev nD) : Gen.V14 m (outs m) c = W14 m c :=
  congrArg (StableHlo.after (hostOps5_2 (F := F))) (V13_eq m c)
theorem V15_eq (c : Dev nD) : Gen.V15 m (outs m) c = W15 m c :=
  (congrArg (fun W => Function.update W (Proc.devRef .tc main_v85) (outs m 15 main_v85 c)) (V14_eq m c)).trans
    (congrArg (Function.update (W14 m c) (Proc.devRef .tc main_v85)) (W15_self m c))
theorem V16_eq (c : Dev nD) : Gen.V16 m (outs m) c = W16 m c :=
  congrArg (StableHlo.after (hostOps6 (F := F))) (V15_eq m c)

/-! ## Each region's arrays at its exit -/

theorem hF0 (c : Dev nD) : ∀ w : Fin cfg0.W, (dat0 (atTc (W3 m)) c).arrAt w cfg0.N = atTc (W4 m) c (Pipeline.arrRef spec0 w)
  | ⟨0, _⟩ => ((dat0 (atTc (W3 m)) c).arrAt_in 0 rfl _).trans ((A_eq0 (atTc (W3 m)) c 0).trans (W4_of_ne m c _ (by decide)).symm)
  | ⟨1, _⟩ => ((dat0 (atTc (W3 m)) c).arrAt_in 1 rfl _).trans ((A_eq0 (atTc (W3 m)) c 1).trans (W4_of_ne m c _ (by decide)).symm)
  | ⟨2, _⟩ => (W4_self m c).symm
theorem hrest0 (c : Dev nD) : ∀ b, b ∉ Finset.univ.image (Pipeline.arrRef spec0) → atTc (W4 m) c b = atTc (W3 m) c b :=
  fun b hb => W4_of_ne m c b fun e => hb (Finset.mem_image.mpr ⟨2, Finset.mem_univ _, e.symm⟩)
theorem hF1 (c : Dev nD) : ∀ w : Fin cfg1.W, (dat1 (atTc (W5 m)) c).arrAt w cfg1.N = atTc (W6 m) c (Pipeline.arrRef spec1 w)
  | ⟨0, _⟩ => ((dat1 (atTc (W5 m)) c).arrAt_in 0 rfl _).trans ((A_eq1 (atTc (W5 m)) c 0).trans (W6_of_ne m c _ (by decide)).symm)
  | ⟨1, _⟩ => ((dat1 (atTc (W5 m)) c).arrAt_in 1 rfl _).trans ((A_eq1 (atTc (W5 m)) c 1).trans (W6_of_ne m c _ (by decide)).symm)
  | ⟨2, _⟩ => (W6_self m c).symm
theorem hrest1 (c : Dev nD) : ∀ b, b ∉ Finset.univ.image (Pipeline.arrRef spec1) → atTc (W6 m) c b = atTc (W5 m) c b :=
  fun b hb => W6_of_ne m c b fun e => hb (Finset.mem_image.mpr ⟨2, Finset.mem_univ _, e.symm⟩)
theorem hF2 (c : Dev nD) : ∀ w : Fin cfg2.W, (dat2 (atTc (W6 m)) c).arrAt w cfg2.N = atTc (W7 m) c (Pipeline.arrRef spec2 w)
  | ⟨0, _⟩ => ((dat2 (atTc (W6 m)) c).arrAt_in 0 rfl _).trans ((A_eq2 (atTc (W6 m)) c 0).trans (W7_of_ne m c _ (by decide)).symm)
  | ⟨1, _⟩ => ((dat2 (atTc (W6 m)) c).arrAt_in 1 rfl _).trans ((A_eq2 (atTc (W6 m)) c 1).trans (W7_of_ne m c _ (by decide)).symm)
  | ⟨2, _⟩ => (W7_self m c).symm
theorem hrest2 (c : Dev nD) : ∀ b, b ∉ Finset.univ.image (Pipeline.arrRef spec2) → atTc (W7 m) c b = atTc (W6 m) c b :=
  fun b hb => W7_of_ne m c b fun e => hb (Finset.mem_image.mpr ⟨2, Finset.mem_univ _, e.symm⟩)
theorem hF3 (c : Dev nD) : ∀ w : Fin cfg3.W, (dat3 (atTc (W8 m)) c).arrAt w cfg3.N = atTc (W9 m) c (Pipeline.arrRef spec3 w)
  | ⟨0, _⟩ => ((dat3 (atTc (W8 m)) c).arrAt_in 0 rfl _).trans ((A_eq3 (atTc (W8 m)) c 0).trans (W9_of_ne m c _ (by decide)).symm)
  | ⟨1, _⟩ => ((dat3 (atTc (W8 m)) c).arrAt_in 1 rfl _).trans ((A_eq3 (atTc (W8 m)) c 1).trans (W9_of_ne m c _ (by decide)).symm)
  | ⟨2, _⟩ => (W9_self m c).symm
theorem hrest3 (c : Dev nD) : ∀ b, b ∉ Finset.univ.image (Pipeline.arrRef spec3) → atTc (W9 m) c b = atTc (W8 m) c b :=
  fun b hb => W9_of_ne m c b fun e => hb (Finset.mem_image.mpr ⟨2, Finset.mem_univ _, e.symm⟩)
theorem hF4 (c : Dev nD) : ∀ w : Fin cfg4.W, (dat4 (atTc (W10 m)) c).arrAt w cfg4.N = atTc (W11 m) c (Pipeline.arrRef spec4 w)
  | ⟨0, _⟩ => ((dat4 (atTc (W10 m)) c).arrAt_in 0 rfl _).trans ((A_eq4 (atTc (W10 m)) c 0).trans (W11_of_ne m c _ (by decide)).symm)
  | ⟨1, _⟩ => ((dat4 (atTc (W10 m)) c).arrAt_in 1 rfl _).trans ((A_eq4 (atTc (W10 m)) c 1).trans (W11_of_ne m c _ (by decide)).symm)
  | ⟨2, _⟩ => (W11_self m c).symm
theorem hrest4 (c : Dev nD) : ∀ b, b ∉ Finset.univ.image (Pipeline.arrRef spec4) → atTc (W11 m) c b = atTc (W10 m) c b :=
  fun b hb => W11_of_ne m c b fun e => hb (Finset.mem_image.mpr ⟨2, Finset.mem_univ _, e.symm⟩)
set_option maxHeartbeats 4000000 in
theorem hF5 (c : Dev nD) : ∀ w : Fin cfg5.W, (dat5 (atTc (W14 m)) c).arrAt w cfg5.N = atTc (W15 m) c (Pipeline.arrRef spec5 w)
  | ⟨0, _⟩ => ((dat5 (atTc (W14 m)) c).arrAt_in 0 rfl _).trans ((A_eq5 (atTc (W14 m)) c 0).trans (W15_of_ne m c _ (by decide)).symm)
  | ⟨1, _⟩ => ((dat5 (atTc (W14 m)) c).arrAt_in 1 rfl _).trans ((A_eq5 (atTc (W14 m)) c 1).trans (W15_of_ne m c _ (by decide)).symm)
  | ⟨2, _⟩ => ((dat5 (atTc (W14 m)) c).arrAt_in 2 rfl _).trans ((A_eq5 (atTc (W14 m)) c 2).trans (W15_of_ne m c _ (by decide)).symm)
  | ⟨3, _⟩ => ((dat5 (atTc (W14 m)) c).arrAt_in 3 rfl _).trans ((A_eq5 (atTc (W14 m)) c 3).trans (W15_of_ne m c _ (by decide)).symm)
  | ⟨4, _⟩ => ((dat5 (atTc (W14 m)) c).arrAt_in 4 rfl _).trans ((A_eq5 (atTc (W14 m)) c 4).trans (W15_of_ne m c _ (by decide)).symm)
  | ⟨5, _⟩ => ((dat5 (atTc (W14 m)) c).arrAt_in 5 rfl _).trans ((A_eq5 (atTc (W14 m)) c 5).trans (W15_of_ne m c _ (by decide)).symm)
  | ⟨6, _⟩ => ((dat5 (atTc (W14 m)) c).arrAt_in 6 rfl _).trans ((A_eq5 (atTc (W14 m)) c 6).trans (W15_of_ne m c _ (by decide)).symm)
  | ⟨7, _⟩ => ((dat5 (atTc (W14 m)) c).arrAt_in 7 rfl _).trans ((A_eq5 (atTc (W14 m)) c 7).trans (W15_of_ne m c _ (by decide)).symm)
  | ⟨8, _⟩ => ((dat5 (atTc (W14 m)) c).arrAt_in 8 rfl _).trans ((A_eq5 (atTc (W14 m)) c 8).trans (W15_of_ne m c _ (by decide)).symm)
  | ⟨9, _⟩ => ((dat5 (atTc (W14 m)) c).arrAt_in 9 rfl _).trans ((A_eq5 (atTc (W14 m)) c 9).trans (W15_of_ne m c _ (by decide)).symm)
  | ⟨10, _⟩ => ((dat5 (atTc (W14 m)) c).arrAt_in 10 rfl _).trans ((A_eq5 (atTc (W14 m)) c 10).trans (W15_of_ne m c _ (by decide)).symm)
  | ⟨11, _⟩ => (W15_self m c).symm
theorem hrest5 (c : Dev nD) : ∀ b, b ∉ Finset.univ.image (Pipeline.arrRef spec5) → atTc (W15 m) c b = atTc (W14 m) c b :=
  fun b hb => W15_of_ne m c b fun e => hb (Finset.mem_image.mpr ⟨11, Finset.mem_univ _, e.symm⟩)

/-! ## The proof data family and what rides beside the buffers -/

/-- Every pipeline's proof data, each at its region's entry valuation: a literal match on the pipeline's number. -/
def pdats : (p : Fin 6) → (c : Dev nD) → Dat τ (Elt F) Unit ℕ (UR sig nD τ) ℕ (Pipeline.pin (pcfgs (F := F)) Gen.adm p) c
  | ⟨0, _⟩ => fun c => dat0 (atTc (W3 m)) c
  | ⟨1, _⟩ => fun c => dat1 (atTc (W5 m)) c
  | ⟨2, _⟩ => fun c => dat2 (atTc (W6 m)) c
  | ⟨3, _⟩ => fun c => dat3 (atTc (W8 m)) c
  | ⟨4, _⟩ => fun c => dat4 (atTc (W10 m)) c
  | ⟨5, _⟩ => fun c => dat5 (atTc (W14 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

end Cert.Kernel.Hand

end
-- ==== Proof.FrameKernel.Seg0.lean ====
/-
  Region 0 as an item of @main (the first dense projection): the thread state it is entered from and the one it leaves, and the four
  entailments around them. Any float instance.
-/
import proofs.«413413_j23441931501599_1_alg».proof.Proof.FrameKernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W3`, left at `W4`. The region's arrays are split out of the unscoped buffers
    on entry and put back on exit, the result array at its final contents; the generator register goes into the region's
    invariant and comes back; nothing is owed; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Seg1.lean ====
/-
  Region 1 as an item of @main (bias and rectification at width 256): the thread state it is entered from and the one it leaves, and the four
  entailments around them. Any float instance.
-/
import proofs.«413413_j23441931501599_1_alg».proof.Proof.FrameKernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W5`, left at `W6`. The region's arrays are split out of the unscoped buffers
    on entry and put back on exit, the result array at its final contents; the generator register goes into the region's
    invariant and comes back; nothing is owed; the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Seg2.lean ====
/-
  Region 2 as an item of @main (the second dense projection): the thread state it is entered from and the one it leaves, and the four
  entailments around them. Any float instance.
-/
import proofs.«413413_j23441931501599_1_alg».proof.Proof.FrameKernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W6`, left at `W7`. The region's arrays are split out of the unscoped buffers
    on entry and put back on exit, the result array at its final contents; the generator register goes into the region's
    invariant and comes back; nothing is owed; the kernel has no semaphore of its own. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W6 m)) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (atTc (W6 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (W6 m) c) (atTc (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Seg3.lean ====
/-
  Region 3 as an item of @main (bias and rectification at width 128): the thread state it is entered from and the one it leaves, and the four
  entailments around them. Any float instance.
-/
import proofs.«413413_j23441931501599_1_alg».proof.Proof.FrameKernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W8`, left at `W9`. The region's arrays are split out of the unscoped buffers
    on entry and put back on exit, the result array at its final contents; the generator register goes into the region's
    invariant and comes back; nothing is owed; the kernel has no semaphore of its own. -/
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W8 m)) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (atTc (W8 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (W8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (W8 m) c) (atTc (W9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Seg4.lean ====
/-
  Region 4 as an item of @main (the per-graph sum of node rows, accumulated in a scratch carried between grid points): the thread state it is entered from and the one it leaves, and the four
  entailments around them. Any float instance.
-/
import proofs.«413413_j23441931501599_1_alg».proof.Proof.FrameKernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W10`, left at `W11`. The region's arrays are split out of the unscoped buffers
    on entry and put back on exit, the result array at its final contents; the generator register and the scoped rest go into the
    region's invariant, which carries the scratch's contents from point to point, and come back; nothing is owed; the kernel has no semaphore of its own. -/
def reg4 : RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W10 m)) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (atTc (W10 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (atTc (W10 m)) c)
    unfold Pipeline.ΦA
    iintro ⟨Hp, -, Hr⟩
    isplitl [Hr]; · iexact Hr
    iexact Hp
  hout c := by
    refine BIBase.Entails.trans (hout4 (atTc (W10 m)) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (W10 m) c) (atTc (W11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Seg5.lean ====
/-
  Region 5 as an item of @main (the dense stack on the pooled rows): the thread state it is entered from and the one it leaves, and the four
  entailments around them. Any float instance.
-/
import proofs.«413413_j23441931501599_1_alg».proof.Proof.FrameKernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W14`, left at `W15`. The region's arrays are split out of the unscoped buffers
    on entry and put back on exit, the result array at its final contents; the generator register goes into the region's
    invariant and comes back; nothing is owed; the kernel has no semaphore of its own. -/
def reg5 : RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W14 m)) c).loose
  hwaits := Pipeline.hwaits_of_owed_zero _ _ _ _ L lv 5 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec5 c (atTc (W14 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (W14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (W14 m) c) (atTc (W15 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Run.lean ====
/-
  The run of the whole kernel program: every weakly fair execution of @main terminates, nothing faulting, with every
  unscoped buffer of every core at the last valuation of the fold. Read off it: each argument array ends as launched (no
  item of @main writes one), and the result array ends at the last host operation applied to the dense stack's output.
  Any float instance.
-/
import proofs.«413413_j23441931501599_1_alg».proof.Proof.FrameKernel.Seg0
import proofs.«413413_j23441931501599_1_alg».proof.Proof.FrameKernel.Seg1
import proofs.«413413_j23441931501599_1_alg».proof.Proof.FrameKernel.Seg2
import proofs.«413413_j23441931501599_1_alg».proof.Proof.FrameKernel.Seg3
import proofs.«413413_j23441931501599_1_alg».proof.Proof.FrameKernel.Seg4
import proofs.«413413_j23441931501599_1_alg».proof.Proof.FrameKernel.Seg5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest state beside the buffers, the same before and after every item. -/
abbrev E : Fin 7 → Dev nD → sProp 𝕄 := fun _ c => R c

/-- @main's sixteen items on core `c`: the generated host segments over the fold's valuations, the six region records. -/
abbrev segs (c : Dev nD) : List (Seg (pcfgs (F := F)) Gen.adm (pdats m) () defs₀ 𝒱₀ L lv) :=
  Gen.segs m (outs m) 𝒱₀ L lv (E (F := F)) () (pdats m) (reg0 m) (reg1 m) (reg2 m) (reg3 m) (reg4 m) (reg5 m) c

/-- Two thread states over equal valuations. -/
theorem held_congr {W W' : Valuation τ sig (Elt F)} (h : W = W') (c : Dev nD) :
    (iprop(StableHlo.held (c : Thread nD τ) (Pipeline.ucRefs τ sig) W ∗ R c) : sProp 𝕄)
      ⊢ iprop(StableHlo.held (c : Thread nD τ) (Pipeline.ucRefs τ sig) W' ∗ R c) := by
  rw [h]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 4000000 in
/-- Every weakly fair execution of @main from memory `m` with zero counters terminates, and every final memory holds every
    unscoped buffer of every core at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V16 m (outs m) c b) := by
  refine Pipeline.θ_run_regions_kit_dev (pcfgs (F := F)) Gen.adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6 ] from rfl]
      exact .rfl)
    (fun c => by simp only [segs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V16 m (outs m) c))
    (hch := fun c => ⟨.rfl, .rfl, .rfl,
      .rfl, held_congr (V4_eq m c).symm c,
      held_congr (V5_eq m c) c, .rfl,
      held_congr (V7_eq m c).symm c,
      held_congr (V8_eq m c) c, held_congr (V9_eq m c).symm c,
      held_congr (V10_eq m c) c, held_congr (V11_eq m c).symm c,
      .rfl, .rfl,
      held_congr (V14_eq m c) c, held_congr (V15_eq m c).symm c,
      sep_mono .rfl (by iintro ⟨-, HO⟩; iexact HO)⟩)
    (hinit := ?_) (QY := fun c s => ∀ b ∈ Pipeline.ucRefs τ sig, s.mem (((c : Thread nD τ)).1, b) = Gen.V16 m (outs m) c b)
    (hfin := fun c s' => ?_) (hQ := fun _ h => h)
  · -- the launch: the unscoped buffers are held at the launch valuation; the rest makes the first rest state on every core
    have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
        ⊢ (|={Set.univ}=> bigSep Finset.univ (fun c : Dev nD => R c) : sProp 𝕄) := by
      refine Pipeline.initEach L lv fun c => ?_
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    have hjoin : (iprop((bigSep Finset.univ fun c : Dev nD => StableHlo.held (c : Thread nD τ) (Pipeline.ucRefs τ sig) (Gen.V0 m c))
          ∗ bigSep Finset.univ fun c : Dev nD => R c) : sProp 𝕄)
        ⊢ bigSep Finset.univ fun c : Dev nD => iprop(StableHlo.held (c : Thread nD τ) (Pipeline.ucRefs τ sig) (Gen.V0 m c) ∗ R c) := by
      rw [← bigSep_sep']
    imodintro
    iapply hjoin
    isplitl [Hh]; · iexact Hh
    iexact HE
  · -- the end: every unscoped buffer read off the last thread state
    iintro ⟨Hh, HSI⟩
    unfold StableHlo.held
    imodintro
    iapply (pointsTo_read_all (Pipeline.ucRefs τ sig) (fun b => (((c : Thread nD τ)).1, b)) (Gen.V16 m (outs m) c) s')
    isplitl [Hh] <;> iassumption

/-! ## Read off the run -/

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ) :=
  (θ_run defs _ _).mono (fun r h c => ⟨
    (h c _ (mem_uc main_arg0 (by decide))).trans (Gen.V16_main_arg0 m (outs m) c),
    (h c _ (mem_uc main_arg1 (by decide))).trans (Gen.V16_main_arg1 m (outs m) c),
    (h c _ (mem_uc main_arg2 (by decide))).trans (Gen.V16_main_arg2 m (outs m) c),
    (h c _ (mem_uc main_arg3 (by decide))).trans (Gen.V16_main_arg3 m (outs m) c),
    (h c _ (mem_uc main_arg4 (by decide))).trans (Gen.V16_main_arg4 m (outs m) c),
    (h c _ (mem_uc main_arg5 (by decide))).trans (Gen.V16_main_arg5 m (outs m) c),
    (h c _ (mem_uc main_arg6 (by decide))).trans (Gen.V16_main_arg6 m (outs m) c),
    (h c _ (mem_uc main_arg7 (by decide))).trans (Gen.V16_main_arg7 m (outs m) c),
    (h c _ (mem_uc main_arg8 (by decide))).trans (Gen.V16_main_arg8 m (outs m) c),
    (h c _ (mem_uc main_arg9 (by decide))).trans (Gen.V16_main_arg9 m (outs m) c),
    (h c _ (mem_uc main_arg10 (by decide))).trans (Gen.V16_main_arg10 m (outs m) c),
    (h c _ (mem_uc main_arg11 (by decide))).trans (Gen.V16_main_arg11 m (outs m) c),
    (h c _ (mem_uc main_arg12 (by decide))).trans (Gen.V16_main_arg12 m (outs m) c),
    (h c _ (mem_uc main_arg13 (by decide))).trans (Gen.V16_main_arg13 m (outs m) c),
    (h c _ (mem_uc main_arg14 (by decide))).trans (Gen.V16_main_arg14 m (outs m) c),
    (h c _ (mem_uc main_arg15 (by decide))).trans (Gen.V16_main_arg15 m (outs m) c),
    (h c _ (mem_uc main_arg16 (by decide))).trans (Gen.V16_main_arg16 m (outs m) c)
    ⟩) (run_all m ρ)

/-- The run with its result named: the result array at the fold's last valuation, every argument as launched. -/
theorem run_result : θ_run defs (onTc (τ := τ) (main (F := F))) ⟨m, fun _ => 0, ρ⟩ (fun r => ∀ c : Dev nD,
      r.2.mem ((c.tc : Thread nD τ).loc main_v86) = W16 m c main_v86 ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      )) :=
  (θ_run defs _ _).mono (fun r h c => ⟨(h c _ (mem_uc main_v86 (by decide))).trans (congrFun (V16_eq m c) _),
    (h c _ (mem_uc main_arg0 (by decide))).trans (Gen.V16_main_arg0 m (outs m) c),
    (h c _ (mem_uc main_arg1 (by decide))).trans (Gen.V16_main_arg1 m (outs m) c),
    (h c _ (mem_uc main_arg2 (by decide))).trans (Gen.V16_main_arg2 m (outs m) c),
    (h c _ (mem_uc main_arg3 (by decide))).trans (Gen.V16_main_arg3 m (outs m) c),
    (h c _ (mem_uc main_arg4 (by decide))).trans (Gen.V16_main_arg4 m (outs m) c),
    (h c _ (mem_uc main_arg5 (by decide))).trans (Gen.V16_main_arg5 m (outs m) c),
    (h c _ (mem_uc main_arg6 (by decide))).trans (Gen.V16_main_arg6 m (outs m) c),
    (h c _ (mem_uc main_arg7 (by decide))).trans (Gen.V16_main_arg7 m (outs m) c),
    (h c _ (mem_uc main_arg8 (by decide))).trans (Gen.V16_main_arg8 m (outs m) c),
    (h c _ (mem_uc main_arg9 (by decide))).trans (Gen.V16_main_arg9 m (outs m) c),
    (h c _ (mem_uc main_arg10 (by decide))).trans (Gen.V16_main_arg10 m (outs m) c),
    (h c _ (mem_uc main_arg11 (by decide))).trans (Gen.V16_main_arg11 m (outs m) c),
    (h c _ (mem_uc main_arg12 (by decide))).trans (Gen.V16_main_arg12 m (outs m) c),
    (h c _ (mem_uc main_arg13 (by decide))).trans (Gen.V16_main_arg13 m (outs m) c),
    (h c _ (mem_uc main_arg14 (by decide))).trans (Gen.V16_main_arg14 m (outs m) c),
    (h c _ (mem_uc main_arg15 (by decide))).trans (Gen.V16_main_arg15 m (outs m) c),
    (h c _ (mem_uc main_arg16 (by decide))).trans (Gen.V16_main_arg16 m (outs m) c)
    ⟩) (run_all m ρ)

end Cert.Kernel.Hand

end
-- ==== Proof.FrameKernelIdeal.R0.lean ====
/-
  The first dense projection, one 2000-row tile of the node features per grid point (25 points): the tile times the
  whole 128 x 256 weight matrix, written to the matching 2000-row tile of the result. Stated at any float instance and
  at any contents `V` of the buffers on entry: which block of which array each staging buffer holds at a point, what
  the body leaves in the output's staging buffer, the body's triple, and the pipeline's proof data with its obligation.
-/
import proofs.«413413_j23441931501599_1_alg».proof.Proof.Gen.KernelIdeal.Launch
import proofs.«413413_j23441931501599_1_alg».proof.Proof.Gen.KernelIdeal.Skeleton
import proofs.«413413_j23441931501599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched at that very
    point (the weights are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev rx0 : Rect S2000x128 := Rect.unit (s := S2000x128) ![0, 0] S2000x128.size inb_S2000x128_S2000x128_0_0
abbrev rw0 : Rect S128x256 := Rect.unit (s := S128x256) ![0, 0] S128x256.size inb_S128x256_S128x256_0_0
abbrev ro0 : Rect S2000x256 := Rect.unit (s := S2000x256) ![0, 0] S2000x256.size inb_S2000x256_S2000x256_0_0

/-- The output tile after the body: one store of the product of the tile and the weights over the whole buffer. -/
def out0_2 (x0 : Vec F S2000x128 .f32) (x1 : Vec F S128x256 .f32) : Vec F S2000x256 .f32 :=
  View.canon [⟨ro0, k0_pay1 (View.ld x0 rx0) (View.ld x1 rw0)⟩]

/-- That one store covers the buffer. -/
theorem cover0_2 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-! ## The body's triple -/

set_option maxHeartbeats 1000000 in
/-- On whole staging buffers, the inputs at `x0`, `x1` and the output at anything, the body runs to its end leaving
    the inputs as they were and the output at `out0_2 x0 x1`. -/
theorem sound_kernel0 (c : Dev nD) (E : Set ℕ) (i : grid0.Coords) (arg1 : Memref sig .tc .vmem S2000x128 .f32) (harg1 : arg1.IsWhole)
    (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input buffer still at its block and the output buffer at
    the product of the two blocks; the invariant is the unopened scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKernelIdeal.R1.lean ====
/-
  The bias-and-rectify step that follows the first aggregation, one 2000-row tile of the aggregated messages per grid
  point (25 points): the 1 x 256 bias row is added to every row of the tile and each entry is then replaced by its
  maximum with zero; the result goes to the matching 2000-row tile of the output. Stated at any float instance and at
  any contents `V` of the buffers on entry: which block of which array each staging buffer holds at a point, what the
  body leaves in the output's staging buffer, the body's triple, and the pipeline's proof data with its obligation.
-/
import proofs.«413413_j23441931501599_1_alg».proof.Proof.Gen.KernelIdeal.Launch
import proofs.«413413_j23441931501599_1_alg».proof.Proof.Gen.KernelIdeal.Skeleton
import proofs.«413413_j23441931501599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched at that very
    point (the bias row is fetched once: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

abbrev rx1 : Rect S2000x256 := Rect.unit (s := S2000x256) ![0, 0] S2000x256.size inb_S2000x256_S2000x256_0_0
abbrev rb1 : Rect S1x256 := Rect.unit (s := S1x256) ![0, 0] S1x256.size inb_S1x256_S1x256_0_0
abbrev ro1 : Rect S2000x256 := Rect.unit (s := S2000x256) ![0, 0] S2000x256.size inb_S2000x256_S2000x256_0_0

/-- The output tile after the body: one store, over the whole buffer, of the tile plus the bias row, rectified. -/
def out1_2 (x0 : Vec F S2000x256 .f32) (x1 : Vec F S1x256 .f32) : Vec F S2000x256 .f32 :=
  View.canon [⟨ro1, k1_pay1 (View.ld x0 rx1) (View.ld x1 rb1)⟩]

/-- That one store covers the buffer. -/
theorem cover1_2 (p0 : Vec F S2000x256 .f32) (y : S2000x256.Idx) :
    ∃ pc ∈ ([⟨ro1, p0⟩] : List (View.Piece (Elt F) S2000x256 .f32)), y ∈ pc.1.set :=
  View.cover_of_tiled [⟨ro1, p0⟩] S2000x256.size (by rfl) y

/-! ## The body's triple -/

set_option maxHeartbeats 1000000 in
/-- On whole staging buffers, the inputs at `x0`, `x1` and the output at anything, the body runs to its end leaving
    the inputs as they were and the output at `out1_2 x0 x1`. -/
theorem sound_kernel1 (c : Dev nD) (E : Set ℕ) (i : grid1.Coords) (arg1 : Memref sig .tc .vmem S2000x256 .f32) (harg1 : arg1.IsWhole)
    (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The arrays as the region finds them; after the body each input buffer still at its block and the output buffer at
    the rectified sum of the tile and the bias row; the invariant is the unopened scoped rest and the generator
    register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKernelIdeal.R2.lean ====
/-
  The second dense projection, one 2000-row tile of the rectified hidden features per grid point (25 points): the tile times the
  whole 256 x 128 weight matrix, written to the matching 2000-row tile of the result. Stated at any float instance and
  at any contents `V` of the buffers on entry: which block of which array each staging buffer holds at a point, what
  the body leaves in the output's staging buffer, the body's triple, and the pipeline's proof data with its obligation.
-/
import proofs.«413413_j23441931501599_1_alg».proof.Proof.Gen.KernelIdeal.Launch
import proofs.«413413_j23441931501599_1_alg».proof.Proof.Gen.KernelIdeal.Skeleton
import proofs.«413413_j23441931501599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched at that very
    point (the weights are fetched once: their block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes -/

abbrev rx2 : Rect S2000x256 := Rect.unit (s := S2000x256) ![0, 0] S2000x256.size inb_S2000x256_S2000x256_0_0
abbrev rw2 : Rect S256x128 := Rect.unit (s := S256x128) ![0, 0] S256x128.size inb_S256x128_S256x128_0_0
abbrev ro2 : Rect S2000x128 := Rect.unit (s := S2000x128) ![0, 0] S2000x128.size inb_S2000x128_S2000x128_0_0

/-- The output tile after the body: one store of the product of the tile and the weights over the whole buffer. -/
def out2_2 (x0 : Vec F S2000x256 .f32) (x1 : Vec F S256x128 .f32) : Vec F S2000x128 .f32 :=
  View.canon [⟨ro2, k2_pay1 (View.ld x0 rx2) (View.ld x1 rw2)⟩]

/-- That one store covers the buffer. -/
theorem cover2_2 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

/-! ## The body's triple -/

set_option maxHeartbeats 1000000 in
/-- On whole staging buffers, the inputs at `x0`, `x1` and the output at anything, the body runs to its end leaving
    the inputs as they were and the output at `out2_2 x0 x1`. -/
theorem sound_kernel2 (c : Dev nD) (E : Set ℕ) (i : grid2.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The arrays as the region finds them; after the body each input buffer still at its block and the output buffer at
    the product of the two blocks; the invariant is the unopened scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The obligation at a point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameKernelIdeal.R3.lean ====
/-
  The bias-and-rectify step that follows the second aggregation, one 2000-row tile of the aggregated messages per grid
  point (25 points): the 1 x 128 bias row is added to every row of the tile and each entry is then replaced by its
  maximum with zero; the result goes to the matching 2000-row tile of the output. Stated at any float instance and at
  any contents `V` of the buffers on entry: which block of which array each staging buffer holds at a point, what the
  body leaves in the output's staging buffer, the body's triple, and the pipeline's proof data with its obligation.
-/
import proofs.«413413_j23441931501599_1_alg».proof.Proof.Gen.KernelIdeal.Launch
import proofs.«413413_j23441931501599_1_alg».proof.Proof.Gen.KernelIdeal.Skeleton
import proofs.«413413_j23441931501599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window `w`'s array that point `t` works on, read off the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether or not the block was fetched at that very
    point (the bias row is fetched once: its block index never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

abbrev rx3 : Rect S2000x128 := Rect.unit (s := S2000x128) ![0, 0] S2000x128.size inb_S2000x128_S2000x128_0_0
abbrev rb3 : Rect S1x128 := Rect.unit (s := S1x128) ![0, 0] S1x128.size inb_S1x128_S1x128_0_0
abbrev ro3 : Rect S2000x128 := Rect.unit (s := S2000x128) ![0, 0] S2000x128.size inb_S2000x128_S2000x128_0_0

/-- The output tile after the body: one store, over the whole buffer, of the tile plus the bias row, rectified. -/
def out3_2 (x0 : Vec F S2000x128 .f32) (x1 : Vec F S1x128 .f32) : Vec F S2000x128 .f32 :=
  View.canon [⟨ro3, k3_pay1 (View.ld x0 rx3) (View.ld x1 rb3)⟩]

/-- That one store covers the buffer. -/
theorem cover3_2 (p0 : Vec F S2000x128 .f32) (y : S2000x128.Idx) :
    ∃ pc ∈ ([⟨ro3, p0⟩] : List (View.Piece (Elt F) S2000x128 .f32)), y ∈ pc.1.set :=
  View.cover_of_tiled [⟨ro3, p0⟩] S2000x128.size (by rfl) y

/-! ## The body's triple -/

set_option maxHeartbeats 1000000 in
/-- On whole staging buffers, the inputs at `x0`, `x1` and the output at anything, the body runs to its end leaving
    the inputs as they were and the output at `out3_2 x0 x1`. -/
theorem sound_kernel3 (c : Dev nD) (E : Set ℕ) (i : grid3.Coords) (arg1 : Memref sig .tc .vmem S2000x128 .f32) (harg1 : arg1.IsWhole)
    (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The arrays as the region finds them; after the body each input buffer still at its block and the output buffer at
    the rectified sum of the tile and the bias row; the invariant is the unopened scoped rest and the generator
    register; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The obligation at a point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameKernelIdeal.R4.lean ====
/-
  The per-graph pooling of node rows, one 2000-row tile of rows and the matching 2000 graph ids per grid point
  (25 points): each point adds, for every graph, the tile's rows of that graph to a 256 x 128 accumulator that lives
  in a scratch buffer the kernel keeps from point to point; the first point clears the accumulator before adding, the
  last point copies it to the output's staging buffer, which is written back only then. Stated at any float instance
  and at any contents `V` of the buffers on entry: which block of which array each staging buffer holds at a point,
  what the accumulator holds after each point (by recursion on the point), the body's triple in each of its three
  control cases, and the pipeline's proof data with its obligation and the two ends of its invariant.
-/
import proofs.«413413_j23441931501599_1_alg».proof.Proof.Gen.KernelIdeal.Launch
import proofs.«413413_j23441931501599_1_alg».proof.Proof.Gen.KernelIdeal.Skeleton
import proofs.«413413_j23441931501599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w`'s array that point `t` works on, read off the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not the block was fetched at that very
    point: the window is never cut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the body reads and writes -/

/-- The whole tile of rows, the whole tile of ids, the whole accumulator (and the whole output buffer, of the same shape). -/
abbrev rx4 : Rect S2000x128 := Rect.unit (s := S2000x128) ![0, 0] S2000x128.size inb_S2000x128_S2000x128_0_0
abbrev ri4 : Rect S2000x1 := Rect.unit (s := S2000x1) ![0, 0] S2000x1.size inb_S2000x1_S2000x1_0_0
abbrev rs4 : Rect S256x128 := Rect.unit (s := S256x128) ![0, 0] S256x128.size inb_S256x128_S256x128_0_0

/-- The scratch operand: a whole scoped buffer of the kernel's own, passed beside the windows. -/
abbrev scM4 : Memref sig .tc .vmem S256x128 .f32 := Memref.whole cc4_scratch0

/-- The accumulator as the first point clears it: one store of zeros over the whole buffer. -/
def clear4 : Vec F S256x128 .f32 := View.canon [⟨rs4, k4_pay1 (F := F)⟩]

/-- One point's step on the accumulator: one store, over the whole buffer, of the accumulator `acc` plus the per-graph
    sums of the tile `rows` under the ids `ids`. -/
def step4 (ids : Vec F S2000x1 .i32) (rows : Vec F S2000x128 .f32) (acc : Vec F S256x128 .f32) : Vec F S256x128 .f32 :=
  View.canon [⟨rs4, k4_pay2 (View.ld ids ri4) (View.ld rows rx4) (View.ld acc rs4)⟩]

/-- THE ACCUMULATION. What the scratch holds after the body at point `n`: the step of the point's two blocks on the
    cleared accumulator at the first point, on what the point before left at every later one. -/
def sc4 (c : Dev nD) : (n : ℕ) → n < cfg4.N → Vec F S256x128 .f32
  | 0, hn => step4 (iblk4 V c 1 ⟨0, hn⟩) (iblk4 V c 0 ⟨0, hn⟩) clear4
  | n + 1, hn => step4 (iblk4 V c 1 ⟨n + 1, hn⟩) (iblk4 V c 0 ⟨n + 1, hn⟩) (sc4 c n (Nat.lt_of_succ_lt hn))

theorem sc4_zero (c : Dev nD) (hn : 0 < cfg4.N) :
    sc4 V c 0 hn = View.canon [⟨rs4, k4_pay2 (View.ld (iblk4 V c 1 ⟨0, hn⟩) ri4) (View.ld (iblk4 V c 0 ⟨0, hn⟩) rx4)
      (View.ld (View.canon [⟨rs4, k4_pay1 (F := F)⟩]) rs4)⟩] := rfl

theorem sc4_succ (c : Dev nD) (n : ℕ) (hn : n + 1 < cfg4.N) :
    sc4 V c (n + 1) hn = View.canon [⟨rs4, k4_pay2 (View.ld (iblk4 V c 1 ⟨n + 1, hn⟩) ri4) (View.ld (iblk4 V c 0 ⟨n + 1, hn⟩) rx4)
      (View.ld (sc4 V c n (Nat.lt_of_succ_lt hn)) rs4)⟩] := rfl

/-- At the first point, stated at the point; -/
theorem sc4_first (c : Dev nD) (t : Fin cfg4.N) (h0 : t.val = 0) :
    sc4 V c t.val t.isLt = step4 (iblk4 V c 1 t) (iblk4 V c 0 t) clear4 := by
  obtain ⟨n, hn⟩ := t
  cases n with
  | zero => rfl
  | succ n => exact absurd h0 (Nat.succ_ne_zero n)

/-- at a later point, over what the point before left. -/
theorem sc4_later (c : Dev nD) (t : Fin cfg4.N) (h0 : t.val ≠ 0) :
    sc4 V c t.val t.isLt = step4 (iblk4 V c 1 t) (iblk4 V c 0 t) (sc4 V c (t.val - 1) (Nat.lt_of_le_of_lt (Nat.sub_le _ _) t.isLt)) := by
  obtain ⟨n, hn⟩ := t
  cases n with
  | zero => exact absurd rfl h0
  | succ n => rfl

/-! ## The body's branch conditions and where the output window is idle -/

/-- The condition of the body's first conditional (the clearing of the accumulator), from the grid coordinate. -/
abbrev cond4_0 (i : grid4.Coords) : Prop :=
  (Scalar.cmpi .ne (Scalar.extui (Scalar.cmpi .eq (BitVec.ofNat 32 (i 0).val) 0#32)) 0#32) = 1#1
/-- The condition of its second conditional (the copy to the output's buffer). -/
abbrev cond4_1 (i : grid4.Coords) : Prop := k4_cond2 i = 1#1

/-- The first holds at the first point only, the second at the last point only: decided over the grid. -/
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 24 :=
  (by decide +kernel : ∀ t : Fin grid4.N, cond4_1 (grid4.coords t) ↔ t.val = 24)

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the output window is idle and its block is not written back; at the last point it is live. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body's triple, case by case -/

/-- The offsets of every rectangle here are zero. -/
theorem zero_off4 : (![0, 0] : Fin 2 → Nat) = fun _ => 0 := funext fun a => by fin_cases a <;> rfl

/-- One store over the whole accumulator covers it; so do two. -/
theorem cover4_1 (p0 : Vec F S256x128 .f32) (y : S256x128.Idx) :
    ∃ pc ∈ ([⟨rs4, p0⟩] : List (View.Piece (Elt F) S256x128 .f32)), y ∈ pc.1.set :=
  View.cover_of_tiled [⟨rs4, p0⟩] S256x128.size (by rfl) y
theorem cover4_2 (p0 p1 : Vec F S256x128 .f32) (y : S256x128.Idx) :
    ∃ pc ∈ ([⟨rs4, p0⟩, ⟨rs4, p1⟩] : List (View.Piece (Elt F) S256x128 .f32)), y ∈ pc.1.set := by
  obtain ⟨pc, hm, hy⟩ := cover4_1 p0 y
  exact ⟨pc, by rw [List.mem_singleton.mp hm]; exact List.mem_cons_self, hy⟩

/-- Of two stores over the whole accumulator only the later one is read back; -/
theorem canon4_2 (p0 p1 : Vec F S256x128 .f32) :
    View.canon [(⟨rs4, p0⟩ : View.Piece (Elt F) S256x128 .f32), ⟨rs4, p1⟩] = View.canon [⟨rs4, p0⟩] := by
  rw [View.canon_cons_unit_zero (S := S256x128) zero_off4, View.canon_unit_zero (S := S256x128) zero_off4]

/-- a load of the whole accumulator after one such store reads what the store left; -/
theorem readCov4 (v : View sig .tc .vmem S256x128 .f32) (p0 : Vec F S256x128 .f32) :
    v.readCov [⟨rs4, p0⟩] rs4.toLoadRect = View.ld (View.canon [⟨rs4, p0⟩]) rs4 :=
  View.readCov_eq_canon_ld _ _ _ (cover4_1 p0)

/-- and storing that load over a whole buffer of the same shape leaves there what the first store left. -/
theorem roundtrip4 (v : View sig .tc .vmem S256x128 .f32) (p0 : Vec F S256x128 .f32) :
    View.canon [(⟨rs4, v.readCov [⟨rs4, p0⟩] rs4.toLoadRect⟩ : View.Piece (Elt F) S256x128 .f32)] = View.canon [⟨rs4, p0⟩] := by
  rw [View.readCov_unit_zero (S := S256x128) v zero_off4]

set_option maxHeartbeats 1000000 in
/-- THE FIRST POINT: on whole buffers, the rows at `x0`, the ids at `x1`, the output's buffer at `xi` and the scratch at
    anything, the body runs to its end leaving the inputs and the output's buffer as they were and the scratch at the
    step of the two blocks on the cleared accumulator. -/
theorem sound_kernel4_first (c : Dev nD) (E : Set ℕ) (i : grid4.Coords) (hc0 : cond4_0 i) (hc1 : ¬cond4_1 i)
    (arg1 : Memref sig .tc .vmem S2000x128 .f32) (harg1 : arg1.IsWhole)
    (arg2 : Memref sig .tc .vmem S2000x1 .i32) (harg2 : arg2.IsWhole) (arg3 : Memref sig .tc .vmem S256x128 .f32) (harg3 : arg3.IsWhole)
    (arg4 : Memref sig .tc .vmem S256x128 .f32) (harg4 : arg4.IsWhole)
    (x0 : Vec F S2000x128 .f32) (x1 : Vec F S2000x1 .i32) (xi : Vec F S256x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (step4 x1 x0 clear4)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover4_2 _ _)).trans ?_
  rw [canon4_2, readCov4]
  rfl

set_option maxHeartbeats 1000000 in
/-- A MIDDLE POINT: the scratch at `xs` goes to the step of the two blocks on `xs`; everything else is left as it was. -/
theorem sound_kernel4_mid (c : Dev nD) (E : Set ℕ) (i : grid4.Coords) (hc0 : ¬cond4_0 i) (hc1 : ¬cond4_1 i)
    (arg1 : Memref sig .tc .vmem S2000x128 .f32) (harg1 : arg1.IsWhole)
    (arg2 : Memref sig .tc .vmem S2000x1 .i32) (harg2 : arg2.IsWhole) (arg3 : Memref sig .tc .vmem S256x128 .f32) (harg3 : arg3.IsWhole)
    (arg4 : Memref sig .tc .vmem S256x128 .f32) (harg4 : arg4.IsWhole)
    (x0 : Vec F S2000x128 .f32) (x1 : Vec F S2000x1 .i32) (xi : Vec F S256x128 .f32) (xs : Vec F S256x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (step4 x1 x0 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_1 _)

set_option maxHeartbeats 1000000 in
/-- THE LAST POINT: the scratch at `xs` goes to the step of the two blocks on `xs`, and the output's buffer, at anything
    before, is left at that same accumulator. -/
theorem sound_kernel4_last (c : Dev nD) (E : Set ℕ) (i : grid4.Coords) (hc0 : ¬cond4_0 i) (hc1 : cond4_1 i)
    (arg1 : Memref sig .tc .vmem S2000x128 .f32) (harg1 : arg1.IsWhole)
    (arg2 : Memref sig .tc .vmem S2000x1 .i32) (harg2 : arg2.IsWhole) (arg3 : Memref sig .tc .vmem S256x128 .f32) (harg3 : arg3.IsWhole)
    (arg4 : Memref sig .tc .vmem S256x128 .f32) (harg4 : arg4.IsWhole)
    (x0 : Vec F S2000x128 .f32) (x1 : Vec F S2000x1 .i32) (xs : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (step4 x1 x0 xs)
            ∗ owns (c : Thread nD τ) arg4 fullShare (step4 x1 x0 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (cover4_1 _)).trans (roundtrip4 _ _)
  iexists _; isplitr
  swap; · iexact H3
  ipureintro
  exact View.read_writes_eq_canon _ _ _ (cover4_1 _)

/-! ## The invariant and the proof data -/

/-- The region's invariant before position `n`: before the first point the scoped rest unopened and the generator
    register at some state; afterwards the scratch whole at what the point before left in it, the remainder of the
    scoped rest unopened, and the generator register at some state. -/
def Phi4 (c : Dev nD) : (n : ℕ) → n ≤ cfg4.N → sProp 𝕄
  | 0, _ => Pipeline.ΦA spec4 c
  | n + 1, hn => iprop((owns (c : Thread nD τ) scM4 fullShare (sc4 V c n hn)
      ∗ Pipeline.scopedRestBut (Ix := Unit) (Name := ℕ) (U := UR sig nD τ) (Lvl := ℕ) (Val := Elt F) spec4 c [cc4_scratch0])
      ∗ (∃ r, prngReg c r))

/-- The arrays as the region finds them; after the body each input buffer still at its block and the output buffer at
    the accumulator (what the last point stores into it: at the other points the window is idle and nothing reads this);
    the invariant carries the accumulator; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => sc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = sc4 V c t.val t.isLt := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The invariant's forms -/

theorem Phi4_zero (c : Dev nD) (n : ℕ) (h : n ≤ cfg4.N) (hz : n = 0) : Phi4 V c n h = Pipeline.ΦA spec4 c := by
  subst hz; rfl

/-- After point `n` (before point `n + 1`): the scratch at that point's accumulator. -/
theorem Phi4_succ (c : Dev nD) (n : ℕ) (hn : n < cfg4.N) :
    Phi4 V c (n + 1) hn = iprop((owns (c : Thread nD τ) scM4 fullShare (sc4 V c n hn)
      ∗ Pipeline.scopedRestBut (Ix := Unit) (Name := ℕ) (U := UR sig nD τ) (Lvl := ℕ) (Val := Elt F) spec4 c [cc4_scratch0])
      ∗ (∃ r, prngReg c r)) := rfl

/-- Before a point that is not the first: the scratch at what the point before left. -/
theorem Phi4_pos (c : Dev nD) (n : ℕ) (h : n ≤ cfg4.N) (hz : n ≠ 0) :
    Phi4 V c n h = iprop((owns (c : Thread nD τ) scM4 fullShare (sc4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The invariant at a point's start, restated at the point's number. -/
theorem Phi4_castSucc (c : Dev nD) (t : Fin cfg4.N) :
    (dat4 V c).Φ t.castSucc = Phi4 V c t.val (Nat.le_of_lt t.isLt) := by
  dsimp only [dat4]; simp only [Fin.coe_castSucc]

/-- What the launch hands the region, with the kernel's scratch split off the scoped rest as a memref owned at some
    contents. -/
theorem PhiA4_eq (c : Dev nD) :
    (Pipeline.ΦA spec4 c : sProp 𝕄)
      = iprop(((∃ d, owns (c : Thread nD τ) scM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-! ## The obligation at a point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point: the inputs' buffers hold their blocks; the point's number says which of the three cases it
    is in; the invariant hands the body the scratch (at anything at the first point, at what the point before left
    afterwards) and takes it back at this point's accumulator; away from the last point the output's buffer is handed
    back as it was found, at the last point it holds the accumulator; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 25 := lt_of_lt_of_eq t.isLt (show cfg4.N = 25 from N_4)
  by_cases h0 : t.val = 0
  · have h1 : ¬t.val = 24 := by omega
    rw [Dat.leavesExact_idle (dat4 V c) 2 t (idleAt4_2 t (fun h => h1 ((hcond4_1 t).mp h))) (noFlush4_2 t (fun h => h1 ((hcond4_1 t).mp h)))]
    rw [sc4_first V c t h0]
    rw [Phi4_castSucc V c t, Phi4_zero V c _ _ h0, PhiA4_eq]
    iintro ⟨⟨⟨HS, Hr⟩, Hg⟩, Ho, ⟨%d0, H0⟩, ⟨%d1, H1⟩, ⟨%d2, H2⟩⟩
    iapply (sound_kernel4_first c Set.univ (grid4.coords t) ((hcond4_0 t).mpr h0) (fun h => h1 ((hcond4_1 t).mp h))
      _ _ _ _ _ _ _ _ (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 24
    · rw [show (dat4 V c).leavesExact 2 t = owns (c : Thread nD τ) (st4_2 t) fullShare ((dat4 V c).after 2 t) from by
        unfold Dat.leavesExact; rw [liveAt4_2 t ((hcond4_1 t).mpr h1)], after4_2]
      rw [sc4_later V c t h0]
      rw [Phi4_castSucc V c t, Phi4_pos V c _ _ h0]
      iintro ⟨⟨⟨HS, Hr⟩, Hg⟩, Ho, ⟨%d0, H0⟩, ⟨%d1, H1⟩, ⟨%d2, H2⟩⟩
      iapply (sound_kernel4_last c Set.univ (grid4.coords t) (fun h => h0 ((hcond4_0 t).mp h)) ((hcond4_1 t).mpr h1)
        _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      rw [sc4_later V c t h0]
      rw [Phi4_castSucc V c t, Phi4_pos V c _ _ h0]
      iintro ⟨⟨⟨HS, Hr⟩, Hg⟩, Ho, ⟨%d0, H0⟩, ⟨%d1, H1⟩, ⟨%d2, H2⟩⟩
      iapply (sound_kernel4_mid c Set.univ (grid4.coords t) (fun h => h0 ((hcond4_0 t).mp h)) (fun h => h1 ((hcond4_1 t).mp h))
        _ _ _ _ _ _ _ _ (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives it back: what the scratch holds is forgotten. -/
theorem hout4 (c : Dev nD) : (dat4 V c).Φ (Fin.last cfg4.N) ⊢ Pipeline.ΦA spec4 c := by
  have hN : cfg4.N = 25 := N_4
  rw [show (dat4 V c).Φ (Fin.last cfg4.N) = Phi4 V c (Fin.last cfg4.N).val (Nat.le_of_lt_succ (Fin.last cfg4.N).isLt) from rfl,
    Phi4_pos V c _ _ (by rw [Fin.val_last]; omega), PhiA4_eq]
  iintro ⟨⟨HS, Hr⟩, Hg⟩
  isplitl [HS Hr]
  · isplitl [HS]; · iexists _; iexact HS
    iexact Hr
  iexact Hg

end Cert.KernelIdeal.Hand

end
-- ==== Proof.FrameKernelIdeal.R5.lean ====
/-
  The five-layer dense stack on the pooled rows, at its single grid point: the 256 x 128 pooled block goes through
  128 -> 128, 128 -> 1024, 1024 -> 1024, 1024 -> 1024 (each followed by its bias row and a clamp at zero) and a last
  1024 -> 128 layer with its bias row; the result is written over the whole 256 x 128 output block. Every window is
  its whole array. Stated at any float instance and at any contents V of the buffers on entry: which block each
  staging buffer holds, what the body leaves in the output's staging buffer, the body's triple, and the pipeline's
  proof data with its obligation.
-/
import proofs.«413413_j23441931501599_1_alg».proof.Proof.Gen.KernelIdeal.Launch
import proofs.«413413_j23441931501599_1_alg».proof.Proof.Gen.KernelIdeal.Skeleton
import proofs.«413413_j23441931501599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core: the parameter every statement below is made at
variable (V : (c : Dev nD) → (b : Ref sig .tc) → Buf (Elt F) ((c : Thread nD τ).loc b))

/-! ## Blocks -/

/-- The block of window w's array that the point works on, read off the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each of the eleven input windows' staging buffers holds its block when the body starts: the body leaves the
    inputs in place, and a fetch of an uncut window puts the block there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## What the body reads and writes -/

-- the whole-array rectangle of each of the seven shapes met
abbrev r5_256x128 : Rect S256x128 := Rect.unit (s := S256x128) ![0, 0] S256x128.size inb_S256x128_S256x128_0_0
abbrev r5_128x128 : Rect S128x128 := Rect.unit (s := S128x128) ![0, 0] S128x128.size inb_S128x128_S128x128_0_0
abbrev r5_1x128 : Rect S1x128 := Rect.unit (s := S1x128) ![0, 0] S1x128.size inb_S1x128_S1x128_0_0
abbrev r5_128x1024 : Rect S128x1024 := Rect.unit (s := S128x1024) ![0, 0] S128x1024.size inb_S128x1024_S128x1024_0_0
abbrev r5_1x1024 : Rect S1x1024 := Rect.unit (s := S1x1024) ![0, 0] S1x1024.size inb_S1x1024_S1x1024_0_0
abbrev r5_1024x1024 : Rect S1024x1024 := Rect.unit (s := S1024x1024) ![0, 0] S1024x1024.size inb_S1024x1024_S1024x1024_0_0
abbrev r5_1024x128 : Rect S1024x128 := Rect.unit (s := S1024x128) ![0, 0] S1024x128.size inb_S1024x128_S1024x128_0_0

/-- The output block after the body: one store, over the whole buffer, of the last layer applied to what the first
    four layers make of the pooled block. -/
def out5_11 (x0 : Vec F S256x128 .f32) (x1 : Vec F S128x128 .f32) (x2 : Vec F S1x128 .f32) (x3 : Vec F S128x1024 .f32)
    (x4 : Vec F S1x1024 .f32) (x5 : Vec F S1024x1024 .f32) (x6 : Vec F S1x1024 .f32) (x7 : Vec F S1024x1024 .f32)
    (x8 : Vec F S1x1024 .f32) (x9 : Vec F S1024x128 .f32) (x10 : Vec F S1x128 .f32) : Vec F S256x128 .f32 :=
  View.canon [⟨r5_256x128,
    k5_pay1
      (k5_pay2 (View.ld x0 r5_256x128) (View.ld x1 r5_128x128) (View.ld x2 r5_1x128) (View.ld x3 r5_128x1024)
        (View.ld x4 r5_1x1024) (View.ld x5 r5_1024x1024) (View.ld x6 r5_1x1024) (View.ld x7 r5_1024x1024))
      (View.ld x8 r5_1x1024) (View.ld x9 r5_1024x128) (View.ld x10 r5_1x128)⟩]

/-- That one store covers the buffer. -/
theorem cover5_11 (p0 : Vec F S256x128 .f32) (y : S256x128.Idx) :
    ∃ pc ∈ ([⟨r5_256x128, p0⟩] : List (View.Piece (Elt F) S256x128 .f32)), y ∈ pc.1.set :=
  View.cover_of_tiled [⟨r5_256x128, p0⟩] S256x128.size (by rfl) y

/-! ## The body's triple -/

set_option maxHeartbeats 4000000 in
/-- On whole staging buffers, the eleven inputs at x0 .. x10 and the output at anything, the body runs to its end
    leaving the inputs as they were and the output at out5_11 x0 .. x10. -/
theorem sound_kernel5 (c : Dev nD) (E : Set ℕ) (i : grid5.Coords)
    (arg1 : Memref sig .tc .vmem S256x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1x1024 .f32) (harg7 : arg7.IsWhole)
    (arg8 : Memref sig .tc .vmem S1024x1024 .f32) (harg8 : arg8.IsWhole)
    (arg9 : Memref sig .tc .vmem S1x1024 .f32) (harg9 : arg9.IsWhole)
    (arg10 : Memref sig .tc .vmem S1024x128 .f32) (harg10 : arg10.IsWhole)
    (arg11 : Memref sig .tc .vmem S1x128 .f32) (harg11 : arg11.IsWhole)
    (arg12 : Memref sig .tc .vmem S256x128 .f32) (harg12 : arg12.IsWhole)
    (x0 : Vec F S256x128 .f32) (x1 : Vec F S128x128 .f32) (x2 : Vec F S1x128 .f32) (x3 : Vec F S128x1024 .f32)
    (x4 : Vec F S1x1024 .f32) (x5 : Vec F S1024x1024 .f32) (x6 : Vec F S1x1024 .f32) (x7 : Vec F S1024x1024 .f32)
    (x8 : Vec F S1x1024 .f32) (x9 : Vec F S1024x128 .f32) (x10 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out5_11 x0 x1 x2 x3 x4 x5 x6 x7 x8 x9 x10)) -∗ K ⟨⟩))
      ⊢ wp frame (wpE (defs₀ (F := F)) Variants.none c none) E
          (cc5__mlp_kernel i arg1 harg1 arg2 harg2 arg3 harg3 arg4 harg4 arg5 harg5 arg6 harg6 arg7 harg7 arg8 harg8
            arg9 harg9 arg10 harg10 arg11 harg11 arg12 harg12) K := by
  simp only [cc5__mlp_kernel_eq_skeleton]; unfold cc5__mlp_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover5_11 _)

/-! ## The proof data -/

/-- The arrays as the region finds them; after the body each of the eleven input buffers still at its block and the
    output buffer at the stack applied to those blocks; the invariant is the unopened scoped rest and the generator
    register; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t =
    out5_11 (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The obligation at a point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8,
    before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10,
    after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩⟩
  iapply (sound_kernel5 c Set.univ _ _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.FrameKernelIdeal.Fold.lean ====
/-
  The contents of a core's unscoped buffers through the whole kernel program. Between two items of @main a core's unscoped buffers hold a known valuation:
  the launch memory, then each host stretch applied, then - at a kernel region's exit - the region's result array
  replaced by what the pipeline's proof data compute for it (every other buffer as entered). Stated here: those valuations, the instantiation of the generated conditional frame's unknowns by them, what each
  region's arrays hold at its exit, and the family of the six pipelines' proof data. Any float instance.
-/
import proofs.«413413_j23441931501599_1_alg».proof.Proof.FrameKernelIdeal.R0
import proofs.«413413_j23441931501599_1_alg».proof.Proof.FrameKernelIdeal.R1
import proofs.«413413_j23441931501599_1_alg».proof.Proof.FrameKernelIdeal.R2
import proofs.«413413_j23441931501599_1_alg».proof.Proof.FrameKernelIdeal.R3
import proofs.«413413_j23441931501599_1_alg».proof.Proof.FrameKernelIdeal.R4
import proofs.«413413_j23441931501599_1_alg».proof.Proof.FrameKernelIdeal.R5
import proofs.«413413_j23441931501599_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's own references: what a region's proof data take. -/
abbrev atTc (W : Dev nD → Valuation τ sig (Elt F)) : (c : Dev nD) → (b : Ref sig .tc) → Buf (Elt F) ((c : Thread nD τ).loc b) :=
  fun c b => W c b

/-- Before region 0: the launch memory after the first three host stretches. -/
abbrev W3 : Dev nD → Valuation τ sig (Elt F) := fun c => Gen.V3 m c
/-- After region 0: the first projection's result in place. -/
def W4 (c : Dev nD) : Valuation τ sig (Elt F) :=
  Function.update (W3 m c) main_v30 ((dat0 (atTc (W3 m)) c).arrAt 2 cfg0.N)
abbrev W5 : Dev nD → Valuation τ sig (Elt F) := fun c => StableHlo.after hostOps1 (W4 m c)
/-- After region 1. -/
def W6 (c : Dev nD) : Valuation τ sig (Elt F) :=
  Function.update (W5 m c) main_v45 ((dat1 (atTc (W5 m)) c).arrAt 2 cfg1.N)
/-- After region 2. -/
def W7 (c : Dev nD) : Valuation τ sig (Elt F) :=
  Function.update (W6 m c) main_v46 ((dat2 (atTc (W6 m)) c).arrAt 2 cfg2.N)
abbrev W8 : Dev nD → Valuation τ sig (Elt F) := fun c => StableHlo.after hostOps3 (W7 m c)
/-- After region 3. -/
def W9 (c : Dev nD) : Valuation τ sig (Elt F) :=
  Function.update (W8 m c) main_v61 ((dat3 (atTc (W8 m)) c).arrAt 2 cfg3.N)
abbrev W10 : Dev nD → Valuation τ sig (Elt F) := fun c => StableHlo.after hostOps4 (W9 m c)
/-- After region 4: the per-graph sums in place. -/
def W11 (c : Dev nD) : Valuation τ sig (Elt F) :=
  Function.update (W10 m c) main_v63 ((dat4 (atTc (W10 m)) c).arrAt 2 cfg4.N)
abbrev W12 : Dev nD → Valuation τ sig (Elt F) := fun c => StableHlo.after hostOps5 (W11 m c)
abbrev W13 : Dev nD → Valuation τ sig (Elt F) := fun c => StableHlo.after hostOps5_1 (W12 m c)
abbrev W14 : Dev nD → Valuation τ sig (Elt F) := fun c => StableHlo.after hostOps5_2 (W13 m c)
/-- After region 5: the dense stack's output in place. -/
def W15 (c : Dev nD) : Valuation τ sig (Elt F) :=
  Function.update (W14 m c) main_v85 ((dat5 (atTc (W14 m)) c).arrAt 11 cfg5.N)
abbrev W16 : Dev nD → Valuation τ sig (Elt F) := fun c => StableHlo.after hostOps6 (W15 m c)

/-! A region's exit valuation differs from its entry valuation at the result array only. -/

theorem W4_of_ne (c : Dev nD) (r : Ref sig .tc) (h : r ≠ main_v30) : W4 m c r = W3 m c r :=
  Function.update_of_ne (StableHlo.devRef_ne_of_ne h) _ _
theorem W4_self (c : Dev nD) : W4 m c main_v30 = (dat0 (atTc (W3 m)) c).arrAt 2 cfg0.N := Function.update_self ..
theorem W6_of_ne (c : Dev nD) (r : Ref sig .tc) (h : r ≠ main_v45) : W6 m c r = W5 m c r :=
  Function.update_of_ne (StableHlo.devRef_ne_of_ne h) _ _
theorem W6_self (c : Dev nD) : W6 m c main_v45 = (dat1 (atTc (W5 m)) c).arrAt 2 cfg1.N := Function.update_self ..
theorem W7_of_ne (c : Dev nD) (r : Ref sig .tc) (h : r ≠ main_v46) : W7 m c r = W6 m c r :=
  Function.update_of_ne (StableHlo.devRef_ne_of_ne h) _ _
theorem W7_self (c : Dev nD) : W7 m c main_v46 = (dat2 (atTc (W6 m)) c).arrAt 2 cfg2.N := Function.update_self ..
theorem W9_of_ne (c : Dev nD) (r : Ref sig .tc) (h : r ≠ main_v61) : W9 m c r = W8 m c r :=
  Function.update_of_ne (StableHlo.devRef_ne_of_ne h) _ _
theorem W9_self (c : Dev nD) : W9 m c main_v61 = (dat3 (atTc (W8 m)) c).arrAt 2 cfg3.N := Function.update_self ..
theorem W11_of_ne (c : Dev nD) (r : Ref sig .tc) (h : r ≠ main_v63) : W11 m c r = W10 m c r :=
  Function.update_of_ne (StableHlo.devRef_ne_of_ne h) _ _
theorem W11_self (c : Dev nD) : W11 m c main_v63 = (dat4 (atTc (W10 m)) c).arrAt 2 cfg4.N := Function.update_self ..
theorem W15_of_ne (c : Dev nD) (r : Ref sig .tc) (h : r ≠ main_v85) : W15 m c r = W14 m c r :=
  Function.update_of_ne (StableHlo.devRef_ne_of_ne h) _ _
theorem W15_self (c : Dev nD) : W15 m c main_v85 = (dat5 (atTc (W14 m)) c).arrAt 11 cfg5.N := Function.update_self ..

/-! ## The conditional frame's unknowns, instantiated -/

/-- What each region leaves in its result array is what the fold holds there (the other entries are never read). -/
def outs : Gen.Outs (F := F) := fun J r c => match J with
  | 4 => W4 m c r
  | 6 => W6 m c r
  | 7 => W7 m c r
  | 9 => W9 m c r
  | 11 => W11 m c r
  | 15 => W15 m c r
  | _ => W3 m c r

/-- With that choice the conditional frame's valuations are the fold's, item by item. -/
theorem V4_eq (c : Dev nD) : Gen.V4 m (outs m) c = W4 m c := by
  unfold W4; exact congrArg (Function.update (Gen.V3 m c) (Proc.devRef .tc main_v30)) (W4_self m c)
theorem V5_eq (c : Dev nD) : Gen.V5 m (outs m) c = W5 m c :=
  congrArg (StableHlo.after (hostOps1 (F := F))) (V4_eq m c)
theorem V6_eq (c : Dev nD) : Gen.V6 m (outs m) c = W6 m c :=
  (congrArg (fun W => Function.update W (Proc.devRef .tc main_v45) (outs m 6 main_v45 c)) (V5_eq m c)).trans
    (congrArg (Function.update (W5 m c) (Proc.devRef .tc main_v45)) (W6_self m c))
theorem V7_eq (c : Dev nD) : Gen.V7 m (outs m) c = W7 m c :=
  (congrArg (fun W => Function.update W (Proc.devRef .tc main_v46) (outs m 7 main_v46 c)) (V6_eq m c)).trans
    (congrArg (Function.update (W6 m c) (Proc.devRef .tc main_v46)) (W7_self m c))
theorem V8_eq (c : Dev nD) : Gen.V8 m (outs m) c = W8 m c :=
  congrArg (StableHlo.after (hostOps3 (F := F))) (V7_eq m c)
theorem V9_eq (c : Dev nD) : Gen.V9 m (outs m) c = W9 m c :=
  (congrArg (fun W => Function.update W (Proc.devRef .tc main_v61) (outs m 9 main_v61 c)) (V8_eq m c)).trans
    (congrArg (Function.update (W8 m c) (Proc.devRef .tc main_v61)) (W9_self m c))
theorem V10_eq (c : Dev nD) : Gen.V10 m (outs m) c = W10 m c :=
  congrArg (StableHlo.after (hostOps4 (F := F))) (V9_eq m c)
theorem V11_eq (c : Dev nD) : Gen.V11 m (outs m) c = W11 m c :=
  (congrArg (fun W => Function.update W (Proc.devRef .tc main_v63) (outs m 11 main_v63 c)) (V10_eq m c)).trans
    (congrArg (Function.update (W10 m c) (Proc.devRef .tc main_v63)) (W11_self m c))
theorem V12_eq (c : Dev nD) : Gen.V12 m (outs m) c = W12 m c :=
  congrArg (StableHlo.after (hostOps5 (F := F))) (V11_eq m c)
theorem V13_eq (c : Dev nD) : Gen.V13 m (outs m) c = W13 m c :=
  congrArg (StableHlo.after (hostOps5_1 (F := F))) (V12_eq m c)
theorem V14_eq (c : Dev nD) : Gen.V14 m (outs m) c = W14 m c :=
  congrArg (StableHlo.after (hostOps5_2 (F := F))) (V13_eq m c)
theorem V15_eq (c : Dev nD) : Gen.V15 m (outs m) c = W15 m c :=
  (congrArg (fun W => Function.update W (Proc.devRef .tc main_v85) (outs m 15 main_v85 c)) (V14_eq m c)).trans
    (congrArg (Function.update (W14 m c) (Proc.devRef .tc main_v85)) (W15_self m c))
theorem V16_eq (c : Dev nD) : Gen.V16 m (outs m) c = W16 m c :=
  congrArg (StableHlo.after (hostOps6 (F := F))) (V15_eq m c)

/-! ## Each region's arrays at its exit -/

theorem hF0 (c : Dev nD) : ∀ w : Fin cfg0.W, (dat0 (atTc (W3 m)) c).arrAt w cfg0.N = atTc (W4 m) c (Pipeline.arrRef spec0 w)
  | ⟨0, _⟩ => ((dat0 (atTc (W3 m)) c).arrAt_in 0 rfl _).trans ((A_eq0 (atTc (W3 m)) c 0).trans (W4_of_ne m c _ (by decide)).symm)
  | ⟨1, _⟩ => ((dat0 (atTc (W3 m)) c).arrAt_in 1 rfl _).trans ((A_eq0 (atTc (W3 m)) c 1).trans (W4_of_ne m c _ (by decide)).symm)
  | ⟨2, _⟩ => (W4_self m c).symm
theorem hrest0 (c : Dev nD) : ∀ b, b ∉ Finset.univ.image (Pipeline.arrRef spec0) → atTc (W4 m) c b = atTc (W3 m) c b :=
  fun b hb => W4_of_ne m c b fun e => hb (Finset.mem_image.mpr ⟨2, Finset.mem_univ _, e.symm⟩)
theorem hF1 (c : Dev nD) : ∀ w : Fin cfg1.W, (dat1 (atTc (W5 m)) c).arrAt w cfg1.N = atTc (W6 m) c (Pipeline.arrRef spec1 w)
  | ⟨0, _⟩ => ((dat1 (atTc (W5 m)) c).arrAt_in 0 rfl _).trans ((A_eq1 (atTc (W5 m)) c 0).trans (W6_of_ne m c _ (by decide)).symm)
  | ⟨1, _⟩ => ((dat1 (atTc (W5 m)) c).arrAt_in 1 rfl _).trans ((A_eq1 (atTc (W5 m)) c 1).trans (W6_of_ne m c _ (by decide)).symm)
  | ⟨2, _⟩ => (W6_self m c).symm
theorem hrest1 (c : Dev nD) : ∀ b, b ∉ Finset.univ.image (Pipeline.arrRef spec1) → atTc (W6 m) c b = atTc (W5 m) c b :=
  fun b hb => W6_of_ne m c b fun e => hb (Finset.mem_image.mpr ⟨2, Finset.mem_univ _, e.symm⟩)
theorem hF2 (c : Dev nD) : ∀ w : Fin cfg2.W, (dat2 (atTc (W6 m)) c).arrAt w cfg2.N = atTc (W7 m) c (Pipeline.arrRef spec2 w)
  | ⟨0, _⟩ => ((dat2 (atTc (W6 m)) c).arrAt_in 0 rfl _).trans ((A_eq2 (atTc (W6 m)) c 0).trans (W7_of_ne m c _ (by decide)).symm)
  | ⟨1, _⟩ => ((dat2 (atTc (W6 m)) c).arrAt_in 1 rfl _).trans ((A_eq2 (atTc (W6 m)) c 1).trans (W7_of_ne m c _ (by decide)).symm)
  | ⟨2, _⟩ => (W7_self m c).symm
theorem hrest2 (c : Dev nD) : ∀ b, b ∉ Finset.univ.image (Pipeline.arrRef spec2) → atTc (W7 m) c b = atTc (W6 m) c b :=
  fun b hb => W7_of_ne m c b fun e => hb (Finset.mem_image.mpr ⟨2, Finset.mem_univ _, e.symm⟩)
theorem hF3 (c : Dev nD) : ∀ w : Fin cfg3.W, (dat3 (atTc (W8 m)) c).arrAt w cfg3.N = atTc (W9 m) c (Pipeline.arrRef spec3 w)
  | ⟨0, _⟩ => ((dat3 (atTc (W8 m)) c).arrAt_in 0 rfl _).trans ((A_eq3 (atTc (W8 m)) c 0).trans (W9_of_ne m c _ (by decide)).symm)
  | ⟨1, _⟩ => ((dat3 (atTc (W8 m)) c).arrAt_in 1 rfl _).trans ((A_eq3 (atTc (W8 m)) c 1).trans (W9_of_ne m c _ (by decide)).symm)
  | ⟨2, _⟩ => (W9_self m c).symm
theorem hrest3 (c : Dev nD) : ∀ b, b ∉ Finset.univ.image (Pipeline.arrRef spec3) → atTc (W9 m) c b = atTc (W8 m) c b :=
  fun b hb => W9_of_ne m c b fun e => hb (Finset.mem_image.mpr ⟨2, Finset.mem_univ _, e.symm⟩)
theorem hF4 (c : Dev nD) : ∀ w : Fin cfg4.W, (dat4 (atTc (W10 m)) c).arrAt w cfg4.N = atTc (W11 m) c (Pipeline.arrRef spec4 w)
  | ⟨0, _⟩ => ((dat4 (atTc (W10 m)) c).arrAt_in 0 rfl _).trans ((A_eq4 (atTc (W10 m)) c 0).trans (W11_of_ne m c _ (by decide)).symm)
  | ⟨1, _⟩ => ((dat4 (atTc (W10 m)) c).arrAt_in 1 rfl _).trans ((A_eq4 (atTc (W10 m)) c 1).trans (W11_of_ne m c _ (by decide)).symm)
  | ⟨2, _⟩ => (W11_self m c).symm
theorem hrest4 (c : Dev nD) : ∀ b, b ∉ Finset.univ.image (Pipeline.arrRef spec4) → atTc (W11 m) c b = atTc (W10 m) c b :=
  fun b hb => W11_of_ne m c b fun e => hb (Finset.mem_image.mpr ⟨2, Finset.mem_univ _, e.symm⟩)
set_option maxHeartbeats 4000000 in
theorem hF5 (c : Dev nD) : ∀ w : Fin cfg5.W, (dat5 (atTc (W14 m)) c).arrAt w cfg5.N = atTc (W15 m) c (Pipeline.arrRef spec5 w)
  | ⟨0, _⟩ => ((dat5 (atTc (W14 m)) c).arrAt_in 0 rfl _).trans ((A_eq5 (atTc (W14 m)) c 0).trans (W15_of_ne m c _ (by decide)).symm)
  | ⟨1, _⟩ => ((dat5 (atTc (W14 m)) c).arrAt_in 1 rfl _).trans ((A_eq5 (atTc (W14 m)) c 1).trans (W15_of_ne m c _ (by decide)).symm)
  | ⟨2, _⟩ => ((dat5 (atTc (W14 m)) c).arrAt_in 2 rfl _).trans ((A_eq5 (atTc (W14 m)) c 2).trans (W15_of_ne m c _ (by decide)).symm)
  | ⟨3, _⟩ => ((dat5 (atTc (W14 m)) c).arrAt_in 3 rfl _).trans ((A_eq5 (atTc (W14 m)) c 3).trans (W15_of_ne m c _ (by decide)).symm)
  | ⟨4, _⟩ => ((dat5 (atTc (W14 m)) c).arrAt_in 4 rfl _).trans ((A_eq5 (atTc (W14 m)) c 4).trans (W15_of_ne m c _ (by decide)).symm)
  | ⟨5, _⟩ => ((dat5 (atTc (W14 m)) c).arrAt_in 5 rfl _).trans ((A_eq5 (atTc (W14 m)) c 5).trans (W15_of_ne m c _ (by decide)).symm)
  | ⟨6, _⟩ => ((dat5 (atTc (W14 m)) c).arrAt_in 6 rfl _).trans ((A_eq5 (atTc (W14 m)) c 6).trans (W15_of_ne m c _ (by decide)).symm)
  | ⟨7, _⟩ => ((dat5 (atTc (W14 m)) c).arrAt_in 7 rfl _).trans ((A_eq5 (atTc (W14 m)) c 7).trans (W15_of_ne m c _ (by decide)).symm)
  | ⟨8, _⟩ => ((dat5 (atTc (W14 m)) c).arrAt_in 8 rfl _).trans ((A_eq5 (atTc (W14 m)) c 8).trans (W15_of_ne m c _ (by decide)).symm)
  | ⟨9, _⟩ => ((dat5 (atTc (W14 m)) c).arrAt_in 9 rfl _).trans ((A_eq5 (atTc (W14 m)) c 9).trans (W15_of_ne m c _ (by decide)).symm)
  | ⟨10, _⟩ => ((dat5 (atTc (W14 m)) c).arrAt_in 10 rfl _).trans ((A_eq5 (atTc (W14 m)) c 10).trans (W15_of_ne m c _ (by decide)).symm)
  | ⟨11, _⟩ => (W15_self m c).symm
theorem hrest5 (c : Dev nD) : ∀ b, b ∉ Finset.univ.image (Pipeline.arrRef spec5) → atTc (W15 m) c b = atTc (W14 m) c b :=
  fun b hb => W15_of_ne m c b fun e => hb (Finset.mem_image.mpr ⟨11, Finset.mem_univ _, e.symm⟩)

/-! ## The proof data family and what rides beside the buffers -/

/-- Every pipeline's proof data, each at its region's entry valuation: a literal match on the pipeline's number. -/
def pdats : (p : Fin 6) → (c : Dev nD) → Dat τ (Elt F) Unit ℕ (UR sig nD τ) ℕ (Pipeline.pin (pcfgs (F := F)) Gen.adm p) c
  | ⟨0, _⟩ => fun c => dat0 (atTc (W3 m)) c
  | ⟨1, _⟩ => fun c => dat1 (atTc (W5 m)) c
  | ⟨2, _⟩ => fun c => dat2 (atTc (W6 m)) c
  | ⟨3, _⟩ => fun c => dat3 (atTc (W8 m)) c
  | ⟨4, _⟩ => fun c => dat4 (atTc (W10 m)) c
  | ⟨5, _⟩ => fun c => dat5 (atTc (W14 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

end Cert.KernelIdeal.Hand

end
-- ==== Proof.FrameKernelIdeal.Seg0.lean ====
/-
  Region 0 as an item of @main (the first dense projection): the thread state it is entered from and the one it leaves, and the four
  entailments around them. Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W3`, left at `W4`. The region's arrays are split out of the unscoped buffers
    on entry and put back on exit, the result array at its final contents; the generator register goes into the region's
    invariant and comes back; nothing is owed; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Seg1.lean ====
/-
  Region 1 as an item of @main (bias and rectification at width 256): the thread state it is entered from and the one it leaves, and the four
  entailments around them. Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W5`, left at `W6`. The region's arrays are split out of the unscoped buffers
    on entry and put back on exit, the result array at its final contents; the generator register goes into the region's
    invariant and comes back; nothing is owed; the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Seg2.lean ====
/-
  Region 2 as an item of @main (the second dense projection): the thread state it is entered from and the one it leaves, and the four
  entailments around them. Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W6`, left at `W7`. The region's arrays are split out of the unscoped buffers
    on entry and put back on exit, the result array at its final contents; the generator register goes into the region's
    invariant and comes back; nothing is owed; the kernel has no semaphore of its own. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W6 m)) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (atTc (W6 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (W6 m) c) (atTc (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Seg3.lean ====
/-
  Region 3 as an item of @main (bias and rectification at width 128): the thread state it is entered from and the one it leaves, and the four
  entailments around them. Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W8`, left at `W9`. The region's arrays are split out of the unscoped buffers
    on entry and put back on exit, the result array at its final contents; the generator register goes into the region's
    invariant and comes back; nothing is owed; the kernel has no semaphore of its own. -/
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W8 m)) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (atTc (W8 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (W8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (W8 m) c) (atTc (W9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Seg4.lean ====
/-
  Region 4 as an item of @main (the per-graph sum of node rows, accumulated in a scratch carried between grid points): the thread state it is entered from and the one it leaves, and the four
  entailments around them. Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W10`, left at `W11`. The region's arrays are split out of the unscoped buffers
    on entry and put back on exit, the result array at its final contents; the generator register and the scoped rest go into the
    region's invariant, which carries the scratch's contents from point to point, and come back; nothing is owed; the kernel has no semaphore of its own. -/
def reg4 : RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W10 m)) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (atTc (W10 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (atTc (W10 m)) c)
    unfold Pipeline.ΦA
    iintro ⟨Hp, -, Hr⟩
    isplitl [Hr]; · iexact Hr
    iexact Hp
  hout c := by
    refine BIBase.Entails.trans (hout4 (atTc (W10 m)) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (W10 m) c) (atTc (W11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Seg5.lean ====
/-
  Region 5 as an item of @main (the dense stack on the pooled rows): the thread state it is entered from and the one it leaves, and the four
  entailments around them. Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Entered from every unscoped buffer at `W14`, left at `W15`. The region's arrays are split out of the unscoped buffers
    on entry and put back on exit, the result array at its final contents; the generator register goes into the region's
    invariant and comes back; nothing is owed; the kernel has no semaphore of its own. -/
def reg5 : RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W14 m)) c).loose
  hwaits := Pipeline.hwaits_of_owed_zero _ _ _ _ L lv 5 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec5 c (atTc (W14 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (W14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (W14 m) c) (atTc (W15 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Run.lean ====
/-
  The run of the whole kernel program: every weakly fair execution of @main terminates, nothing faulting, with every
  unscoped buffer of every core at the last valuation of the fold. Read off it: each argument array ends as launched (no
  item of @main writes one), and the result array ends at the last host operation applied to the dense stack's output.
  Any float instance.
-/
import proofs.«413413_j23441931501599_1_alg».proof.Proof.FrameKernelIdeal.Seg0
import proofs.«413413_j23441931501599_1_alg».proof.Proof.FrameKernelIdeal.Seg1
import proofs.«413413_j23441931501599_1_alg».proof.Proof.FrameKernelIdeal.Seg2
import proofs.«413413_j23441931501599_1_alg».proof.Proof.FrameKernelIdeal.Seg3
import proofs.«413413_j23441931501599_1_alg».proof.Proof.FrameKernelIdeal.Seg4
import proofs.«413413_j23441931501599_1_alg».proof.Proof.FrameKernelIdeal.Seg5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest state beside the buffers, the same before and after every item. -/
abbrev E : Fin 7 → Dev nD → sProp 𝕄 := fun _ c => R c

/-- @main's sixteen items on core `c`: the generated host segments over the fold's valuations, the six region records. -/
abbrev segs (c : Dev nD) : List (Seg (pcfgs (F := F)) Gen.adm (pdats m) () defs₀ 𝒱₀ L lv) :=
  Gen.segs m (outs m) 𝒱₀ L lv (E (F := F)) () (pdats m) (reg0 m) (reg1 m) (reg2 m) (reg3 m) (reg4 m) (reg5 m) c

/-- Two thread states over equal valuations. -/
theorem held_congr {W W' : Valuation τ sig (Elt F)} (h : W = W') (c : Dev nD) :
    (iprop(StableHlo.held (c : Thread nD τ) (Pipeline.ucRefs τ sig) W ∗ R c) : sProp 𝕄)
      ⊢ iprop(StableHlo.held (c : Thread nD τ) (Pipeline.ucRefs τ sig) W' ∗ R c) := by
  rw [h]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 4000000 in
/-- Every weakly fair execution of @main from memory `m` with zero counters terminates, and every final memory holds every
    unscoped buffer of every core at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V16 m (outs m) c b) := by
  refine Pipeline.θ_run_regions_kit_dev (pcfgs (F := F)) Gen.adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6 ] from rfl]
      exact .rfl)
    (fun c => by simp only [segs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V16 m (outs m) c))
    (hch := fun c => ⟨.rfl, .rfl, .rfl,
      .rfl, held_congr (V4_eq m c).symm c,
      held_congr (V5_eq m c) c, .rfl,
      held_congr (V7_eq m c).symm c,
      held_congr (V8_eq m c) c, held_congr (V9_eq m c).symm c,
      held_congr (V10_eq m c) c, held_congr (V11_eq m c).symm c,
      .rfl, .rfl,
      held_congr (V14_eq m c) c, held_congr (V15_eq m c).symm c,
      sep_mono .rfl (by iintro ⟨-, HO⟩; iexact HO)⟩)
    (hinit := ?_) (QY := fun c s => ∀ b ∈ Pipeline.ucRefs τ sig, s.mem (((c : Thread nD τ)).1, b) = Gen.V16 m (outs m) c b)
    (hfin := fun c s' => ?_) (hQ := fun _ h => h)
  · -- the launch: the unscoped buffers are held at the launch valuation; the rest makes the first rest state on every core
    have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
        ⊢ (|={Set.univ}=> bigSep Finset.univ (fun c : Dev nD => R c) : sProp 𝕄) := by
      refine Pipeline.initEach L lv fun c => ?_
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    have hjoin : (iprop((bigSep Finset.univ fun c : Dev nD => StableHlo.held (c : Thread nD τ) (Pipeline.ucRefs τ sig) (Gen.V0 m c))
          ∗ bigSep Finset.univ fun c : Dev nD => R c) : sProp 𝕄)
        ⊢ bigSep Finset.univ fun c : Dev nD => iprop(StableHlo.held (c : Thread nD τ) (Pipeline.ucRefs τ sig) (Gen.V0 m c) ∗ R c) := by
      rw [← bigSep_sep']
    imodintro
    iapply hjoin
    isplitl [Hh]; · iexact Hh
    iexact HE
  · -- the end: every unscoped buffer read off the last thread state
    iintro ⟨Hh, HSI⟩
    unfold StableHlo.held
    imodintro
    iapply (pointsTo_read_all (Pipeline.ucRefs τ sig) (fun b => (((c : Thread nD τ)).1, b)) (Gen.V16 m (outs m) c) s')
    isplitl [Hh] <;> iassumption

/-! ## Read off the run -/

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ) :=
  (θ_run defs _ _).mono (fun r h c => ⟨
    (h c _ (mem_uc main_arg0 (by decide))).trans (Gen.V16_main_arg0 m (outs m) c),
    (h c _ (mem_uc main_arg1 (by decide))).trans (Gen.V16_main_arg1 m (outs m) c),
    (h c _ (mem_uc main_arg2 (by decide))).trans (Gen.V16_main_arg2 m (outs m) c),
    (h c _ (mem_uc main_arg3 (by decide))).trans (Gen.V16_main_arg3 m (outs m) c),
    (h c _ (mem_uc main_arg4 (by decide))).trans (Gen.V16_main_arg4 m (outs m) c),
    (h c _ (mem_uc main_arg5 (by decide))).trans (Gen.V16_main_arg5 m (outs m) c),
    (h c _ (mem_uc main_arg6 (by decide))).trans (Gen.V16_main_arg6 m (outs m) c),
    (h c _ (mem_uc main_arg7 (by decide))).trans (Gen.V16_main_arg7 m (outs m) c),
    (h c _ (mem_uc main_arg8 (by decide))).trans (Gen.V16_main_arg8 m (outs m) c),
    (h c _ (mem_uc main_arg9 (by decide))).trans (Gen.V16_main_arg9 m (outs m) c),
    (h c _ (mem_uc main_arg10 (by decide))).trans (Gen.V16_main_arg10 m (outs m) c),
    (h c _ (mem_uc main_arg11 (by decide))).trans (Gen.V16_main_arg11 m (outs m) c),
    (h c _ (mem_uc main_arg12 (by decide))).trans (Gen.V16_main_arg12 m (outs m) c),
    (h c _ (mem_uc main_arg13 (by decide))).trans (Gen.V16_main_arg13 m (outs m) c),
    (h c _ (mem_uc main_arg14 (by decide))).trans (Gen.V16_main_arg14 m (outs m) c),
    (h c _ (mem_uc main_arg15 (by decide))).trans (Gen.V16_main_arg15 m (outs m) c),
    (h c _ (mem_uc main_arg16 (by decide))).trans (Gen.V16_main_arg16 m (outs m) c)
    ⟩) (run_all m ρ)

/-- The run with its result named: the result array at the fold's last valuation, every argument as launched. -/
theorem run_result : θ_run defs (onTc (τ := τ) (main (F := F))) ⟨m, fun _ => 0, ρ⟩ (fun r => ∀ c : Dev nD,
      r.2.mem ((c.tc : Thread nD τ).loc main_v86) = W16 m c main_v86 ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      )) :=
  (θ_run defs _ _).mono (fun r h c => ⟨(h c _ (mem_uc main_v86 (by decide))).trans (congrFun (V16_eq m c) _),
    (h c _ (mem_uc main_arg0 (by decide))).trans (Gen.V16_main_arg0 m (outs m) c),
    (h c _ (mem_uc main_arg1 (by decide))).trans (Gen.V16_main_arg1 m (outs m) c),
    (h c _ (mem_uc main_arg2 (by decide))).trans (Gen.V16_main_arg2 m (outs m) c),
    (h c _ (mem_uc main_arg3 (by decide))).trans (Gen.V16_main_arg3 m (outs m) c),
    (h c _ (mem_uc main_arg4 (by decide))).trans (Gen.V16_main_arg4 m (outs m) c),
    (h c _ (mem_uc main_arg5 (by decide))).trans (Gen.V16_main_arg5 m (outs m) c),
    (h c _ (mem_uc main_arg6 (by decide))).trans (Gen.V16_main_arg6 m (outs m) c),
    (h c _ (mem_uc main_arg7 (by decide))).trans (Gen.V16_main_arg7 m (outs m) c),
    (h c _ (mem_uc main_arg8 (by decide))).trans (Gen.V16_main_arg8 m (outs m) c),
    (h c _ (mem_uc main_arg9 (by decide))).trans (Gen.V16_main_arg9 m (outs m) c),
    (h c _ (mem_uc main_arg10 (by decide))).trans (Gen.V16_main_arg10 m (outs m) c),
    (h c _ (mem_uc main_arg11 (by decide))).trans (Gen.V16_main_arg11 m (outs m) c),
    (h c _ (mem_uc main_arg12 (by decide))).trans (Gen.V16_main_arg12 m (outs m) c),
    (h c _ (mem_uc main_arg13 (by decide))).trans (Gen.V16_main_arg13 m (outs m) c),
    (h c _ (mem_uc main_arg14 (by decide))).trans (Gen.V16_main_arg14 m (outs m) c),
    (h c _ (mem_uc main_arg15 (by decide))).trans (Gen.V16_main_arg15 m (outs m) c),
    (h c _ (mem_uc main_arg16 (by decide))).trans (Gen.V16_main_arg16 m (outs m) c)
    ⟩) (run_all m ρ)

end Cert.KernelIdeal.Hand

end
-- ==== Proof.FrameKernelIdeal.Keep.lean ====
/-
  What the items of @main leave alone. A reference that no host stretch writes and that is no region's result holds the
  launch contents at every valuation of the fold; the index vectors and the normalisation made before the first region
  survive to the second aggregation; each region's result survives the host stretches up to the region that reads it.
  Any float instance.
-/
import proofs.«413413_j23441931501599_1_alg».proof.Proof.FrameKernelIdeal.Fold

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

/-! ## One step of the fold at a reference the step does not write -/

theorem W5_of (r : Ref sig .tc) (h : r ∉ hostOps1_W) : W5 m c r = W4 m c r :=
  StableHlo.after_of_writes_sub hostOps1 _ hostOps1_writes h
theorem W8_of (r : Ref sig .tc) (h : r ∉ hostOps3_W) : W8 m c r = W7 m c r :=
  StableHlo.after_of_writes_sub hostOps3 _ hostOps3_writes h
theorem W10_of (r : Ref sig .tc) (h : r ∉ hostOps4_W) : W10 m c r = W9 m c r :=
  StableHlo.after_of_writes_sub hostOps4 _ hostOps4_writes h
theorem W12_of (r : Ref sig .tc) (h : r ∉ hostOps5_W) : W12 m c r = W11 m c r :=
  StableHlo.after_of_writes_sub hostOps5 _ hostOps5_writes h
theorem W13_of (r : Ref sig .tc) (h : r ∉ hostOps5_1_W) : W13 m c r = W12 m c r :=
  StableHlo.after_of_writes_sub hostOps5_1 _ hostOps5_1_writes h
theorem W14_of (r : Ref sig .tc) (h : r ∉ hostOps5_2_W) : W14 m c r = W13 m c r :=
  StableHlo.after_of_writes_sub hostOps5_2 _ hostOps5_2_writes h
theorem W16_of (r : Ref sig .tc) (h : r ∉ hostOps6_W) : W16 m c r = W15 m c r :=
  StableHlo.after_of_writes_sub hostOps6 _ hostOps6_writes h

/-! ## A reference no item writes -/

/-- No host stretch up to region 5 writes `r` and `r` is no region's result. -/
def Untouched (r : Ref sig .tc) : Prop :=
  r ∉ (hostOps0_W : List (Ref sig .tc)) ∧ r ∉ (hostOps0_1_W : List (Ref sig .tc)) ∧ r ∉ (hostOps0_2_W : List (Ref sig .tc)) ∧ r ≠ main_v30
    ∧ r ∉ (hostOps1_W : List (Ref sig .tc)) ∧ r ≠ main_v45 ∧ r ≠ main_v46 ∧ r ∉ (hostOps3_W : List (Ref sig .tc)) ∧ r ≠ main_v61
    ∧ r ∉ (hostOps4_W : List (Ref sig .tc)) ∧ r ≠ main_v63 ∧ r ∉ (hostOps5_W : List (Ref sig .tc)) ∧ r ∉ (hostOps5_1_W : List (Ref sig .tc))
    ∧ r ∉ (hostOps5_2_W : List (Ref sig .tc)) ∧ r ≠ main_v85
instance (r : Ref sig .tc) : Decidable (Untouched r) := by unfold Untouched; infer_instance

variable {r : Ref sig .tc} (h : Untouched r)
include h

theorem W3_un : W3 m c r = m ((c : Thread nD τ).loc r) :=
  (Gen.V3_of m c r h.2.2.1).trans ((Gen.V2_of m c r h.2.1).trans (Gen.V1_of m c r h.1))
theorem W4_un : W4 m c r = m ((c : Thread nD τ).loc r) := (W4_of_ne m c r h.2.2.2.1).trans (W3_un m c h)
theorem W5_un : W5 m c r = m ((c : Thread nD τ).loc r) := (W5_of m c r h.2.2.2.2.1).trans (W4_un m c h)
theorem W6_un : W6 m c r = m ((c : Thread nD τ).loc r) := (W6_of_ne m c r h.2.2.2.2.2.1).trans (W5_un m c h)
theorem W7_un : W7 m c r = m ((c : Thread nD τ).loc r) := (W7_of_ne m c r h.2.2.2.2.2.2.1).trans (W6_un m c h)
theorem W8_un : W8 m c r = m ((c : Thread nD τ).loc r) := (W8_of m c r h.2.2.2.2.2.2.2.1).trans (W7_un m c h)
theorem W9_un : W9 m c r = m ((c : Thread nD τ).loc r) := (W9_of_ne m c r h.2.2.2.2.2.2.2.2.1).trans (W8_un m c h)
theorem W10_un : W10 m c r = m ((c : Thread nD τ).loc r) := (W10_of m c r h.2.2.2.2.2.2.2.2.2.1).trans (W9_un m c h)
theorem W11_un : W11 m c r = m ((c : Thread nD τ).loc r) := (W11_of_ne m c r h.2.2.2.2.2.2.2.2.2.2.1).trans (W10_un m c h)
theorem W12_un : W12 m c r = m ((c : Thread nD τ).loc r) := (W12_of m c r h.2.2.2.2.2.2.2.2.2.2.2.1).trans (W11_un m c h)
theorem W13_un : W13 m c r = m ((c : Thread nD τ).loc r) := (W13_of m c r h.2.2.2.2.2.2.2.2.2.2.2.2.1).trans (W12_un m c h)
theorem W14_un : W14 m c r = m ((c : Thread nD τ).loc r) := (W14_of m c r h.2.2.2.2.2.2.2.2.2.2.2.2.2.1).trans (W13_un m c h)

omit h

/-! ## Intermediate buffers between their producer and their reader -/

/-- The index vectors and the normalisation, made before region 0, as the first aggregation finds them. -/
theorem W4_keep (r : Ref sig .tc) (h : r ≠ main_v30) : W4 m c r = W3 m c r := W4_of_ne m c r h
/-- ... and as the second aggregation finds them, five items later. -/
theorem W7_keep (r : Ref sig .tc) (h1 : r ≠ main_v30) (h2 : r ∉ hostOps1_W) (h3 : r ≠ main_v45) (h4 : r ≠ main_v46) : W7 m c r = W3 m c r :=
  (W7_of_ne m c r h4).trans ((W6_of_ne m c r h3).trans ((W5_of m c r h2).trans (W4_of_ne m c r h1)))
/-- The per-graph sums, made by region 4, as the mean's stretch finds them. -/
theorem W13_keep (r : Ref sig .tc) (h1 : r ∉ hostOps5_W) (h2 : r ∉ hostOps5_1_W) : W13 m c r = W11 m c r :=
  (W13_of m c r h2).trans (W12_of m c r h1)

end Cert.KernelIdeal.Hand

end
-- ==== Proof.Value.Spec.lean ====
/-
  What each stage of the graph encoder computes, as whole-array functions at any float instance (read at the exact one, over the extended reals, where the two programs are compared), written with the
  reference program's own host operations: the two dense projections, bias plus rectification, the per-graph sum of node
  rows, the per-graph node count, and the five-layer dense stack. Both programs are compared against these.
-/
import proofs.«413413_j23441931501599_1_alg».proof.Proof.Gen.ReferenceIdeal
import Idealize.ShloMosaic.PureOps.Ideal

noncomputable section

namespace Cert.Bridge

open Idealize.ShloMosaic Cert.ReferenceIdeal Cert.ReferenceIdeal.Facts₀

variable {F : FTy → Type} [FloatOps F]

/-- Node features times the first weight matrix. -/
def G0 (x : FVec F S50000x128 .f32) (w : FVec F S128x256 .f32) : FVec F S50000x256 .f32 :=
  Host.dotGeneral dot_S50000x128_S128x256_S50000x256_1_0_0_1_n_n none x w

/-- Aggregated messages plus the bias row, rectified (width 256). -/
def G1 (a : FVec F S50000x256 .f32) (b : FVec F S256 .f32) : FVec F S50000x256 .f32 :=
  maximumf (addf a (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- Hidden features times the second weight matrix. -/
def G2 (a : FVec F S50000x256 .f32) (w : FVec F S256x128 .f32) : FVec F S50000x128 .f32 :=
  Host.dotGeneral dot_S50000x256_S256x128_S50000x128_1_0_0_1_n_n none a w

/-- Aggregated messages plus the bias row, rectified (width 128). -/
def G3 (a : FVec F S50000x128 .f32) (b : FVec F S128 .f32) : FVec F S50000x128 .f32 :=
  maximumf (addf a (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The sum of the node rows of each graph: row `g` collects the rows whose graph id is `g`; a row whose id is outside
    `[0, 256)` goes nowhere. -/
def G4 (h : FVec F S50000x128 .f32) (batch : IVec S50000 32) : FVec F S256x128 .f32 :=
  Host.scatterAdd scatter_S256x128_S50000x1_S50000x128_1_0_0_1
    (broadcastInDim S256x128 ![] bcast_S_S256x128 (constant S_ .f32 0x00000000#32))
    (broadcastInDim S50000x1 ![0] bcast_S50000_S50000x1_0 batch) h

/-- The number of nodes of each graph, as a float. -/
def Gcnt (batch : IVec S50000 32) : FVec F S256 .f32 :=
  Host.scatterAdd scatter_S256_S50000x1_S50000_n_0_0_1
    (broadcastInDim S256 ![] bcast_S_S256 (constant S_ .f32 0x00000000#32))
    (broadcastInDim S50000x1 ![0] bcast_S50000_S50000x1_0 batch)
    (broadcastInDim S50000 ![] bcast_S_S50000 (constant S_ .f32 0x3F800000#32))

/-- The per-graph mean: the sum divided by the count, the count floored at one. -/
def Gmean (s : FVec F S256x128 .f32) (cnt : FVec F S256 .f32) : FVec F S256x128 .f32 :=
  Host.divf s (broadcastInDim S256x128 ![0, 1] bcast_S256x1_S256x128_0_1 (broadcastInDim S256x1 ![0] bcast_S256_S256x1_0
    (maximumf cnt (broadcastInDim S256 ![] bcast_S_S256 (constant S_ .f32 0x3F800000#32)))))

/-- One dense layer with rectification, 128 → 128. -/
def L1 (g : FVec F S256x128 .f32) (w : FVec F S128x128 .f32) (b : FVec F S128 .f32) : FVec F S256x128 .f32 :=
  maximumf (addf (Host.dotGeneral dot_S256x128_S128x128_S256x128_1_0_0_1_n_n none g w)
      (broadcastInDim S256x128 ![0, 1] bcast_S1x128_S256x128_0_1 (broadcastInDim S1x128 ![1] bcast_S128_S1x128_1 b)))
    (broadcastInDim S256x128 ![] bcast_S_S256x128 (constant S_ .f32 0x00000000#32))
/-- 128 → 1024. -/
def L2 (g : FVec F S256x128 .f32) (w : FVec F S128x1024 .f32) (b : FVec F S1024 .f32) : FVec F S256x1024 .f32 :=
  maximumf (addf (Host.dotGeneral dot_S256x128_S128x1024_S256x1024_1_0_0_1_n_n none g w)
      (broadcastInDim S256x1024 ![0, 1] bcast_S1x1024_S256x1024_0_1 (broadcastInDim S1x1024 ![1] bcast_S1024_S1x1024_1 b)))
    (broadcastInDim S256x1024 ![] bcast_S_S256x1024 (constant S_ .f32 0x00000000#32))
/-- 1024 → 1024. -/
def L3 (g : FVec F S256x1024 .f32) (w : FVec F S1024x1024 .f32) (b : FVec F S1024 .f32) : FVec F S256x1024 .f32 :=
  maximumf (addf (Host.dotGeneral dot_S256x1024_S1024x1024_S256x1024_1_0_0_1_n_n none g w)
      (broadcastInDim S256x1024 ![0, 1] bcast_S1x1024_S256x1024_0_1 (broadcastInDim S1x1024 ![1] bcast_S1024_S1x1024_1 b)))
    (broadcastInDim S256x1024 ![] bcast_S_S256x1024 (constant S_ .f32 0x00000000#32))
/-- The last layer, 1024 → 128, not rectified. -/
def L5 (g : FVec F S256x1024 .f32) (w : FVec F S1024x128 .f32) (b : FVec F S128 .f32) : FVec F S256x128 .f32 :=
  addf (Host.dotGeneral dot_S256x1024_S1024x128_S256x128_1_0_0_1_n_n none g w)
    (broadcastInDim S256x128 ![0, 1] bcast_S1x128_S256x128_0_1 (broadcastInDim S1x128 ![1] bcast_S128_S1x128_1 b))

/-- The dense stack on the pooled rows. -/
def G5 (g : FVec F S256x128 .f32) (w1 : FVec F S128x128 .f32) (b1 : FVec F S128 .f32)
    (w2 : FVec F S128x1024 .f32) (b2 : FVec F S1024 .f32) (w22 : FVec F S1024x1024 .f32) (b22 : FVec F S1024 .f32)
    (w23 : FVec F S1024x1024 .f32) (b23 : FVec F S1024 .f32) (w3 : FVec F S1024x128 .f32) (b3 : FVec F S128 .f32) :
    FVec F S256x128 .f32 :=
  L5 (L3 (L3 (L2 (L1 g w1 b1) w2 b2) w22 b22) w23 b23) w3 b3

/-! ## The graph side, shared by the two programs -/

/-- Source node of every message: the edges' first row, then one self-loop per node. -/
def srcIdx (ei : IVec S2x800000 32) : IVec S850000 32 :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0
/-- Target node of every message: the edges' second row, then one self-loop per node. -/
def dstIdx (ei : IVec S2x800000 32) : IVec S850000 32 :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0
/-- A node index as a gather reads it: a negative word is taken from the end. -/
def wrapIdx (i : IVec S850000 32) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)
/-- The in-degree of every node (self-loop included), as a float. -/
def deg (ei : IVec S2x800000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (dstIdx ei))
    (broadcastInDim S850000 ![] bcast_S_S850000 (constant S_ .f32 0x3F800000#32))
/-- The inverse square root of the degree where it is positive, else zero. -/
def dinv (ei : IVec S2x800000 32) : FVec F S50000 .f32 :=
  select (cmpf (F := F) .ogt (deg ei) (broadcastInDim S50000 ![] bcast_S_S50000 (constant S_ .f32 0x00000000#32)))
    (Host.rsqrt (deg ei)) (broadcastInDim S50000 ![] bcast_S_S50000 (constant S_ .f32 0x00000000#32))
/-- The symmetric normalisation of every message. -/
def norm (ei : IVec S2x800000 32) : FVec F S850000 .f32 :=
  mulf (Host.gather gather_S50000_S850000x1_S850000_n_0_n_n_0_1_1 (dinv ei) (wrapIdx (srcIdx ei)))
    (Host.gather gather_S50000_S850000x1_S850000_n_0_n_n_0_1_1 (dinv ei) (wrapIdx (dstIdx ei)))
/-- Messages gathered from their sources, scaled, and summed at their targets (width 256), over given index vectors and
    a given normalisation. -/
def aggCore256 (h : FVec F S50000x256 .f32) (src dst : IVec S850000 32) (nrm : FVec F S850000 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 dst)
    (mulf (Host.gather gather_S50000x256_S850000x1_S850000x256_1_0_n_n_0_1_1256 h (wrapIdx src))
      (broadcastInDim S850000x256 ![0, 1] bcast_S850000x1_S850000x256_0_1 (broadcastInDim S850000x1 ![0] bcast_S850000_S850000x1_0 nrm)))
/-- The same at width 128. -/
def aggCore128 (h : FVec F S50000x128 .f32) (src dst : IVec S850000 32) (nrm : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 h (wrapIdx src))
      (broadcastInDim S850000x128 ![0, 1] bcast_S850000x1_S850000x128_0_1 (broadcastInDim S850000x1 ![0] bcast_S850000_S850000x1_0 nrm)))
/-- One aggregation of the graph's messages, width 256. -/
def agg256 (h : FVec F S50000x256 .f32) (ei : IVec S2x800000 32) : FVec F S50000x256 .f32 :=
  aggCore256 h (srcIdx ei) (dstIdx ei) (norm ei)
/-- One aggregation of the graph's messages, width 128. -/
def agg128 (h : FVec F S50000x128 .f32) (ei : IVec S2x800000 32) : FVec F S50000x128 .f32 :=
  aggCore128 h (srcIdx ei) (dstIdx ei) (norm ei)

/-! ## The whole encoder -/

/-- Two graph convolutions, the per-graph mean, the dense stack, flattened. -/
def forward (x : FVec F S50000x128 .f32) (ei : IVec S2x800000 32) (batch : IVec S50000 32)
    (W1 : FVec F S128x256 .f32) (b1 : FVec F S256 .f32) (W2 : FVec F S256x128 .f32) (b2 : FVec F S128 .f32)
    (Wl1 : FVec F S128x128 .f32) (bl1 : FVec F S128 .f32) (Wl2 : FVec F S128x1024 .f32) (bl2 : FVec F S1024 .f32)
    (Wl22 : FVec F S1024x1024 .f32) (bl22 : FVec F S1024 .f32) (Wl23 : FVec F S1024x1024 .f32) (bl23 : FVec F S1024 .f32)
    (Wl3 : FVec F S1024x128 .f32) (bl3 : FVec F S128 .f32) : FVec F S32768 .f32 :=
  shapeCast S32768
    (G5 (Gmean (G4 (G3 (agg128 (G2 (G1 (agg256 (G0 x W1) ei) b1) W2) ei) b2) batch) (Gcnt batch))
      Wl1 bl1 Wl2 bl2 Wl22 bl22 Wl23 bl23 Wl3 bl3)
    shapeCasts_S256x128_S32768

end Cert.Bridge

end
-- ==== Proof.Value.Val0.lean ====
/-
  The first dense projection as one array. The region multiplies the node features (50000 x 128) by the first weight
  matrix (128 x 256) in 25 tiles of 2000 rows: tile t of the result is tile t of the features times the whole weight
  matrix. An entry (r, j) of a tile product is the sum over k of feature (r, k) times weight (k, j); row r of tile t is
  row 2000 t + r of the array; so every tile written back is the matching tile of the whole product, the tiles cover
  the result (row r lies in tile r / 2000), and the result array ends holding the whole product, entry by entry the
  sum over k of x[i, k] * w[k, j].
-/
import proofs.«413413_j23441931501599_1_alg».proof.Proof.FrameKernelIdeal.R0
import proofs.«413413_j23441931501599_1_alg».proof.Proof.Value.Spec
import Idealize.ShloMosaic.Lib.Pipeline.Value
import Idealize.ShloMosaic.Lib.ValueIdx
import Idealize.ShloMosaic.PureOps.Ideal.Laws

noncomputable section

namespace Cert.Bridge.Proj0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## Indices by coordinates -/

/-- Entry (row of `j`, `k`) of a tile of the features. -/
abbrev tileL (j : S2000x256.Idx) (k : Fin 128) : S2000x128.Idx := fun a => match a with
  | ⟨0, _⟩ => ⟨(j 0).val, (j 0).isLt⟩
  | ⟨1, _⟩ => ⟨k.val, k.isLt⟩
/-- Entry (`k`, column of `j`) of the weights, `j` an index of a tile of the result. -/
abbrev tileR (j : S2000x256.Idx) (k : Fin 128) : S128x256.Idx := fun a => match a with
  | ⟨0, _⟩ => ⟨k.val, k.isLt⟩
  | ⟨1, _⟩ => ⟨(j 1).val, (j 1).isLt⟩
/-- Entry (row of `i`, `k`) of the whole feature array. -/
abbrev arrL (i : S50000x256.Idx) (k : Fin 128) : S50000x128.Idx := fun a => match a with
  | ⟨0, _⟩ => ⟨(i 0).val, (i 0).isLt⟩
  | ⟨1, _⟩ => ⟨k.val, k.isLt⟩
/-- Entry (`k`, column of `i`) of the weights, `i` an index of the whole result. -/
abbrev arrR (i : S50000x256.Idx) (k : Fin 128) : S128x256.Idx := fun a => match a with
  | ⟨0, _⟩ => ⟨k.val, k.isLt⟩
  | ⟨1, _⟩ => ⟨(i 1).val, (i 1).isLt⟩

/-! ## The tile product at an index -/

/- The entries of the two operands that meet at entry `j` of the product and position `q` of the contracted axis, one
   coordinate at a time: the left operand's is (row of `j`, `q`), the right operand's is (`q`, column of `j`). -/
theorem tile_lhs_0 (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem tile_lhs_1 (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
theorem tile_rhs_0 (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem tile_rhs_1 (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The body's arithmetic at an entry of the tile: the narrowing of the two operands changes nothing over the extended
    reals, and a product into a zero accumulator is the plain sum over the contracted axis. -/
theorem tile_apply (x0 : Vec Ideal S2000x128 .f32) (x1 : Vec Ideal S128x256 .f32) (j : S2000x256.Idx) :
    k0_pay1 (F := Ideal) x0 x1 j = ∑ k : Fin 128, x0 (tileL j k) * x1 (tileR j k) := by
  unfold k0_pay1
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx j ((contrEquiv1 dot_S2000x128_S128x256_S2000x256_1_0_0_1_n_n 128 rfl rfl).symm k) = tileL j k := funext fun a => Fin.ext (by
    match a with
    | ⟨0, _⟩ => exact tile_lhs_0 _ _
    | ⟨1, _⟩ => exact (tile_lhs_1 _ _).trans hk)
  have er : dot_S2000x128_S128x256_S2000x256_1_0_0_1_n_n.rhsIdx j ((contrEquiv1 dot_S2000x128_S128x256_S2000x256_1_0_0_1_n_n 128 rfl rfl).symm k) = tileR j k := funext fun a => Fin.ext (by
    match a with
    | ⟨0, _⟩ => exact (tile_rhs_0 _ _).trans hk
    | ⟨1, _⟩ => exact tile_rhs_1 _ _)
  simp only [truncf_apply, shapeCast_self, el, er]

/-! ## The whole product at an index -/

/- The same four coordinates for the product of the whole arrays. -/
theorem arr_lhs_0 (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem arr_lhs_1 (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem arr_rhs_0 (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem arr_rhs_1 (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- The dense projection of the whole arrays at an entry: the sum over the contracted axis. -/
theorem arr_apply (x : FVec Ideal S50000x128 .f32) (w : FVec Ideal S128x256 .f32) (i : S50000x256.Idx) :
    Host.dotGeneral (F := Ideal) Cert.ReferenceIdeal.dot_S50000x128_S128x256_S50000x256_1_0_0_1_n_n none x w i = ∑ k : Fin 128, x (arrL i k) * w (arrR i k) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx i ((contrEquiv1 Cert.ReferenceIdeal.dot_S50000x128_S128x256_S50000x256_1_0_0_1_n_n 128 rfl rfl).symm k) = arrL i k := funext fun a => Fin.ext (by
    match a with
    | ⟨0, _⟩ => exact arr_lhs_0 _ _
    | ⟨1, _⟩ => exact (arr_lhs_1 _ _).trans hk)
  have er : Cert.ReferenceIdeal.dot_S50000x128_S128x256_S50000x256_1_0_0_1_n_n.rhsIdx i ((contrEquiv1 Cert.ReferenceIdeal.dot_S50000x128_S128x256_S50000x256_1_0_0_1_n_n 128 rfl rfl).symm k) = arrR i k := funext fun a => Fin.ext (by
    match a with
    | ⟨0, _⟩ => exact (arr_rhs_0 _ _).trans hk
    | ⟨1, _⟩ => exact arr_rhs_1 _ _)
  rw [el, er]

/-! ## The tiles and the arrays -/

variable (V : (c : Dev nD) → (b : Ref sig .tc) → Buf (Elt Ideal) ((c : Thread nD τ).loc b))

/-- The feature array, the weight array, and the tile of each that a grid point works on, at their literal types. -/
abbrev xarr (c : Dev nD) : FVec Ideal S50000x128 .f32 := V c main_arg0
abbrev warr (c : Dev nD) : FVec Ideal S128x256 .f32 := V c main_arg3
abbrev xblk (c : Dev nD) (t : Fin cfg0.N) : Vec Ideal S2000x128 .f32 := iblk0 V c 0 t
abbrev wblk (c : Dev nD) (t : Fin cfg0.N) : Vec Ideal S128x256 .f32 := iblk0 V c 1 t

theorem hz : (![0, 0] : Fin 2 → Nat) = fun _ => 0 := funext fun a => by fin_cases a <;> rfl

/-- Which tile each window names at a grid point: the features' and the result's tile number is the point's number,
    the weights' tile is always the whole matrix. -/
theorem tile_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the features' tile `t` is row `2000 t + r` of the feature array. -/
theorem xblk_apply (c : Dev nD) (t : Fin cfg0.N) (y : S2000x128.Idx) (i : S50000x128.Idx)
    (h0 : (i 0).val = t.val * 2000 + (y 0).val) (h1 : (i 1).val = (y 1).val) : xblk V c t y = xarr V c i := by
  obtain ⟨e0, e1, -, -, -, -⟩ := tile_numbers t
  show V c main_arg0 (((cfg0.win 0).blk t).view.emb y) = V c main_arg0 i
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weights' tile is the weight array. -/
theorem wblk_apply (c : Dev nD) (t : Fin cfg0.N) (y : S128x256.Idx) (i : S128x256.Idx)
    (h0 : (i 0).val = (y 0).val) (h1 : (i 1).val = (y 1).val) : wblk V c t y = warr V c i := by
  obtain ⟨-, -, e0, e1, -, -⟩ := tile_numbers t
  show V c main_arg3 (((cfg0.win 1).blk t).view.emb y) = V c main_arg3 i
  congr 1
  funext a
  apply Fin.ext
  match a with
  | ⟨0, _⟩ => show win0_1.index t (0 : Fin 2) * 128 + 1 * (y 0).val = (i 0).val; rw [e0, h0]; omega
  | ⟨1, _⟩ => show win0_1.index t (1 : Fin 2) * 256 + 1 * (y 1).val = (i 1).val; rw [e1, h1]; omega

/-- Entry (r, j) of the result's tile `t` sits at (2000 t + r, j) in the result array. -/
theorem oblk_emb (t : Fin cfg0.N) (y : S2000x256.Idx) :
    ((((cfg0.win 2).blk t).view.emb y : S50000x256.Idx) 0).val = t.val * 2000 + (y 0).val
    ∧ ((((cfg0.win 2).blk t).view.emb y : S50000x256.Idx) 1).val = (y 1).val := by
  obtain ⟨-, -, -, -, e0, e1⟩ := tile_numbers t
  constructor
  · show win0_2.index t (0 : Fin 2) * 2000 + 1 * (y 0).val = _; rw [e0]; omega
  · show win0_2.index t (1 : Fin 2) * 256 + 1 * (y 1).val = _; rw [e1]; omega

/-! ## From the tiles to the array -/

/-- What point `t` writes back is tile `t` of the whole product. -/
theorem flushed_eq (c : Dev nD) (t : Fin cfg0.N) :
    (dat0 (F := Ideal) V c).flushed 2 t = ((cfg0.win 2).blk t).view.read (Elt Ideal) (G0 (F := Ideal) (xarr V c) (warr V c)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x256) hz]
  funext y
  show k0_pay1 (F := Ideal) (xblk V c t) (wblk V c t) y = G0 (F := Ideal) (xarr V c) (warr V c) (((cfg0.win 2).blk t).view.emb y)
  obtain ⟨r0, r1⟩ := oblk_emb t y
  refine (tile_apply (xblk V c t) (wblk V c t) y).trans ?_
  unfold G0
  refine Eq.trans ?_ (arr_apply (xarr V c) (warr V c) (((cfg0.win 2).blk t).view.emb y)).symm
  refine Finset.sum_congr rfl fun k _ => ?_
  congr 1
  · exact xblk_apply V c t (tileL y k) _ r0 rfl
  · exact wblk_apply V c t (tileR y k) _ rfl r1

/-- An entry of the result array is in point `t`'s tile iff each coordinate is in the tile's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every entry of the result array is in some point's tile: row `r` in tile `r / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e0, e1⟩ := tile_numbers t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

end Cert.Bridge.Proj0

namespace Cert.Bridge

open Idealize.ShloMosaic Idealize.ShloMosaic.TcCoe Idealize.SL.Sem
open Cert.KernelIdeal

/-- After the region the result array holds the whole product of the feature array and the first weight matrix. -/
theorem val0 (V : (c : Dev nD) → (b : Ref sig .tc) → Buf (Elt Ideal) ((c : Thread nD τ).loc b)) (c : Dev nD) :
    (Cert.KernelIdeal.Hand.dat0 (F := Ideal) V c).arrAt 2 cfg0.N = Cert.Bridge.G0 (F := Ideal) (V c main_arg0) (V c main_arg3) :=
  (Cert.KernelIdeal.Hand.dat0 (F := Ideal) V c).arrAt_eq_of_cover 2 (G0 (F := Ideal) (Proj0.xarr V c) (Proj0.warr V c))
    (fun t _ => Proj0.flushed_eq V c t) Proj0.cover

end Cert.Bridge

end
-- ==== Proof.Value.Val1.lean ====
/-
  The value of the first bias-and-rectify region over the extended reals. The region walks the 50000 x 256 array of
  aggregated messages in 25 tiles of 2000 rows (row r lies in tile r / 2000); on each tile it adds the bias row to
  every row and replaces each entry by its maximum with zero. The bias row is the bias vector of length 256 laid out
  as a 1 x 256 array. Read index by index, the tile written at a point is therefore the matching 2000 rows of
  max(a[r, j] + b[j], 0), the tiles cover every row, and so the whole output array is that function of the
  aggregated messages and the bias vector.
-/
import proofs.«413413_j23441931501599_1_alg».proof.Proof.FrameKernelIdeal.R1
import proofs.«413413_j23441931501599_1_alg».proof.Proof.Value.Spec
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Facts₀
open Idealize.ShloMosaic Idealize.ShloMosaic.TcCoe Idealize.ShloMosaic.ValueIdx
open Idealize.SL.Sem
open Idealize.ShloMosaic.Pipeline (Dat)

namespace Val1

-- the buffer contents the region is entered from, per core
variable (V : (c : Dev nD) → (b : Ref sig .tc) → Buf (Elt Ideal) ((c : Thread nD τ).loc b))

/-- The body's loads and its store all start at the origin of their buffers. -/
theorem zero_offsets : (![0, 0] : Fin 2 → Nat) = fun _ => 0 := funext fun a => match a with | ⟨0, _⟩ => rfl | ⟨1, _⟩ => rfl

/-! ## The two sides at an index -/

/-- What the body stores at row `p`, column `q` of a tile: the tile's entry plus the bias row's entry in that column,
    then the maximum with zero. The two shape casts are between equal shapes and change nothing; the broadcast reads
    the one row. -/
theorem pay_apply (x0 : FVec Ideal S2000x256 .f32) (x1 : FVec Ideal S1x256 .f32) (p : Fin 2000) (q : Fin 256) :
    Gen.k1_pay1 x0 x1 (ix2 p q) = max (x0 (ix2 p q) + x1 (ix2 (0 : Fin 1) q)) (Ideal.ofBits .f32 0x00000000#32) := by
  unfold Gen.k1_pay1
  rw [maximumf_apply, addf_apply, shapeCast_self, shapeCast_self, broadcastTo_1b_ab_apply, broadcast_apply]
  rfl

/-- The specification at row `r`, column `q` of the whole array: the bias vector is first laid out as one row and that
    row then repeated down the rows, so the summand is the vector's entry `q`; the zero is a scalar repeated everywhere. -/
theorem spec_apply (a : FVec Ideal S50000x256 .f32) (b : FVec Ideal S256 .f32) (r : Fin 50000) (q : Fin 256) :
    G1 a b (ix2 r q) = max (a (ix2 r q) + b (ix1 q)) (Ideal.ofBits .f32 0x00000000#32) := by
  unfold G1
  rw [maximumf_apply, addf_apply,
    broadcastInDim_apply _ _ _ (ix2 r q) (ix2 (0 : Fin 1) q) (fun ax => match ax with
      | ⟨0, _⟩ => rfl
      | ⟨1, _⟩ => rfl),
    broadcastInDim_apply _ _ _ (ix2 (0 : Fin 1) q) (ix1 q) (fun ax => match ax with
      | ⟨0, _⟩ => rfl),
    broadcastInDim_apply _ _ _ (ix2 r q) ix0 (fun ax => ax.elim0),
    constant_apply]

/-- A tile's entry `y` against the array's entry `k` in the same column: if the loaded tile holds there what the array
    holds at `k`, and the loaded row holds the bias vector, the stored value is the specification's at `k`. -/
theorem tile_eq (a : FVec Ideal S50000x256 .f32) (b : FVec Ideal S256 .f32) (x0 : FVec Ideal S2000x256 .f32) (x1 : FVec Ideal S1x256 .f32)
    (y : S2000x256.Idx) (k : S50000x256.Idx) (hcol : (k 1).val = (y 1).val)
    (h0 : x0 y = a k) (h1 : ∀ q : Fin 256, x1 (ix2 (0 : Fin 1) q) = b (ix1 q)) :
    Gen.k1_pay1 x0 x1 y = G1 a b k := by
  obtain ⟨p, q, rfl⟩ : ∃ (p : Fin 2000) (q : Fin 256), y = ix2 p q := ⟨y 0, y 1, eq_ix2 y⟩
  obtain ⟨r, q', rfl⟩ : ∃ (r : Fin 50000) (q' : Fin 256), k = ix2 r q' := ⟨k 0, k 1, eq_ix2 k⟩
  obtain rfl : q' = q := Fin.ext hcol
  rw [pay_apply, spec_apply, h0, h1]

/-! ## From tiles to the array -/

/-- The block indices at point `t`: the input tile and the output tile are both tile `t` along the rows and the only
    tile along the columns; the bias row's block never moves. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the specification applied to the aggregated messages as the region finds
    them and to the bias vector: the input tile sits over the same rows as the output tile, and the bias row read
    through its block is the vector. -/
theorem flushed_eq (c : Dev nD) (b : FVec Ideal S256 .f32) (hb : V c main_v44 = shapeCast S1x256 b shapeCasts_S256_S1x256) (t : Fin cfg1.N) :
    (Hand.dat1 (F := Ideal) V c).flushed 2 t = ((cfg1.win 2).blk t).view.read (Elt Ideal) (G1 (V c main_v43) b) := by
  show (cfg1.win 2).cut (grid1.coords t) ((Hand.dat1 V c).after 2 t) = _
  rw [Hand.after1_2]
  unfold Hand.out1_2
  rw [View.canon_unit_zero zero_offsets]
  simp only [View.ld_unit_zero (S := S2000x256) zero_offsets, View.ld_unit_zero (S := S1x256) zero_offsets]
  obtain ⟨e00, e01, e10, e11, e20, e21⟩ := index_facts t
  funext y
  show Gen.k1_pay1 (Hand.iblk1 V c 0 t) (Hand.iblk1 V c 1 t) y = G1 (V c main_v43) b (((cfg1.win 2).blk t).view.emb y)
  refine tile_eq (V c main_v43) b (Hand.iblk1 V c 0 t) (Hand.iblk1 V c 1 t) y (((cfg1.win 2).blk t).view.emb y) ?_ ?_ ?_
  · -- the output tile spans all the columns: a tile's column is the array's column
    show win1_2.index t (1 : Fin 2) * 256 + 1 * (y 1).val = (y 1).val
    rw [e21]; omega
  · -- the input tile and the output tile sit at the same place of their arrays
    show V c main_v43 (((cfg1.win 0).blk t).view.emb y) = V c main_v43 (((cfg1.win 2).blk t).view.emb y)
    refine congrArg (V c main_v43) (funext fun ax => Fin.ext ?_)
    match ax with
    | ⟨0, _⟩ => show win1_0.index t (0 : Fin 2) * 2000 + 1 * (y 0).val = win1_2.index t (0 : Fin 2) * 2000 + 1 * (y 0).val; rw [e00, e20]
    | ⟨1, _⟩ => show win1_0.index t (1 : Fin 2) * 256 + 1 * (y 1).val = win1_2.index t (1 : Fin 2) * 256 + 1 * (y 1).val; rw [e01, e21]
  · -- the bias row's block is the whole row, and the row is the vector laid out with a leading unit axis
    intro q
    show V c main_v44 (((cfg1.win 1).blk t).view.emb (ix2 (0 : Fin 1) q)) = b (ix1 q)
    have hk : ((cfg1.win 1).blk t).view.emb (ix2 (0 : Fin 1) q) = ix2 (0 : Fin 1) q := by
      refine funext fun ax => Fin.ext ?_
      match ax with
      | ⟨0, _⟩ => show win1_1.index t (0 : Fin 2) * 1 + 1 * 0 = 0; rw [e10]
      | ⟨1, _⟩ => show win1_1.index t (1 : Fin 2) * 256 + 1 * q.val = q.val; rw [e11]; omega
    rw [hk]
    exact (congrFun hb (ix2 (0 : Fin 1) q)).trans (shapeCast_a_1a_apply b _ 0 q)

/-- An index of the output array is in point `t`'s tile iff each coordinate is in the tile's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Every index of the output array is in the tile of the point numbered by its row divided by the tile's height,
    and every point writes its tile back. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := Gen.N_1
  obtain ⟨t, ht⟩ : ∃ t : Fin cfg1.N, t.val = (i 0).val / 2000 := ⟨⟨(i 0).val / 2000, by rw [hN]; omega⟩, rfl⟩
  obtain ⟨-, -, -, -, e20, e21⟩ := index_facts t
  refine ⟨t, Gen.flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e20, ht]; omega
  | ⟨1, _⟩ => show win1_2.index t (1 : Fin 2) * 256 ≤ (i 1).val ∧ (i 1).val < win1_2.index t (1 : Fin 2) * 256 + 256; rw [e21]; omega

end Val1

/-- THE OUTPUT ARRAY after the region: the aggregated messages plus the bias vector along the rows, rectified. -/
theorem val1 (V : (c : Dev nD) → (b : Ref sig .tc) → Buf (Elt Ideal) ((c : Thread nD τ).loc b)) (c : Dev nD) (b : FVec Ideal S256 .f32)
    (hb : V c main_v44 = shapeCast S1x256 b shapeCasts_S256_S1x256) :
    (Cert.KernelIdeal.Hand.dat1 (F := Ideal) V c).arrAt 2 cfg1.N = Cert.Bridge.G1 (V c main_v43) b :=
  (Hand.dat1 (F := Ideal) V c).arrAt_eq_of_cover 2 (G1 (V c main_v43) b) (fun t _ => Val1.flushed_eq V c b hb t) Val1.cover

end Cert.Bridge

end
-- ==== Proof.Value.Val2.lean ====
/-
  The second dense projection as one array. The region multiplies the rectified hidden features (50000 x 256) by the second weight
  matrix (256 x 128) in 25 tiles of 2000 rows: tile t of the result is tile t of the features times the whole weight
  matrix. An entry (r, j) of a tile product is the sum over k of feature (r, k) times weight (k, j); row r of tile t is
  row 2000 t + r of the array; so every tile written back is the matching tile of the whole product, the tiles cover
  the result (row r lies in tile r / 2000), and the result array ends holding the whole product, entry by entry the
  sum over k of x[i, k] * w[k, j].
-/
import proofs.«413413_j23441931501599_1_alg».proof.Proof.FrameKernelIdeal.R2
import proofs.«413413_j23441931501599_1_alg».proof.Proof.Value.Spec
import Idealize.ShloMosaic.Lib.Pipeline.Value
import Idealize.ShloMosaic.Lib.ValueIdx
import Idealize.ShloMosaic.PureOps.Ideal.Laws

noncomputable section

namespace Cert.Bridge.Proj2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## Indices by coordinates -/

/-- Entry (row of `j`, `k`) of a tile of the features. -/
abbrev tileL (j : S2000x128.Idx) (k : Fin 256) : S2000x256.Idx := fun a => match a with
  | ⟨0, _⟩ => ⟨(j 0).val, (j 0).isLt⟩
  | ⟨1, _⟩ => ⟨k.val, k.isLt⟩
/-- Entry (`k`, column of `j`) of the weights, `j` an index of a tile of the result. -/
abbrev tileR (j : S2000x128.Idx) (k : Fin 256) : S256x128.Idx := fun a => match a with
  | ⟨0, _⟩ => ⟨k.val, k.isLt⟩
  | ⟨1, _⟩ => ⟨(j 1).val, (j 1).isLt⟩
/-- Entry (row of `i`, `k`) of the whole feature array. -/
abbrev arrL (i : S50000x128.Idx) (k : Fin 256) : S50000x256.Idx := fun a => match a with
  | ⟨0, _⟩ => ⟨(i 0).val, (i 0).isLt⟩
  | ⟨1, _⟩ => ⟨k.val, k.isLt⟩
/-- Entry (`k`, column of `i`) of the weights, `i` an index of the whole result. -/
abbrev arrR (i : S50000x128.Idx) (k : Fin 256) : S256x128.Idx := fun a => match a with
  | ⟨0, _⟩ => ⟨k.val, k.isLt⟩
  | ⟨1, _⟩ => ⟨(i 1).val, (i 1).isLt⟩

/-! ## The tile product at an index -/

/- The entries of the two operands that meet at entry `j` of the product and position `q` of the contracted axis, one
   coordinate at a time: the left operand's is (row of `j`, `q`), the right operand's is (`q`, column of `j`). -/
theorem tile_lhs_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem tile_lhs_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem tile_rhs_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem tile_rhs_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's arithmetic at an entry of the tile: the narrowing of the two operands changes nothing over the extended
    reals, and a product into a zero accumulator is the plain sum over the contracted axis. -/
theorem tile_apply (x0 : Vec Ideal S2000x256 .f32) (x1 : Vec Ideal S256x128 .f32) (j : S2000x128.Idx) :
    k2_pay1 (F := Ideal) x0 x1 j = ∑ k : Fin 256, x0 (tileL j k) * x1 (tileR j k) := by
  unfold k2_pay1
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx j ((contrEquiv1 dot_S2000x256_S256x128_S2000x128_1_0_0_1_n_n 256 rfl rfl).symm k) = tileL j k := funext fun a => Fin.ext (by
    match a with
    | ⟨0, _⟩ => exact tile_lhs_0 _ _
    | ⟨1, _⟩ => exact (tile_lhs_1 _ _).trans hk)
  have er : dot_S2000x256_S256x128_S2000x128_1_0_0_1_n_n.rhsIdx j ((contrEquiv1 dot_S2000x256_S256x128_S2000x128_1_0_0_1_n_n 256 rfl rfl).symm k) = tileR j k := funext fun a => Fin.ext (by
    match a with
    | ⟨0, _⟩ => exact (tile_rhs_0 _ _).trans hk
    | ⟨1, _⟩ => exact tile_rhs_1 _ _)
  simp only [truncf_apply, shapeCast_self, el, er]

/-! ## The whole product at an index -/

/- The same four coordinates for the product of the whole arrays. -/
theorem arr_lhs_0 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem arr_lhs_1 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem arr_rhs_0 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem arr_rhs_1 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- The dense projection of the whole arrays at an entry: the sum over the contracted axis. -/
theorem arr_apply (x : FVec Ideal S50000x256 .f32) (w : FVec Ideal S256x128 .f32) (i : S50000x128.Idx) :
    Host.dotGeneral (F := Ideal) Cert.ReferenceIdeal.dot_S50000x256_S256x128_S50000x128_1_0_0_1_n_n none x w i = ∑ k : Fin 256, x (arrL i k) * w (arrR i k) := by
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((contrEquiv1 Cert.ReferenceIdeal.dot_S50000x256_S256x128_S50000x128_1_0_0_1_n_n 256 rfl rfl).symm k) = arrL i k := funext fun a => Fin.ext (by
    match a with
    | ⟨0, _⟩ => exact arr_lhs_0 _ _
    | ⟨1, _⟩ => exact (arr_lhs_1 _ _).trans hk)
  have er : Cert.ReferenceIdeal.dot_S50000x256_S256x128_S50000x128_1_0_0_1_n_n.rhsIdx i ((contrEquiv1 Cert.ReferenceIdeal.dot_S50000x256_S256x128_S50000x128_1_0_0_1_n_n 256 rfl rfl).symm k) = arrR i k := funext fun a => Fin.ext (by
    match a with
    | ⟨0, _⟩ => exact (arr_rhs_0 _ _).trans hk
    | ⟨1, _⟩ => exact arr_rhs_1 _ _)
  rw [el, er]

/-! ## The tiles and the arrays -/

variable (V : (c : Dev nD) → (b : Ref sig .tc) → Buf (Elt Ideal) ((c : Thread nD τ).loc b))

/-- The feature array, the weight array, and the tile of each that a grid point works on, at their literal types. -/
abbrev xarr (c : Dev nD) : FVec Ideal S50000x256 .f32 := V c main_v45
abbrev warr (c : Dev nD) : FVec Ideal S256x128 .f32 := V c main_arg5
abbrev xblk (c : Dev nD) (t : Fin cfg2.N) : Vec Ideal S2000x256 .f32 := iblk2 V c 0 t
abbrev wblk (c : Dev nD) (t : Fin cfg2.N) : Vec Ideal S256x128 .f32 := iblk2 V c 1 t

theorem hz : (![0, 0] : Fin 2 → Nat) = fun _ => 0 := funext fun a => by fin_cases a <;> rfl

/-- Which tile each window names at a grid point: the features' and the result's tile number is the point's number,
    the weights' tile is always the whole matrix. -/
theorem tile_numbers : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of the features' tile `t` is row `2000 t + r` of the feature array. -/
theorem xblk_apply (c : Dev nD) (t : Fin cfg2.N) (y : S2000x256.Idx) (i : S50000x256.Idx)
    (h0 : (i 0).val = t.val * 2000 + (y 0).val) (h1 : (i 1).val = (y 1).val) : xblk V c t y = xarr V c i := by
  obtain ⟨e0, e1, -, -, -, -⟩ := tile_numbers t
  show V c main_v45 (((cfg2.win 0).blk t).view.emb y) = V c main_v45 i
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- The weights' tile is the weight array. -/
theorem wblk_apply (c : Dev nD) (t : Fin cfg2.N) (y : S256x128.Idx) (i : S256x128.Idx)
    (h0 : (i 0).val = (y 0).val) (h1 : (i 1).val = (y 1).val) : wblk V c t y = warr V c i := by
  obtain ⟨-, -, e0, e1, -, -⟩ := tile_numbers t
  show V c main_arg5 (((cfg2.win 1).blk t).view.emb y) = V c main_arg5 i
  congr 1
  funext a
  apply Fin.ext
  match a with
  | ⟨0, _⟩ => show win2_1.index t (0 : Fin 2) * 256 + 1 * (y 0).val = (i 0).val; rw [e0, h0]; omega
  | ⟨1, _⟩ => show win2_1.index t (1 : Fin 2) * 128 + 1 * (y 1).val = (i 1).val; rw [e1, h1]; omega

/-- Entry (r, j) of the result's tile `t` sits at (2000 t + r, j) in the result array. -/
theorem oblk_emb (t : Fin cfg2.N) (y : S2000x128.Idx) :
    ((((cfg2.win 2).blk t).view.emb y : S50000x128.Idx) 0).val = t.val * 2000 + (y 0).val
    ∧ ((((cfg2.win 2).blk t).view.emb y : S50000x128.Idx) 1).val = (y 1).val := by
  obtain ⟨-, -, -, -, e0, e1⟩ := tile_numbers t
  constructor
  · show win2_2.index t (0 : Fin 2) * 2000 + 1 * (y 0).val = _; rw [e0]; omega
  · show win2_2.index t (1 : Fin 2) * 128 + 1 * (y 1).val = _; rw [e1]; omega

/-! ## From the tiles to the array -/

/-- What point `t` writes back is tile `t` of the whole product. -/
theorem flushed_eq (c : Dev nD) (t : Fin cfg2.N) :
    (dat2 (F := Ideal) V c).flushed 2 t = ((cfg2.win 2).blk t).view.read (Elt Ideal) (G2 (F := Ideal) (xarr V c) (warr V c)) := by
  show (cfg2.win 2).cut (grid2.coords t) ((dat2 (F := Ideal) V c).after 2 t) = _
  rw [after2_2]
  unfold out2_2
  rw [View.canon_unit_zero hz]
  simp only [View.ld_unit_zero (S := S2000x256) hz, View.ld_unit_zero (S := S256x128) hz]
  funext y
  show k2_pay1 (F := Ideal) (xblk V c t) (wblk V c t) y = G2 (F := Ideal) (xarr V c) (warr V c) (((cfg2.win 2).blk t).view.emb y)
  obtain ⟨r0, r1⟩ := oblk_emb t y
  refine (tile_apply (xblk V c t) (wblk V c t) y).trans ?_
  unfold G2
  refine Eq.trans ?_ (arr_apply (xarr V c) (warr V c) (((cfg2.win 2).blk t).view.emb y)).symm
  refine Finset.sum_congr rfl fun k _ => ?_
  congr 1
  · exact xblk_apply V c t (tileL y k) _ r0 rfl
  · exact wblk_apply V c t (tileR y k) _ rfl r1

/-- An entry of the result array is in point `t`'s tile iff each coordinate is in the tile's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every entry of the result array is in some point's tile: row `r` in tile `r / 2000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e0, e1⟩ := tile_numbers t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e0, ht]; omega
  | ⟨1, _⟩ => show win2_2.index t (1 : Fin 2) * 128 ≤ (i 1).val ∧ (i 1).val < win2_2.index t (1 : Fin 2) * 128 + 128; rw [e1]; omega

end Cert.Bridge.Proj2

namespace Cert.Bridge

open Idealize.ShloMosaic Idealize.ShloMosaic.TcCoe Idealize.SL.Sem
open Cert.KernelIdeal

/-- After the region the result array holds the whole product of the feature array and the second weight matrix. -/
theorem val2 (V : (c : Dev nD) → (b : Ref sig .tc) → Buf (Elt Ideal) ((c : Thread nD τ).loc b)) (c : Dev nD) :
    (Cert.KernelIdeal.Hand.dat2 (F := Ideal) V c).arrAt 2 cfg2.N = Cert.Bridge.G2 (F := Ideal) (V c main_v45) (V c main_arg5) :=
  (Cert.KernelIdeal.Hand.dat2 (F := Ideal) V c).arrAt_eq_of_cover 2 (G2 (F := Ideal) (Proj2.xarr V c) (Proj2.warr V c))
    (fun t _ => Proj2.flushed_eq V c t) Proj2.cover

end Cert.Bridge

end
-- ==== Proof.Value.Val3.lean ====
/-
  The value of the first bias-and-rectify region over the extended reals. The region walks the 50000 x 128 array of
  aggregated messages in 25 tiles of 2000 rows (row r lies in tile r / 2000); on each tile it adds the bias row to
  every row and replaces each entry by its maximum with zero. The bias row is the bias vector of length 128 laid out
  as a 1 x 128 array. Read index by index, the tile written at a point is therefore the matching 2000 rows of
  max(a[r, j] + b[j], 0), the tiles cover every row, and so the whole output array is that function of the
  aggregated messages and the bias vector.
-/
import proofs.«413413_j23441931501599_1_alg».proof.Proof.FrameKernelIdeal.R3
import proofs.«413413_j23441931501599_1_alg».proof.Proof.Value.Spec
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Facts₀
open Idealize.ShloMosaic Idealize.ShloMosaic.TcCoe Idealize.ShloMosaic.ValueIdx
open Idealize.SL.Sem
open Idealize.ShloMosaic.Pipeline (Dat)

namespace Val3

-- the buffer contents the region is entered from, per core
variable (V : (c : Dev nD) → (b : Ref sig .tc) → Buf (Elt Ideal) ((c : Thread nD τ).loc b))

/-- The body's loads and its store all start at the origin of their buffers. -/
theorem zero_offsets : (![0, 0] : Fin 2 → Nat) = fun _ => 0 := funext fun a => match a with | ⟨0, _⟩ => rfl | ⟨1, _⟩ => rfl

/-! ## The two sides at an index -/

/-- What the body stores at row `p`, column `q` of a tile: the tile's entry plus the bias row's entry in that column,
    then the maximum with zero. The two shape casts are between equal shapes and change nothing; the broadcast reads
    the one row. -/
theorem pay_apply (x0 : FVec Ideal S2000x128 .f32) (x1 : FVec Ideal S1x128 .f32) (p : Fin 2000) (q : Fin 128) :
    Gen.k3_pay1 x0 x1 (ix2 p q) = max (x0 (ix2 p q) + x1 (ix2 (0 : Fin 1) q)) (Ideal.ofBits .f32 0x00000000#32) := by
  unfold Gen.k3_pay1
  rw [maximumf_apply, addf_apply, shapeCast_self, shapeCast_self, broadcastTo_1b_ab_apply, broadcast_apply]
  rfl

/-- The specification at row `r`, column `q` of the whole array: the bias vector is first laid out as one row and that
    row then repeated down the rows, so the summand is the vector's entry `q`; the zero is a scalar repeated everywhere. -/
theorem spec_apply (a : FVec Ideal S50000x128 .f32) (b : FVec Ideal S128 .f32) (r : Fin 50000) (q : Fin 128) :
    G3 a b (ix2 r q) = max (a (ix2 r q) + b (ix1 q)) (Ideal.ofBits .f32 0x00000000#32) := by
  unfold G3
  rw [maximumf_apply, addf_apply,
    broadcastInDim_apply _ _ _ (ix2 r q) (ix2 (0 : Fin 1) q) (fun ax => match ax with
      | ⟨0, _⟩ => rfl
      | ⟨1, _⟩ => rfl),
    broadcastInDim_apply _ _ _ (ix2 (0 : Fin 1) q) (ix1 q) (fun ax => match ax with
      | ⟨0, _⟩ => rfl),
    broadcastInDim_apply _ _ _ (ix2 r q) ix0 (fun ax => ax.elim0),
    constant_apply]

/-- A tile's entry `y` against the array's entry `k` in the same column: if the loaded tile holds there what the array
    holds at `k`, and the loaded row holds the bias vector, the stored value is the specification's at `k`. -/
theorem tile_eq (a : FVec Ideal S50000x128 .f32) (b : FVec Ideal S128 .f32) (x0 : FVec Ideal S2000x128 .f32) (x1 : FVec Ideal S1x128 .f32)
    (y : S2000x128.Idx) (k : S50000x128.Idx) (hcol : (k 1).val = (y 1).val)
    (h0 : x0 y = a k) (h1 : ∀ q : Fin 128, x1 (ix2 (0 : Fin 1) q) = b (ix1 q)) :
    Gen.k3_pay1 x0 x1 y = G3 a b k := by
  obtain ⟨p, q, rfl⟩ : ∃ (p : Fin 2000) (q : Fin 128), y = ix2 p q := ⟨y 0, y 1, eq_ix2 y⟩
  obtain ⟨r, q', rfl⟩ : ∃ (r : Fin 50000) (q' : Fin 128), k = ix2 r q' := ⟨k 0, k 1, eq_ix2 k⟩
  obtain rfl : q' = q := Fin.ext hcol
  rw [pay_apply, spec_apply, h0, h1]

/-! ## From tiles to the array -/

/-- The block indices at point `t`: the input tile and the output tile are both tile `t` along the rows and the only
    tile along the columns; the bias row's block never moves. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the specification applied to the aggregated messages as the region finds
    them and to the bias vector: the input tile sits over the same rows as the output tile, and the bias row read
    through its block is the vector. -/
theorem flushed_eq (c : Dev nD) (b : FVec Ideal S128 .f32) (hb : V c main_v60 = shapeCast S1x128 b shapeCasts_S128_S1x128) (t : Fin cfg3.N) :
    (Hand.dat3 (F := Ideal) V c).flushed 2 t = ((cfg3.win 2).blk t).view.read (Elt Ideal) (G3 (V c main_v59) b) := by
  show (cfg3.win 2).cut (grid3.coords t) ((Hand.dat3 V c).after 2 t) = _
  rw [Hand.after3_2]
  unfold Hand.out3_2
  rw [View.canon_unit_zero zero_offsets]
  simp only [View.ld_unit_zero (S := S2000x128) zero_offsets, View.ld_unit_zero (S := S1x128) zero_offsets]
  obtain ⟨e00, e01, e10, e11, e20, e21⟩ := index_facts t
  funext y
  show Gen.k3_pay1 (Hand.iblk3 V c 0 t) (Hand.iblk3 V c 1 t) y = G3 (V c main_v59) b (((cfg3.win 2).blk t).view.emb y)
  refine tile_eq (V c main_v59) b (Hand.iblk3 V c 0 t) (Hand.iblk3 V c 1 t) y (((cfg3.win 2).blk t).view.emb y) ?_ ?_ ?_
  · -- the output tile spans all the columns: a tile's column is the array's column
    show win3_2.index t (1 : Fin 2) * 128 + 1 * (y 1).val = (y 1).val
    rw [e21]; omega
  · -- the input tile and the output tile sit at the same place of their arrays
    show V c main_v59 (((cfg3.win 0).blk t).view.emb y) = V c main_v59 (((cfg3.win 2).blk t).view.emb y)
    refine congrArg (V c main_v59) (funext fun ax => Fin.ext ?_)
    match ax with
    | ⟨0, _⟩ => show win3_0.index t (0 : Fin 2) * 2000 + 1 * (y 0).val = win3_2.index t (0 : Fin 2) * 2000 + 1 * (y 0).val; rw [e00, e20]
    | ⟨1, _⟩ => show win3_0.index t (1 : Fin 2) * 128 + 1 * (y 1).val = win3_2.index t (1 : Fin 2) * 128 + 1 * (y 1).val; rw [e01, e21]
  · -- the bias row's block is the whole row, and the row is the vector laid out with a leading unit axis
    intro q
    show V c main_v60 (((cfg3.win 1).blk t).view.emb (ix2 (0 : Fin 1) q)) = b (ix1 q)
    have hk : ((cfg3.win 1).blk t).view.emb (ix2 (0 : Fin 1) q) = ix2 (0 : Fin 1) q := by
      refine funext fun ax => Fin.ext ?_
      match ax with
      | ⟨0, _⟩ => show win3_1.index t (0 : Fin 2) * 1 + 1 * 0 = 0; rw [e10]
      | ⟨1, _⟩ => show win3_1.index t (1 : Fin 2) * 128 + 1 * q.val = q.val; rw [e11]; omega
    rw [hk]
    exact (congrFun hb (ix2 (0 : Fin 1) q)).trans (shapeCast_a_1a_apply b _ 0 q)

/-- An index of the output array is in point `t`'s tile iff each coordinate is in the tile's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Every index of the output array is in the tile of the point numbered by its row divided by the tile's height,
    and every point writes its tile back. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := Gen.N_3
  obtain ⟨t, ht⟩ : ∃ t : Fin cfg3.N, t.val = (i 0).val / 2000 := ⟨⟨(i 0).val / 2000, by rw [hN]; omega⟩, rfl⟩
  obtain ⟨-, -, -, -, e20, e21⟩ := index_facts t
  refine ⟨t, Gen.flush3_2 t, ?_⟩
  rw [mem_blk]
  intro a
  match a with
  | ⟨0, _⟩ => show win3_2.index t (0 : Fin 2) * 2000 ≤ (i 0).val ∧ (i 0).val < win3_2.index t (0 : Fin 2) * 2000 + 2000; rw [e20, ht]; omega
  | ⟨1, _⟩ => show win3_2.index t (1 : Fin 2) * 128 ≤ (i 1).val ∧ (i 1).val < win3_2.index t (1 : Fin 2) * 128 + 128; rw [e21]; omega

end Val3

/-- THE OUTPUT ARRAY after the region: the aggregated messages plus the bias vector along the rows, rectified. -/
theorem val3 (V : (c : Dev nD) → (b : Ref sig .tc) → Buf (Elt Ideal) ((c : Thread nD τ).loc b)) (c : Dev nD) (b : FVec Ideal S128 .f32)
    (hb : V c main_v60 = shapeCast S1x128 b shapeCasts_S128_S1x128) :
    (Cert.KernelIdeal.Hand.dat3 (F := Ideal) V c).arrAt 2 cfg3.N = Cert.Bridge.G3 (V c main_v59) b :=
  (Hand.dat3 (F := Ideal) V c).arrAt_eq_of_cover 2 (G3 (V c main_v59) b) (fun t _ => Val3.flushed_eq V c b hb t) Val3.cover

end Cert.Bridge

end
-- ==== Proof.Value.PoolSum.lean ====
/-
  Pooling node rows into graphs, as pure mathematics over the extended reals.

  The 50000 node rows are walked in 25 tiles of 2000. A scratch of 256 × 128 starts at zero; tile `t` adds to it the product
  of the tile's one-hot matrix with the tile's rows, contracted over the tile's row axis: the one-hot matrix has a `1` at
  `(n, g)` when row `n`'s graph id is the 32-bit word of `g` and a `0` otherwise. Since `1 * x = x` and `0 * x = 0` for every
  extended real `x`, infinite ones included, tile `t` adds at `(g, d)` exactly the entries `h[n, d]` of its rows `n` whose id is
  `g`. By induction on the tile, after tile `t` the scratch holds at `(g, d)` the sum of `h[n, d]` over the rows
  `n < 2000 (t + 1)` whose id is `g`; after the last tile that is the sum over all rows.

  The reference scatters the rows onto zeros with the ids as a one-column index array: update `(n, d')` lands on `(g, d)` when
  the id of row `n`, read as a signed number, is `g` and `d' = d`, and lands nowhere when the id is outside `[0, 256)`. A word
  whose signed reading is a number `g < 256` is the word of `g`, so both sides select the same rows, and the two sums agree.
  No finiteness of the entries is used.
-/
import proofs.«413413_j23441931501599_1_alg».proof.Proof.Value.Spec
import proofs.«413413_j23441931501599_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.Bridge.Pool

open Idealize.ShloMosaic Idealize.ShloMosaic.ValueIdx Cert.KernelIdeal Cert.KernelIdeal.Facts₀

/-! ## One tile's product at an entry -/

/-- A one-hot entry as an extended real: the comparison bit, widened to a word and read as a signed number, is `1` when the
    two words are equal and `0` otherwise. -/
theorem onehot_entry (x y : BitVec 32) :
    (FloatOps.sitofp (F := Ideal) .f32 ((IntOp.cmpi .eq x y).setWidth 32) : EReal) = if x = y then 1 else 0 := by
  by_cases h : x = y
  · subst h
    rw [if_pos rfl]
    have : IntOp.cmpi .eq x x = 1#1 := by simp [IntOp.cmpi]
    rw [this]
    show (((((1#1 : BitVec 1).setWidth 32).toInt : ℤ) : ℝ) : EReal) = 1
    have : ((1#1 : BitVec 1).setWidth 32).toInt = 1 := by decide
    rw [this]; simp
  · rw [if_neg h]
    have : IntOp.cmpi .eq x y = 0#1 := by
      have hb : (x == y) = false := by simpa using h
      simp [IntOp.cmpi, hb]
    rw [this]
    show (((((0#1 : BitVec 1).setWidth 32).toInt : ℤ) : ℝ) : EReal) = 0
    have : ((0#1 : BitVec 1).setWidth 32).toInt = 0 := by decide
    rw [this]; simp

/-- The one-hot operand is read at (tile row, slot): its first coordinate is the contraction position … -/
theorem lhs_pool_0 (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q
/-- … and its second the result's first coordinate. -/
theorem lhs_pool_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide), dif_pos (show (1 : Fin S2000x256.rank) ∈ dot_S2000x256_S2000x128_S256x128_0_0_1_1_n_n.lhsNonContracting by decide)]
  rfl
/-- The rows operand is read at (tile row, column): its first coordinate is the contraction position … -/
theorem rhs_pool_0 (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q
/-- … and its second the result's second coordinate. -/
theorem rhs_pool_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide), dif_pos (show (1 : Fin S2000x128.rank) ∈ dot_S2000x256_S2000x128_S256x128_0_0_1_1_n_n.rhsNonContracting by decide)]
  rfl

/-- The product of the two tile operands, contracted over the tile's 2000 rows, at entry `(g, d)`. -/
theorem poolMatmul_apply (L : FVec Ideal S2000x256 .bf16) (R : FVec Ideal S2000x128 .bf16) (g : Fin 256) (d : Fin 128) :
    matmul dot_S2000x256_S2000x128_S256x128_0_0_1_1_n_n none L R (constant (F := Ideal) S256x128 .f32 0x00000000#32) (ix2 g d)
      = ∑ k : Fin 2000, L (ix2 k g) * R (ix2 k d) := by
  simp only [matmul]
  rw [Ideal.matmul_constant_zero_apply, ← Equiv.sum_comp (ValueIdx.contrEquiv1 dot_S2000x256_S2000x128_S256x128_0_0_1_1_n_n 2000 rfl rfl).symm]
  refine Finset.sum_congr rfl fun k _ => ?_
  have hk := ValueIdx.contrEquiv1_symm_val dot_S2000x256_S2000x128_S256x128_0_0_1_1_n_n 2000 rfl rfl k
  have el : dot_S2000x256_S2000x128_S256x128_0_0_1_1_n_n.lhsIdx (ix2 g d) ((ValueIdx.contrEquiv1 dot_S2000x256_S2000x128_S256x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x256_S2000x128_S256x128_0_0_1_1_n_n.rhsIdx (ix2 g d) ((ValueIdx.contrEquiv1 dot_S2000x256_S2000x128_S256x128_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

/-- The id column spread over the 256 graph slots reads the id of the row. -/
theorem bcastCol_apply (ids : IVec S2000x1 32) (k : Fin 2000) (g : Fin 256) :
    broadcastTo S2000x256 ids broadcasts_S2000x1_S2000x256 (ix2 k g) = ids (ix2 k (0 : Fin 1)) :=
  broadcastTo_apply ids _ (ix2 k g) (ix2 k (0 : Fin 1)) (fun a => by match a with | ⟨0, _⟩ => rfl | ⟨1, _⟩ => rfl)

/-- The slot counter along the second axis reads the slot number. -/
theorem slotIota_apply (k : Fin 2000) (g : Fin 256) :
    iota .tc S2000x256 32 [1] iota_S2000x256_d1_w32 (ix2 k g) = BitVec.ofNat 32 g.val :=
  iota_single_apply .tc S2000x256 32 1 _ (ix2 k g)

/-- One tile's step at `(g, d)`: what the scratch held there plus the entries `rows[k, d]` of the tile's rows `k` whose id is the
    word of `g`. -/
theorem pay2_apply (ids : IVec S2000x1 32) (rows : FVec Ideal S2000x128 .f32) (acc : FVec Ideal S256x128 .f32)
    (g : Fin 256) (d : Fin 128) :
    Gen.k4_pay2 (F := Ideal) ids rows acc (ix2 g d)
      = acc (ix2 g d) + ∑ k : Fin 2000, (if ids (ix2 k (0 : Fin 1)) = BitVec.ofNat 32 g.val then rows (ix2 k d) else 0) := by
  unfold Gen.k4_pay2
  dsimp only
  simp only [shapeCast_self]
  show acc (ix2 g d) + matmul dot_S2000x256_S2000x128_S256x128_0_0_1_1_n_n none _ _ (constant (F := Ideal) S256x128 .f32 0x00000000#32) (ix2 g d) = _
  rw [poolMatmul_apply]
  refine congrArg (acc (ix2 g d) + ·) (Finset.sum_congr rfl fun k _ => ?_)
  show FloatOps.sitofp (F := Ideal) .f32 ((IntOp.cmpi .eq (broadcastTo S2000x256 ids broadcasts_S2000x1_S2000x256 (ix2 k g)) (iota .tc S2000x256 32 [1] iota_S2000x256_d1_w32 (ix2 k g))).setWidth 32) * rows (ix2 k d) = _
  rw [bcastCol_apply, slotIota_apply, onehot_entry]
  by_cases h : ids (ix2 k (0 : Fin 1)) = BitVec.ofNat 32 g.val
  · rw [if_pos h, if_pos h, one_mul]
  · rw [if_neg h, if_neg h, zero_mul]

/-- The scratch's first contents: zero everywhere. -/
theorem pay1_apply (i : S256x128.Idx) : Gen.k4_pay1 (F := Ideal) i = 0 := by
  unfold Gen.k4_pay1
  rw [shapeCast_self]
  exact Ideal.ofBits_zero_f32

/-! ## Tiles and the accumulation -/

/-- Tile `t` of the id column: rows `2000 t … 2000 t + 1999`. -/
def idsTile (col : IVec S50000x1 32) (t : Fin 25) : IVec S2000x1 32 :=
  fun y => col (ix2 (⟨2000 * t.val + (y 0).val, by have := idx2_lt0 y; have := t.isLt; omega⟩ : Fin 50000)
    (⟨(y 1).val, idx2_lt1 y⟩ : Fin 1))

/-- Tile `t` of the node rows. -/
def rowsTile (h : FVec Ideal S50000x128 .f32) (t : Fin 25) : FVec Ideal S2000x128 .f32 :=
  fun y => h (ix2 (⟨2000 * t.val + (y 0).val, by have := idx2_lt0 y; have := t.isLt; omega⟩ : Fin 50000)
    (⟨(y 1).val, idx2_lt1 y⟩ : Fin 128))

/-- The scratch after tile `t`: zero, then each tile's one-hot product added in turn. -/
def poolAcc (col : IVec S50000x1 32) (h : FVec Ideal S50000x128 .f32) : (t : Nat) → t < 25 → FVec Ideal S256x128 .f32
  | 0, ht => Gen.k4_pay2 (F := Ideal) (idsTile col ⟨0, ht⟩) (rowsTile h ⟨0, ht⟩) (Gen.k4_pay1 (F := Ideal))
  | t + 1, ht => Gen.k4_pay2 (F := Ideal) (idsTile col ⟨t + 1, ht⟩) (rowsTile h ⟨t + 1, ht⟩)
      (poolAcc col h t (Nat.lt_of_succ_lt ht))

/-- What row `n` gives slot `g` in column `d`: its entry when its id is `g`, else nothing (and nothing past the last row). -/
def contrib (col : IVec S50000x1 32) (h : FVec Ideal S50000x128 .f32) (g : Fin 256) (d : Fin 128) (n : Nat) : EReal :=
  if hn : n < 50000 then
    (if col (ix2 (⟨n, hn⟩ : Fin 50000) (0 : Fin 1)) = BitVec.ofNat 32 g.val then h (ix2 (⟨n, hn⟩ : Fin 50000) d) else 0)
  else 0

/-- One tile's one-hot product is the sum of its rows' contributions. -/
theorem tile_sum (col : IVec S50000x1 32) (h : FVec Ideal S50000x128 .f32) (g : Fin 256) (d : Fin 128) (t : Fin 25) :
    (∑ k : Fin 2000, (if idsTile col t (ix2 k (0 : Fin 1)) = BitVec.ofNat 32 g.val then rowsTile h t (ix2 k d) else 0))
      = ∑ k ∈ Finset.range 2000, contrib col h g d (2000 * t.val + k) := by
  rw [Finset.sum_range]
  refine Finset.sum_congr rfl fun k _ => ?_
  have hn : 2000 * t.val + k.val < 50000 := by have := t.isLt; have := k.isLt; omega
  unfold contrib
  rw [dif_pos hn]
  rfl

/-- After tile `t` the scratch holds, at `(g, d)`, the contributions of the first `2000 (t + 1)` rows. -/
theorem poolAcc_apply (col : IVec S50000x1 32) (h : FVec Ideal S50000x128 .f32) (g : Fin 256) (d : Fin 128) :
    ∀ (t : Nat) (ht : t < 25), poolAcc col h t ht (ix2 g d) = ∑ n ∈ Finset.range (2000 * (t + 1)), contrib col h g d n
  | 0, ht => by
    rw [poolAcc, pay2_apply, pay1_apply, zero_add, tile_sum]
    simp only [Nat.mul_zero, Nat.zero_add, Nat.mul_one]
  | t + 1, ht => by
    rw [poolAcc, pay2_apply, poolAcc_apply col h g d t (Nat.lt_of_succ_lt ht), tile_sum,
      show 2000 * (t + 1 + 1) = 2000 * (t + 1) + 2000 by omega, Finset.sum_range_add]

/-! ## The reference's scatter read at an entry -/

/-- An update lands on operand index `i` exactly when, on every axis, its start plus its window coordinate is `i`'s coordinate. -/
theorem resultIdx?_eq_some_iff {s si u : Shape} (D : ScatterDims s si u) {w : Nat} (j : u.Idx) (idx : IVec si w) (i : s.Idx) :
    D.resultIdx? j idx = some i ↔ ∀ a, D.start j idx a + (D.window j a : Int) = ((i a).val : Int) := by
  unfold ScatterDims.resultIdx?
  by_cases hc : ∀ a, 0 ≤ D.start j idx a + D.window j a ∧ D.start j idx a + D.window j a < s.size a
  · rw [dif_pos hc]
    constructor
    · intro hh a
      have e1 := congrArg Fin.val (congrFun (Option.some.inj hh) a)
      have e2 : (D.start j idx a + (D.window j a : Int)).toNat = (i a).val := e1
      have h0 := (hc a).1
      omega
    · intro hh
      refine congrArg some (funext fun a => Fin.ext ?_)
      show (D.start j idx a + (D.window j a : Int)).toNat = (i a).val
      have := hh a
      omega
  · rw [dif_neg hc]
    constructor
    · intro hh; cases hh
    · intro hh
      refine absurd (fun a => ⟨?_, ?_⟩) hc
      · have := hh a; omega
      · have := hh a; have := (i a).isLt; omega

/-- The reference's scatter record. -/
abbrev sc : ScatterDims S256x128 S50000x1 S50000x128 := Cert.ReferenceIdeal.scatter_S256x128_S50000x1_S50000x128_1_0_0_1

/-- On the slot axis an update's window starts at its row's id, read signed … -/
theorem sc_start0 (n : Fin 50000) (d' : Fin 128) (idx : IVec S50000x1 32) :
    sc.start (ix2 n d') idx 0 = (idx (ix2 n (0 : Fin 1))).toInt := by
  unfold ScatterDims.start
  rw [dif_pos (show (0 : Fin 2) ∈ sc.scatterDimsToOperandDims from List.mem_singleton.mpr rfl)]
  refine congrArg (fun q => (idx q).toInt) (funext fun b => Fin.ext ?_)
  match b with
  | ⟨0, _⟩ => rfl
  | ⟨1, _⟩ => rfl

/-- … and on the column axis at zero. -/
theorem sc_start1 (n : Fin 50000) (d' : Fin 128) (idx : IVec S50000x1 32) :
    sc.start (ix2 n d') idx 1 = 0 := by
  unfold ScatterDims.start
  rw [dif_neg (show ¬(1 : Fin 2) ∈ sc.scatterDimsToOperandDims by decide)]

/-- The update's window coordinate is zero on the slot axis … -/
theorem sc_window0 (n : Fin 50000) (d' : Fin 128) : sc.window (ix2 n d') 0 = 0 := by
  unfold ScatterDims.window
  rw [dif_neg (show ¬(0 : Fin 2) ∈ sc.sKept by decide)]

/-- … and its own column on the column axis. -/
theorem sc_window1 (n : Fin 50000) (d' : Fin 128) : sc.window (ix2 n d') 1 = d'.val := by
  unfold ScatterDims.window
  rw [dif_pos (show (1 : Fin 2) ∈ sc.sKept by decide)]
  rfl

/-- A word read as a signed number is a slot number below 256 exactly when it is that number's word. -/
theorem toInt_eq_slot (b : BitVec 32) (g : Fin 256) : b.toInt = (g.val : Int) ↔ b = BitVec.ofNat 32 g.val := by
  have hn : (BitVec.ofNat 32 g.val).toNat = g.val := by
    rw [BitVec.toNat_ofNat]; have := g.isLt; omega
  have hg : (BitVec.ofNat 32 g.val).toInt = (g.val : Int) := by
    rw [BitVec.toInt_eq_toNat_of_lt (by rw [hn]; have := g.isLt; omega), hn]
  constructor
  · intro h; exact BitVec.eq_of_toInt_eq (h.trans hg.symm)
  · intro h; rw [h]; exact hg

/-- Update `(n, d')` lands on `(g, d)` exactly when row `n`'s id is the word of `g` and the columns agree. -/
theorem landing_iff (idx : IVec S50000x1 32) (n : Fin 50000) (d' : Fin 128) (g : Fin 256) (d : Fin 128) :
    sc.resultIdx? (ix2 n d') idx = some (ix2 g d) ↔ idx (ix2 n (0 : Fin 1)) = BitVec.ofNat 32 g.val ∧ d' = d := by
  rw [resultIdx?_eq_some_iff, ← toInt_eq_slot]
  constructor
  · intro hh
    have h0 := hh 0
    have h1 := hh 1
    rw [sc_start0, sc_window0] at h0
    rw [sc_start1, sc_window1] at h1
    have h0' : (idx (ix2 n (0 : Fin 1))).toInt + ((0 : Nat) : Int) = (g.val : Int) := h0
    have h1' : (0 : Int) + ((d'.val : Nat) : Int) = (d.val : Int) := h1
    exact ⟨by omega, Fin.ext (by omega)⟩
  · rintro ⟨h1, h2⟩ a
    subst h2
    match a with
    | ⟨0, _⟩ =>
      show sc.start (ix2 n d') idx 0 + ((sc.window (ix2 n d') 0 : Nat) : Int) = (g.val : Int)
      rw [sc_start0, sc_window0]; omega
    | ⟨1, _⟩ =>
      show sc.start (ix2 n d') idx 1 + ((sc.window (ix2 n d') 1 : Nat) : Int) = (d'.val : Int)
      rw [sc_start1, sc_window1]; omega

/-- The reference's id column (the ids spread along a new unit axis) reads the id of the row. -/
theorem refCol_apply (batch : IVec S50000 32) (n : Fin 50000) :
    broadcastInDim S50000x1 ![0] Cert.ReferenceIdeal.Facts₀.bcast_S50000_S50000x1_0 batch (ix2 n (0 : Fin 1)) = batch (ix1 n) :=
  broadcastInDim_apply _ _ batch (ix2 n (0 : Fin 1)) (ix1 n) (fun a => by match a with | ⟨0, _⟩ => rfl)

/-- The kernel's id column (the ids recast to one column) reads the same. -/
theorem kerCol_apply (batch : IVec S50000 32) (n : Fin 50000) :
    shapeCast S50000x1 batch shapeCasts_S50000_S50000x1 (ix2 n (0 : Fin 1)) = batch (ix1 n) :=
  shapeCast_apply batch _ (ix2 n (0 : Fin 1)) (ix1 n) (by
    rw [Shape.rowMajor_val_one, Shape.rowMajor_val_two]
    show n.val = n.val * 1 + 0
    omega)

/-- The accumulating scatter onto zeros, with ids `idx`, at `(g, d)`: the rows whose id is the word of `g`, summed in column `d`. -/
theorem scatter_apply (idx : IVec S50000x1 32) (h : FVec Ideal S50000x128 .f32) (g : Fin 256) (d : Fin 128) :
    Host.scatterAdd (F := Ideal) sc
        (broadcastInDim Cert.ReferenceIdeal.S256x128 ![] Cert.ReferenceIdeal.Facts₀.bcast_S_S256x128
          (constant (F := Ideal) Cert.ReferenceIdeal.S_ .f32 0x00000000#32)) idx h (ix2 g d)
      = ∑ n : Fin 50000, (if idx (ix2 n (0 : Fin 1)) = BitVec.ofNat 32 g.val then h (ix2 n d) else 0) := by
  simp only [Host.scatterAdd]
  rw [Ideal.hostScatterAdd_def]
  unfold Ideal.hostScatterAdd
  have hz : broadcastInDim Cert.ReferenceIdeal.S256x128 ![] Cert.ReferenceIdeal.Facts₀.bcast_S_S256x128
      (constant (F := Ideal) Cert.ReferenceIdeal.S_ .f32 0x00000000#32) (ix2 g d) = 0 := Ideal.ofBits_zero_f32
  rw [hz, zero_add, Finset.sum_filter, sum_idx2]
  refine Finset.sum_congr rfl fun n _ => ?_
  show (∑ d' : Fin 128, if sc.resultIdx? (ix2 n d') idx = some (ix2 g d) then h (ix2 n d') else 0) = _
  simp only [landing_iff]
  by_cases hb : idx (ix2 n (0 : Fin 1)) = BitVec.ofNat 32 g.val
  · simp [hb]
  · simp [hb]

/-- The per-graph row sum at `(g, d)`. -/
theorem G4_apply (h : FVec Ideal S50000x128 .f32) (batch : IVec S50000 32) (g : Fin 256) (d : Fin 128) :
    Cert.Bridge.G4 (F := Ideal) h batch (ix2 g d)
      = ∑ n : Fin 50000, (if batch (ix1 n) = BitVec.ofNat 32 g.val then h (ix2 n d) else 0) := by
  unfold Cert.Bridge.G4
  refine (scatter_apply _ h g d).trans ?_
  exact Finset.sum_congr rfl fun n _ => if_congr (Eq.congr_left (refCol_apply batch n)) rfl rfl

/-- After the last tile the scratch is the per-graph row sum. -/
theorem poolAcc_last (h : FVec Ideal S50000x128 .f32) (batch : IVec S50000 32) :
    poolAcc (shapeCast S50000x1 batch shapeCasts_S50000_S50000x1) h 24 (by decide) = Cert.Bridge.G4 (F := Ideal) h batch := by
  funext i
  obtain ⟨g, d, rfl⟩ : ∃ (g : Fin 256) (d : Fin 128), i = ix2 g d := ⟨i 0, i 1, eq_ix2 i⟩
  rw [poolAcc_apply, G4_apply]
  show ∑ n ∈ Finset.range 50000, _ = _
  rw [Finset.sum_range]
  refine Finset.sum_congr rfl fun n _ => ?_
  unfold contrib
  rw [dif_pos n.isLt]
  show (if shapeCast S50000x1 batch shapeCasts_S50000_S50000x1 (ix2 n (0 : Fin 1)) = BitVec.ofNat 32 g.val then h (ix2 n d) else 0) = _
  rw [kerCol_apply]

end Cert.Bridge.Pool
-- ==== Proof.Value.Val4.lean ====
/-
  The pooled array after the run of the pooling region.

  The region walks the node rows in 25 tiles of 2000; at point `t` its two input blocks are tile `t` of the node rows and tile `t`
  of the id column (block index `(t, 0)` in both), and the scratch it carries from point to point holds, after point `t`, the
  accumulation over the tiles `0 … t`: zero, then each tile's one-hot product added in turn. Only the last point, 24, writes
  the result back, and the result's block is the whole 256 × 128 array, so the array ends as the scratch after the last tile,
  which is the per-graph sum of the node rows.
-/
import proofs.«413413_j23441931501599_1_alg».proof.Proof.FrameKernelIdeal.R4
import proofs.«413413_j23441931501599_1_alg».proof.Proof.Value.PoolSum
import Idealize.ShloMosaic.Lib.Pipeline.Value
import Idealize.ShloMosaic.Lib.ValueIdx

set_option maxRecDepth 16384

noncomputable section

namespace Cert.Bridge.Pool

open Idealize.ShloMosaic Idealize.ShloMosaic.ValueIdx Idealize.ShloMosaic.TcCoe Idealize.SL.Sem
open Cert.KernelIdeal Cert.KernelIdeal.Facts₀ Cert.KernelIdeal.Hand
open Idealize.ShloMosaic.Pipeline (Dat Cfg Window)

variable (V : (c : Dev nD) → (b : Ref sig .tc) → Buf (Elt Ideal) ((c : Thread nD τ).loc b))

/-- The zero offsets of a whole-buffer rectangle. -/
theorem hz4 : (![0, 0] : Fin 2 → Nat) = fun _ => 0 := funext fun a => by fin_cases a <;> rfl

/-- Where each window's block sits at point `t`: the two inputs at row block `t`, the output always at the origin. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0)

/-- One point's step on the scratch is the tile step: every rectangle involved is a whole buffer at zero offsets. -/
theorem step4_eq (ids : Vec Ideal S2000x1 .i32) (rows : Vec Ideal S2000x128 .f32) (acc : Vec Ideal S256x128 .f32) :
    step4 (F := Ideal) ids rows acc = Gen.k4_pay2 (F := Ideal) ids rows acc := by
  unfold step4
  rw [View.canon_unit_zero hz4]
  rw [View.ld_unit_zero (S := S2000x1) hz4, View.ld_unit_zero (S := S2000x128) hz4, View.ld_unit_zero (S := S256x128) hz4]

/-- The cleared scratch is the zero array. -/
theorem clear4_eq : clear4 (F := Ideal) = Gen.k4_pay1 (F := Ideal) := by
  unfold clear4
  rw [View.canon_unit_zero hz4]

/-- The region has 25 points. -/
theorem N4 : cfg4.N = 25 := Gen.N_4

/-- The id block at point `t` is tile `t` of the id column. -/
theorem iblk4_ids (c : Dev nD) (t : Fin cfg4.N) :
    iblk4 (F := Ideal) V c 1 t = idsTile (V c main_v62) ⟨t.val, N4 ▸ t.isLt⟩ := by
  obtain ⟨e0, e1, e2, e3, e4, e5⟩ := idx_facts4 t
  funext y
  show V c main_v62 (((cfg4.win 1).blk t).view.emb y) = V c main_v62 _
  refine congrArg (V c main_v62) (funext fun a => Fin.ext ?_)
  match a with
  | ⟨0, _⟩ => show win4_1.index t (0 : Fin 2) * 2000 + 1 * (y 0).val = 2000 * t.val + (y 0).val; omega
  | ⟨1, _⟩ => show win4_1.index t (1 : Fin 2) * 1 + 1 * (y 1).val = (y 1).val; omega

/-- The rows block at point `t` is tile `t` of the node rows. -/
theorem iblk4_rows (c : Dev nD) (t : Fin cfg4.N) :
    iblk4 (F := Ideal) V c 0 t = rowsTile (V c main_v61) ⟨t.val, N4 ▸ t.isLt⟩ := by
  obtain ⟨e0, e1, e2, e3, e4, e5⟩ := idx_facts4 t
  funext y
  show V c main_v61 (((cfg4.win 0).blk t).view.emb y) = V c main_v61 _
  refine congrArg (V c main_v61) (funext fun a => Fin.ext ?_)
  match a with
  | ⟨0, _⟩ => show win4_0.index t (0 : Fin 2) * 2000 + 1 * (y 0).val = 2000 * t.val + (y 0).val; omega
  | ⟨1, _⟩ => show win4_0.index t (1 : Fin 2) * 128 + 1 * (y 1).val = (y 1).val; omega

/-- The scratch after point `n` is the accumulation over the tiles `0 … n`. -/
theorem sc4_eq (c : Dev nD) : ∀ (n : ℕ) (hn : n < cfg4.N),
    sc4 (F := Ideal) V c n hn = poolAcc (V c main_v62) (V c main_v61) n (N4 ▸ hn)
  | 0, hn => by
    rw [sc4, step4_eq, clear4_eq, iblk4_ids, iblk4_rows]
    rfl
  | n + 1, hn => by
    rw [sc4, step4_eq, sc4_eq c n (Nat.lt_of_succ_lt hn), iblk4_ids, iblk4_rows]
    rfl

/-- WHAT THE LAST POINT WRITES BACK: the only point that writes the result back is point 24, and what it writes is the
    whole per-graph row sum (the result's block is the whole array). -/
theorem flushed4_2 (c : Dev nD) (batch : IVec S50000 32)
    (hb : V c main_v62 = shapeCast S50000x1 batch shapeCasts_S50000_S50000x1) (t : Fin cfg4.N)
    (hf : (cfg4.win 2).flush t = true) :
    (dat4 (F := Ideal) V c).flushed 2 t
      = ((cfg4.win 2).blk t).view.read (Elt Ideal) (Cert.Bridge.G4 (F := Ideal) (V c main_v61) batch) := by
  have h24 : t.val = 24 := by
    have h1 := (Gen.flush4_2 t).1 hf
    have h2 : t.val < 25 := N4 ▸ t.isLt
    omega
  obtain ⟨e0, e1, e2, e3, e4, e5⟩ := idx_facts4 t
  show (cfg4.win 2).cut (grid4.coords t) ((dat4 (F := Ideal) V c).after 2 t) = _
  rw [after4_2, sc4_eq]
  obtain ⟨n, hn⟩ := t
  have h24' : n = 24 := h24
  subst h24'
  rw [hb, poolAcc_last]
  funext y
  show Cert.Bridge.G4 (F := Ideal) (V c main_v61) batch ((cfg4.win 2).xinj (grid4.coords ⟨24, hn⟩) y)
    = Cert.Bridge.G4 (F := Ideal) (V c main_v61) batch (((cfg4.win 2).blk ⟨24, hn⟩).view.emb y)
  refine congrArg (Cert.Bridge.G4 (F := Ideal) (V c main_v61) batch) (funext fun a => Fin.ext ?_)
  match a with
  | ⟨0, _⟩ => show (y 0).val = win4_2.index ⟨24, hn⟩ (0 : Fin 2) * 256 + 1 * (y 0).val; omega
  | ⟨1, _⟩ => show (y 1).val = win4_2.index ⟨24, hn⟩ (1 : Fin 2) * 128 + 1 * (y 1).val; omega

/-- Point 24's block covers the whole result. -/
theorem cover4_2 (i : S256x128.Idx) :
    ∃ t : Fin cfg4.N, (cfg4.win 2).flush t = true ∧ i ∈ ((cfg4.win 2).blk t).view.set := by
  have h24 : 24 < cfg4.N := by rw [N4]; omega
  obtain ⟨e0, e1, e2, e3, e4, e5⟩ := idx_facts4 ⟨24, h24⟩
  refine ⟨⟨24, h24⟩, (Gen.flush4_2 _).2 rfl, ?_⟩
  show i ∈ ((View.whole main_v63).slice (win4_2.rect ⟨24, h24⟩)).set
  rw [View.set_slice_whole, Rect.mem_set_unit]
  intro a
  match a with
  | ⟨0, _⟩ =>
    show win4_2.index ⟨24, h24⟩ (0 : Fin 2) * 256 ≤ (i 0).val ∧ (i 0).val < win4_2.index ⟨24, h24⟩ (0 : Fin 2) * 256 + 256
    have := idx2_lt0 i; omega
  | ⟨1, _⟩ =>
    show win4_2.index ⟨24, h24⟩ (1 : Fin 2) * 128 ≤ (i 1).val ∧ (i 1).val < win4_2.index ⟨24, h24⟩ (1 : Fin 2) * 128 + 128
    have := idx2_lt1 i; omega

end Cert.Bridge.Pool

namespace Cert.Bridge

open Idealize.ShloMosaic Idealize.ShloMosaic.TcCoe Idealize.SL.Sem
open Cert.KernelIdeal Cert.KernelIdeal.Facts₀

/-- THE POOLED ARRAY AFTER THE RUN: when the id column the region finds is the ids recast to one column, the result array
    ends as the per-graph sum of the node rows the region finds. -/
theorem val4 (V : (c : Dev nD) → (b : Ref sig .tc) → Buf (Elt Ideal) ((c : Thread nD τ).loc b)) (c : Dev nD)
    (batch : IVec S50000 32) (hb : V c main_v62 = shapeCast S50000x1 batch shapeCasts_S50000_S50000x1) :
    (Cert.KernelIdeal.Hand.dat4 (F := Ideal) V c).arrAt 2 cfg4.N = Cert.Bridge.G4 (F := Ideal) (V c main_v61) batch :=
  (Cert.KernelIdeal.Hand.dat4 (F := Ideal) V c).arrAt_eq_of_cover 2 _ (fun t hf => Pool.flushed4_2 V c batch hb t hf) Pool.cover4_2

end Cert.Bridge

end
-- ==== Proof.Value.MlpVal.lean ====
/-
  The dense stack on the pooled rows, kernel form against reference form, over the extended reals. Each layer is a matrix
  product, a bias added to every row, and (all but the last) a rectification. The kernel narrows its operands before the
  product, accumulates into zero, repeats a one-row bias matrix down the rows and takes the maximum with a repeated scalar
  zero; the reference multiplies on the host, broadcasts the bias vector in two steps and takes the maximum with a broadcast
  zero constant. Over the extended reals narrowing is the identity and both products are the same sum over the contracted
  axis, both bias forms read the bias vector at the column, and both zeros are the number zero: the layers agree one by one,
  and so do the stacks.
-/
import proofs.«413413_j23441931501599_1_alg».proof.Proof.Value.Spec
import proofs.«413413_j23441931501599_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Bridge.Mlp

open Idealize.ShloMosaic Idealize.ShloMosaic.ValueIdx

/-- A product into the zero accumulator, its operands narrowed first, is the host's product of the same operands:
    over the extended reals narrowing changes nothing, and both are the plain sum over the contracted axis. -/
theorem matmul_zero_eq_dotGeneral {sl sr so : Shape} (d : DotDims sl sr so) (prec prec' : Option ContractPrecision)
    (x : FVec Ideal sl .f32) (w : FVec Ideal sr .f32) (h1 h2) :
    matmul d prec (truncf .bf16 x h1) (truncf .bf16 w h2) (constant (F := Ideal) so .f32 0x00000000#32)
      = Host.dotGeneral (F := Ideal) d prec' x w := by
  funext j
  show FloatOps.matmul d prec (truncf .bf16 x h1) (truncf .bf16 w h2) (constant (F := Ideal) so .f32 0x00000000#32) j
      = FloatOps.dotGeneral d prec' .single x w j
  rw [Ideal.matmul_constant_zero_apply, Ideal.dotGeneral_apply]
  rfl

/-- The kernel's bias row: a vector recast as a one-row matrix and repeated down the rows reads the vector at the column. -/
theorem biasRow_apply {α : Type} {m n : ℕ} (v : (⟨1, ![n]⟩ : Shape).Idx → α)
    (h1 : (⟨1, ![n]⟩ : Shape).ShapeCasts ⟨2, ![1, n]⟩) (h2 : (⟨2, ![1, n]⟩ : Shape).ShapeCasts ⟨2, ![1, n]⟩)
    (h3 : (⟨2, ![1, n]⟩ : Shape).Broadcasts ⟨2, ![m, n]⟩) (p : Fin m) (c : Fin n) :
    broadcastTo ⟨2, ![m, n]⟩ (shapeCast ⟨2, ![1, n]⟩ (shapeCast ⟨2, ![1, n]⟩ v h1) h2) h3 (ix2 p c) = v (ix1 c) := by
  rw [shapeCast_self, broadcastTo_1b_ab_apply, shapeCast_a_1a_apply]

/-- The reference's bias: a vector broadcast to one row and then down the rows reads the vector at the column. -/
theorem biasBcast_apply {α : Type} {m n : ℕ} (v : (⟨1, ![n]⟩ : Shape).Idx → α)
    (d1 : Fin 1 → Fin 2) (hd1 : d1 0 = 1) (d2 : Fin 2 → Fin 2) (hd2 : d2 1 = 1)
    (h1 : (⟨1, ![n]⟩ : Shape).BroadcastsInDim ⟨2, ![1, n]⟩ d1)
    (h2 : (⟨2, ![1, n]⟩ : Shape).BroadcastsInDim ⟨2, ![m, n]⟩ d2) (p : Fin m) (c : Fin n) :
    broadcastInDim ⟨2, ![m, n]⟩ d2 h2 (broadcastInDim ⟨2, ![1, n]⟩ d1 h1 v) (ix2 p c) = v (ix1 c) := by
  rw [broadcastInDim_apply d2 h2 _ (ix2 p c) (ix2 (0 : Fin 1) c) (fun a => by
    match a with
    | ⟨0, _⟩ => rfl
    | ⟨1, _⟩ =>
      show c.val = if n = 1 then 0 else ((ix2 p c : (⟨2, ![m, n]⟩ : Shape).Idx) (d2 1)).val
      rw [hd2]
      split
      · have := c.isLt; omega
      · rfl)]
  rw [broadcastInDim_apply d1 h1 _ (ix2 (0 : Fin 1) c) (ix1 c) (fun a => by
    match a with
    | ⟨0, _⟩ =>
      show c.val = if n = 1 then 0 else ((ix2 (0 : Fin 1) c : (⟨2, ![1, n]⟩ : Shape).Idx) (d1 0)).val
      rw [hd1]
      split
      · have := c.isLt; omega
      · rfl)]

/-- Bias and rectification, kernel form against reference form: added to the same matrix, the kernel's repeated bias row
    and the reference's two-step broadcast read the same bias entry, and the two zero constants are the same number. -/
theorem biasRelu_eq {m n : ℕ} (x : FVec Ideal ⟨2, ![m, n]⟩ .f32) (b : FVec Ideal ⟨1, ![n]⟩ .f32)
    (h1 : (⟨1, ![n]⟩ : Shape).ShapeCasts ⟨2, ![1, n]⟩) (h2 : (⟨2, ![1, n]⟩ : Shape).ShapeCasts ⟨2, ![1, n]⟩)
    (h3 : (⟨2, ![1, n]⟩ : Shape).Broadcasts ⟨2, ![m, n]⟩)
    (d1 : Fin 1 → Fin 2) (hd1 : d1 0 = 1) (d2 : Fin 2 → Fin 2) (hd2 : d2 1 = 1)
    (h4 : (⟨1, ![n]⟩ : Shape).BroadcastsInDim ⟨2, ![1, n]⟩ d1)
    (h5 : (⟨2, ![1, n]⟩ : Shape).BroadcastsInDim ⟨2, ![m, n]⟩ d2)
    (d0 : Fin 0 → Fin 2) (h6 : (⟨0, ![]⟩ : Shape).BroadcastsInDim ⟨2, ![m, n]⟩ d0) :
    maximumf (addf x (broadcastTo ⟨2, ![m, n]⟩ (shapeCast ⟨2, ![1, n]⟩ (shapeCast ⟨2, ![1, n]⟩ b h1) h2) h3))
        (broadcast ⟨2, ![m, n]⟩ (Scalar.ofBits (F := Ideal) .f32 0x00000000#32))
      = maximumf (addf x (broadcastInDim ⟨2, ![m, n]⟩ d2 h5 (broadcastInDim ⟨2, ![1, n]⟩ d1 h4 b)))
        (broadcastInDim ⟨2, ![m, n]⟩ d0 h6 (constant (F := Ideal) ⟨0, ![]⟩ .f32 0x00000000#32)) := by
  funext j
  obtain ⟨p, c, rfl⟩ : ∃ (p : Fin m) (c : Fin n), j = ix2 p c := ⟨j 0, j 1, eq_ix2 j⟩
  rw [maximumf_apply, maximumf_apply, addf_apply, addf_apply, biasRow_apply, biasBcast_apply b d1 hd1 d2 hd2]
  rfl

/-- The bias of the last layer, without rectification. -/
theorem bias_eq {m n : ℕ} (x : FVec Ideal ⟨2, ![m, n]⟩ .f32) (b : FVec Ideal ⟨1, ![n]⟩ .f32)
    (h1 : (⟨1, ![n]⟩ : Shape).ShapeCasts ⟨2, ![1, n]⟩) (h2 : (⟨2, ![1, n]⟩ : Shape).ShapeCasts ⟨2, ![1, n]⟩)
    (h3 : (⟨2, ![1, n]⟩ : Shape).Broadcasts ⟨2, ![m, n]⟩)
    (d1 : Fin 1 → Fin 2) (hd1 : d1 0 = 1) (d2 : Fin 2 → Fin 2) (hd2 : d2 1 = 1)
    (h4 : (⟨1, ![n]⟩ : Shape).BroadcastsInDim ⟨2, ![1, n]⟩ d1)
    (h5 : (⟨2, ![1, n]⟩ : Shape).BroadcastsInDim ⟨2, ![m, n]⟩ d2) :
    addf x (broadcastTo ⟨2, ![m, n]⟩ (shapeCast ⟨2, ![1, n]⟩ (shapeCast ⟨2, ![1, n]⟩ b h1) h2) h3)
      = addf x (broadcastInDim ⟨2, ![m, n]⟩ d2 h5 (broadcastInDim ⟨2, ![1, n]⟩ d1 h4 b)) := by
  funext j
  obtain ⟨p, c, rfl⟩ : ∃ (p : Fin m) (c : Fin n), j = ix2 p c := ⟨j 0, j 1, eq_ix2 j⟩
  rw [addf_apply, addf_apply, biasRow_apply, biasBcast_apply b d1 hd1 d2 hd2]

section Layers

open Cert.KernelIdeal Cert.KernelIdeal.Facts₀

/-- First layer (128 to 128): the kernel's product, bias row and rectification are the reference's layer. -/
theorem layer1_eq (g : FVec Ideal S256x128 .f32) (w : FVec Ideal S128x128 .f32) (b : FVec Ideal S128 .f32) :
    maximumf (addf (matmul dot_S256x128_S128x128_S256x128_1_0_0_1_n_n none
          (truncf .bf16 (shapeCast S256x128 g shapeCasts_S256x128_S256x128) bitsLt_bf16_f32) (truncf .bf16 w bitsLt_bf16_f32)
          (constant S256x128 .f32 0x00000000#32))
        (broadcastTo S256x128 (shapeCast S1x128 (shapeCast S1x128 b shapeCasts_S128_S1x128) shapeCasts_S1x128_S1x128) broadcasts_S1x128_S256x128))
      (broadcast S256x128 (Scalar.ofBits (F := Ideal) .f32 0x00000000#32))
      = Cert.Bridge.L1 g w b := by
  rw [shapeCast_self, matmul_zero_eq_dotGeneral _ none none]
  exact biasRelu_eq _ b _ _ _ _ rfl _ rfl _ _ _ _

/-- Second layer (128 to 1024). -/
theorem layer2_eq (g : FVec Ideal S256x128 .f32) (w : FVec Ideal S128x1024 .f32) (b : FVec Ideal S1024 .f32) :
    maximumf (addf (matmul dot_S256x128_S128x1024_S256x1024_1_0_0_1_n_n none
          (truncf .bf16 g bitsLt_bf16_f32) (truncf .bf16 w bitsLt_bf16_f32) (constant S256x1024 .f32 0x00000000#32))
        (broadcastTo S256x1024 (shapeCast S1x1024 (shapeCast S1x1024 b shapeCasts_S1024_S1x1024) shapeCasts_S1x1024_S1x1024) broadcasts_S1x1024_S256x1024))
      (broadcast S256x1024 (Scalar.ofBits (F := Ideal) .f32 0x00000000#32))
      = Cert.Bridge.L2 g w b := by
  rw [matmul_zero_eq_dotGeneral _ none none]
  exact biasRelu_eq _ b _ _ _ _ rfl _ rfl _ _ _ _

/-- Third and fourth layers (1024 to 1024). -/
theorem layer3_eq (g : FVec Ideal S256x1024 .f32) (w : FVec Ideal S1024x1024 .f32) (b : FVec Ideal S1024 .f32) :
    maximumf (addf (matmul dot_S256x1024_S1024x1024_S256x1024_1_0_0_1_n_n none
          (truncf .bf16 g bitsLt_bf16_f32) (truncf .bf16 w bitsLt_bf16_f32) (constant S256x1024 .f32 0x00000000#32))
        (broadcastTo S256x1024 (shapeCast S1x1024 (shapeCast S1x1024 b shapeCasts_S1024_S1x1024) shapeCasts_S1x1024_S1x1024) broadcasts_S1x1024_S256x1024))
      (broadcast S256x1024 (Scalar.ofBits (F := Ideal) .f32 0x00000000#32))
      = Cert.Bridge.L3 g w b := by
  rw [matmul_zero_eq_dotGeneral _ none none]
  exact biasRelu_eq _ b _ _ _ _ rfl _ rfl _ _ _ _

/-- Last layer (1024 to 128), bias only. -/
theorem layer5_eq (g : FVec Ideal S256x1024 .f32) (w : FVec Ideal S1024x128 .f32) (b : FVec Ideal S128 .f32) :
    addf (matmul dot_S256x1024_S1024x128_S256x128_1_0_0_1_n_n none
          (truncf .bf16 g bitsLt_bf16_f32) (truncf .bf16 w bitsLt_bf16_f32) (constant S256x128 .f32 0x00000000#32))
        (broadcastTo S256x128 (shapeCast S1x128 (shapeCast S1x128 b shapeCasts_S128_S1x128) shapeCasts_S1x128_S1x128) broadcasts_S1x128_S256x128)
      = Cert.Bridge.L5 g w b := by
  rw [matmul_zero_eq_dotGeneral _ none none]
  exact bias_eq _ b _ _ _ _ rfl _ rfl _ _

/-- The kernel's dense stack, its bias rows made from the bias vectors, is the reference's dense stack. -/
theorem mlp_eq (g : FVec Ideal S256x128 .f32) (w1 : FVec Ideal S128x128 .f32) (b1 : FVec Ideal S128 .f32)
    (w2 : FVec Ideal S128x1024 .f32) (b2 : FVec Ideal S1024 .f32) (w22 : FVec Ideal S1024x1024 .f32) (b22 : FVec Ideal S1024 .f32)
    (w23 : FVec Ideal S1024x1024 .f32) (b23 : FVec Ideal S1024 .f32) (w3 : FVec Ideal S1024x128 .f32) (b3 : FVec Ideal S128 .f32) :
    Cert.KernelIdeal.Gen.k5_pay1 (F := Ideal)
        (Cert.KernelIdeal.Gen.k5_pay2 (F := Ideal) g w1 (shapeCast S1x128 b1 shapeCasts_S128_S1x128) w2
          (shapeCast S1x1024 b2 shapeCasts_S1024_S1x1024) w22 (shapeCast S1x1024 b22 shapeCasts_S1024_S1x1024) w23)
        (shapeCast S1x1024 b23 shapeCasts_S1024_S1x1024) w3 (shapeCast S1x128 b3 shapeCasts_S128_S1x128)
      = Cert.Bridge.G5 g w1 b1 w2 b2 w22 b22 w23 b23 w3 b3 := by
  unfold Cert.KernelIdeal.Gen.k5_pay1 Cert.KernelIdeal.Gen.k5_pay2 Cert.Bridge.G5
  dsimp only
  rw [layer1_eq, layer2_eq, layer3_eq, layer3_eq, layer5_eq]

end Layers

end Cert.Bridge.Mlp

end
-- ==== Proof.Value.Val5.lean ====
/-
  The dense stack's region as one array. The region has a single grid point and every window's block is its whole array:
  the point reads the pooled rows, the five weight matrices and the five bias rows entire, applies the stack, and writes the
  whole result back. So the result array ends holding the stack applied to the arrays the region finds; and when the bias
  rows it finds are the bias vectors recast as one-row matrices, that is the reference's dense stack of the same arrays.
-/
import proofs.«413413_j23441931501599_1_alg».proof.Proof.FrameKernelIdeal.R5
import proofs.«413413_j23441931501599_1_alg».proof.Proof.Value.MlpVal
import Idealize.ShloMosaic.Lib.Pipeline.Value

noncomputable section

namespace Cert.Bridge.Mlp

open Idealize.ShloMosaic Idealize.ShloMosaic.TcCoe Idealize.SL.Sem
open Idealize.ShloMosaic.Pipeline (Dat)
open Cert.KernelIdeal Cert.KernelIdeal.Hand Cert.KernelIdeal.Facts₀

theorem hz : (![0, 0] : Fin 2 → Nat) = fun _ => 0 := funext fun a => by fin_cases a <;> rfl

variable (V : (c : Dev nD) → (b : Ref sig .tc) → Buf (Elt Ideal) ((c : Thread nD τ).loc b))

/-! ## Every block is its whole array

At the one grid point every window's block index is zero on both axes, so an entry of the block sits at the same
coordinates in the array: the block the point works on is the array the region finds. -/

theorem iblk_0 (c : Dev nD) (t : Fin cfg5.N) : iblk5 (F := Ideal) V c 0 t = (V c main_v79 : Vec Ideal S256x128 .f32) :=
  funext fun y => congrArg (V c main_v79) (funext fun a => Fin.ext (win5_0.rect_emb_val_of_index_zero t a
    ((by decide +kernel : ∀ (t : Fin grid5.N) (a : Fin 2), win5_0.index t a = 0) t a) y))

theorem iblk_1 (c : Dev nD) (t : Fin cfg5.N) : iblk5 (F := Ideal) V c 1 t = (V c main_arg7 : Vec Ideal S128x128 .f32) :=
  funext fun y => congrArg (V c main_arg7) (funext fun a => Fin.ext (win5_1.rect_emb_val_of_index_zero t a
    ((by decide +kernel : ∀ (t : Fin grid5.N) (a : Fin 2), win5_1.index t a = 0) t a) y))

theorem iblk_2 (c : Dev nD) (t : Fin cfg5.N) : iblk5 (F := Ideal) V c 2 t = (V c main_v80 : Vec Ideal S1x128 .f32) :=
  funext fun y => congrArg (V c main_v80) (funext fun a => Fin.ext (win5_2.rect_emb_val_of_index_zero t a
    ((by decide +kernel : ∀ (t : Fin grid5.N) (a : Fin 2), win5_2.index t a = 0) t a) y))

theorem iblk_3 (c : Dev nD) (t : Fin cfg5.N) : iblk5 (F := Ideal) V c 3 t = (V c main_arg9 : Vec Ideal S128x1024 .f32) :=
  funext fun y => congrArg (V c main_arg9) (funext fun a => Fin.ext (win5_3.rect_emb_val_of_index_zero t a
    ((by decide +kernel : ∀ (t : Fin grid5.N) (a : Fin 2), win5_3.index t a = 0) t a) y))

theorem iblk_4 (c : Dev nD) (t : Fin cfg5.N) : iblk5 (F := Ideal) V c 4 t = (V c main_v81 : Vec Ideal S1x1024 .f32) :=
  funext fun y => congrArg (V c main_v81) (funext fun a => Fin.ext (win5_4.rect_emb_val_of_index_zero t a
    ((by decide +kernel : ∀ (t : Fin grid5.N) (a : Fin 2), win5_4.index t a = 0) t a) y))

theorem iblk_5 (c : Dev nD) (t : Fin cfg5.N) : iblk5 (F := Ideal) V c 5 t = (V c main_arg11 : Vec Ideal S1024x1024 .f32) :=
  funext fun y => congrArg (V c main_arg11) (funext fun a => Fin.ext (win5_5.rect_emb_val_of_index_zero t a
    ((by decide +kernel : ∀ (t : Fin grid5.N) (a : Fin 2), win5_5.index t a = 0) t a) y))

theorem iblk_6 (c : Dev nD) (t : Fin cfg5.N) : iblk5 (F := Ideal) V c 6 t = (V c main_v82 : Vec Ideal S1x1024 .f32) :=
  funext fun y => congrArg (V c main_v82) (funext fun a => Fin.ext (win5_6.rect_emb_val_of_index_zero t a
    ((by decide +kernel : ∀ (t : Fin grid5.N) (a : Fin 2), win5_6.index t a = 0) t a) y))

theorem iblk_7 (c : Dev nD) (t : Fin cfg5.N) : iblk5 (F := Ideal) V c 7 t = (V c main_arg13 : Vec Ideal S1024x1024 .f32) :=
  funext fun y => congrArg (V c main_arg13) (funext fun a => Fin.ext (win5_7.rect_emb_val_of_index_zero t a
    ((by decide +kernel : ∀ (t : Fin grid5.N) (a : Fin 2), win5_7.index t a = 0) t a) y))

theorem iblk_8 (c : Dev nD) (t : Fin cfg5.N) : iblk5 (F := Ideal) V c 8 t = (V c main_v83 : Vec Ideal S1x1024 .f32) :=
  funext fun y => congrArg (V c main_v83) (funext fun a => Fin.ext (win5_8.rect_emb_val_of_index_zero t a
    ((by decide +kernel : ∀ (t : Fin grid5.N) (a : Fin 2), win5_8.index t a = 0) t a) y))

theorem iblk_9 (c : Dev nD) (t : Fin cfg5.N) : iblk5 (F := Ideal) V c 9 t = (V c main_arg15 : Vec Ideal S1024x128 .f32) :=
  funext fun y => congrArg (V c main_arg15) (funext fun a => Fin.ext (win5_9.rect_emb_val_of_index_zero t a
    ((by decide +kernel : ∀ (t : Fin grid5.N) (a : Fin 2), win5_9.index t a = 0) t a) y))

theorem iblk_10 (c : Dev nD) (t : Fin cfg5.N) : iblk5 (F := Ideal) V c 10 t = (V c main_v84 : Vec Ideal S1x128 .f32) :=
  funext fun y => congrArg (V c main_v84) (funext fun a => Fin.ext (win5_10.rect_emb_val_of_index_zero t a
    ((by decide +kernel : ∀ (t : Fin grid5.N) (a : Fin 2), win5_10.index t a = 0) t a) y))

/-- The result's window likewise: an array read through the point's block is itself. -/
theorem read_whole_11 (t : Fin cfg5.N) (G : Vec Ideal S256x128 .f32) : ((cfg5.win 11).blk t).view.read (Elt Ideal) G = G :=
  funext fun y => congrArg G (funext fun a => Fin.ext (win5_11.rect_emb_val_of_index_zero t a
    ((by decide +kernel : ∀ (t : Fin grid5.N) (a : Fin 2), win5_11.index t a = 0) t a) y))

/-! ## From the one block to the array -/

/-- What the grid point writes back, when the bias rows the region finds are the bias vectors recast as one-row
    matrices: the reference's dense stack of the arrays the region finds. -/
theorem flushed_eq (c : Dev nD) (t : Fin cfg5.N) (b1 : FVec Ideal S128 .f32) (b2 b22 b23 : FVec Ideal S1024 .f32) (b3 : FVec Ideal S128 .f32)
    (h1 : V c main_v80 = shapeCast S1x128 b1 shapeCasts_S128_S1x128) (h2 : V c main_v81 = shapeCast S1x1024 b2 shapeCasts_S1024_S1x1024)
    (h22 : V c main_v82 = shapeCast S1x1024 b22 shapeCasts_S1024_S1x1024) (h23 : V c main_v83 = shapeCast S1x1024 b23 shapeCasts_S1024_S1x1024)
    (h3 : V c main_v84 = shapeCast S1x128 b3 shapeCasts_S128_S1x128) :
    (dat5 (F := Ideal) V c).flushed 11 t = ((cfg5.win 11).blk t).view.read (Elt Ideal)
      (Cert.Bridge.G5 (F := Ideal) (V c main_v79) (V c main_arg7) b1 (V c main_arg9) b2 (V c main_arg11) b22 (V c main_arg13) b23 (V c main_arg15) b3) := by
  show (cfg5.win 11).cut (grid5.coords t) ((dat5 (F := Ideal) V c).after 11 t) = _
  rw [after5_11, read_whole_11]
  unfold out5_11
  rw [View.canon_unit_zero hz]
  simp only [View.ld_unit_zero (S := S256x128) hz, View.ld_unit_zero (S := S128x128) hz, View.ld_unit_zero (S := S1x128) hz,
    View.ld_unit_zero (S := S128x1024) hz, View.ld_unit_zero (S := S1x1024) hz, View.ld_unit_zero (S := S1024x1024) hz,
    View.ld_unit_zero (S := S1024x128) hz]
  rw [iblk_0, iblk_1, iblk_2, iblk_3, iblk_4, iblk_5, iblk_6, iblk_7, iblk_8, iblk_9, iblk_10, h1, h2, h22, h23, h3]
  exact mlp_eq _ _ _ _ _ _ _ _ _ _ _

/-- Every entry of the result array is in the one grid point's block. -/
theorem cover (i : S256x128.Idx) : ∃ t : Fin cfg5.N, (cfg5.win 11).flush t = true ∧ i ∈ ((cfg5.win 11).blk t).view.set := by
  have hi : win5_11.index Gen.t5_0 (0 : Fin 2) = 0 ∧ win5_11.index Gen.t5_0 (1 : Fin 2) = 0 := by decide +kernel
  have hi0 : (i 0).val < 256 := (i 0).isLt
  have hi1 : (i 1).val < 128 := (i 1).isLt
  refine ⟨Gen.t5_0, Gen.flush5_11 Gen.t5_0, ?_⟩
  show i ∈ ((View.whole main_v85).slice (win5_11.rect Gen.t5_0)).set
  rw [View.set_slice_whole, Rect.mem_set_unit]
  intro a
  match a with
  | ⟨0, _⟩ => show win5_11.index Gen.t5_0 (0 : Fin 2) * 256 ≤ (i 0).val ∧ (i 0).val < win5_11.index Gen.t5_0 (0 : Fin 2) * 256 + 256; rw [hi.1]; omega
  | ⟨1, _⟩ => show win5_11.index Gen.t5_0 (1 : Fin 2) * 128 ≤ (i 1).val ∧ (i 1).val < win5_11.index Gen.t5_0 (1 : Fin 2) * 128 + 128; rw [hi.2]; omega

end Cert.Bridge.Mlp

namespace Cert.Bridge

open Idealize.ShloMosaic Idealize.ShloMosaic.TcCoe Idealize.SL.Sem
open Cert.KernelIdeal Cert.KernelIdeal.Facts₀

/-- After the region the result array holds the reference's dense stack of the pooled rows, the weight matrices the region
    finds and the bias vectors whose one-row recasts it finds. -/
theorem val5 (V : (c : Dev nD) → (b : Ref sig .tc) → Buf (Elt Ideal) ((c : Thread nD τ).loc b)) (c : Dev nD)
    (b1 : FVec Ideal S128 .f32) (b2 b22 b23 : FVec Ideal S1024 .f32) (b3 : FVec Ideal S128 .f32)
    (h1 : V c main_v80 = shapeCast S1x128 b1 shapeCasts_S128_S1x128) (h2 : V c main_v81 = shapeCast S1x1024 b2 shapeCasts_S1024_S1x1024)
    (h22 : V c main_v82 = shapeCast S1x1024 b22 shapeCasts_S1024_S1x1024) (h23 : V c main_v83 = shapeCast S1x1024 b23 shapeCasts_S1024_S1x1024)
    (h3 : V c main_v84 = shapeCast S1x128 b3 shapeCasts_S128_S1x128) :
    (Cert.KernelIdeal.Hand.dat5 (F := Ideal) V c).arrAt 11 cfg5.N
      = Cert.Bridge.G5 (F := Ideal) (V c main_v79) (V c main_arg7) b1 (V c main_arg9) b2 (V c main_arg11) b22 (V c main_arg13) b23 (V c main_arg15) b3 :=
  (Cert.KernelIdeal.Hand.dat5 (F := Ideal) V c).arrAt_eq_of_cover 11 _
    (fun t _ => Mlp.flushed_eq V c t b1 b2 b22 b23 b3 h1 h2 h22 h23 h3) Mlp.cover

end Cert.Bridge

end
-- ==== Proof.Value.Count.lean ====
/-
  Two facts about the graph-id vector (one signed 32-bit id per node, 50000 nodes, 256 graphs).

  The count. One program counts the nodes of each graph in integers: the ids are clipped below at zero, an id that is
  negative after that is moved up by 256, ones are scattered by integer addition into 256 zeros, and the result is
  converted to a float. The other scatters float ones by float addition. When every id is non-negative the clip and the
  move do nothing, so both scatters read the same index array; each then holds, at graph g, the number of nodes whose
  update lands on g (an id of 256 or more lands nowhere, on both sides alike). That number is at most 50000, below 2^31,
  so the 32-bit word does not wrap and its conversion to a float is that number, which is also the exact sum of as many
  ones.

  The precondition. Its last conjunct is the conjunction, over all nodes, of the signed comparison "id >= 0"; a
  conjunction that is true is true of every member.
-/
import proofs.«413413_j23441931501599_1_alg».proof.Defs
import proofs.«413413_j23441931501599_1_alg».proof.Proof.Gen.KernelIdeal
import proofs.«413413_j23441931501599_1_alg».proof.Proof.Gen.Pre_finite_inputs
import proofs.«413413_j23441931501599_1_alg».proof.Proof.Value.Spec
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.Bridge

open Idealize.ShloMosaic

namespace Count

variable {s si u : Shape} {w : Nat}

/-- A left fold whose step adds one to the element an update lands on, and leaves the others, has added at each
    element the number of updates that landed there. -/
theorem foldl_ones {ι κ : Type} [DecidableEq κ] (g : ι → Option κ) (step : (κ → BitVec 32) → ι → κ → BitVec 32) (i' : κ)
    (hstep : ∀ r n, step r n i' = if g n = some i' then r i' + 1#32 else r i') :
    ∀ (L : List ι) (x : κ → BitVec 32),
      (L.foldl step x) i' = x i' + BitVec.ofNat 32 ((L.map fun n => if g n = some i' then 1 else 0).sum)
  | [], x => by simp
  | a :: L, x => by
    rw [List.foldl_cons, foldl_ones g step i' hstep L, hstep]
    by_cases h : g a = some i'
    · simp [h, BitVec.ofNat_add, BitVec.add_assoc]
    · simp [h]

/-- An integer scatter by addition of ones into zeros holds, at each element, the number of updates that land on it
    (as a 32-bit word). -/
theorem scatter_addi_ones (d : ScatterDims s si u) (x : s.Idx → BitVec 32) (idx : IVec si w) (upd : u.Idx → BitVec 32)
    (hx : ∀ i, x i = 0#32) (hu : ∀ j, upd j = 1#32) (i' : s.Idx) :
    Host.scatter d IntOp.addi x idx upd i'
      = BitVec.ofNat 32 (Finset.univ.filter fun j : u.Idx => d.resultIdx? j idx = some i').card := by
  unfold Host.scatter
  rw [foldl_ones (fun n => d.resultIdx? (u.rowMajor.symm n) idx) _ i' ?_,
    hx, BitVec.zero_add, ← Fin.sum_univ_def, Equiv.sum_comp u.rowMajor.symm (fun j => if d.resultIdx? j idx = some i' then 1 else 0),
    ← Finset.card_filter]
  intro r n
  rcases d.resultIdx? (u.rowMajor.symm n) idx with _ | i
  · simp
  · by_cases hi : i' = i
    · subst hi; simp [IntOp.addi, hu]
    · have : ¬ i = i' := fun e => hi e.symm
      simp [hi, this]

/-- The exact float scatter-add of ones into zeros holds, at each element, the number of updates that land on it. -/
theorem hostScatterAdd_ones (d : ScatterDims s si u) (x : s.Idx → EReal) (idx : IVec si w) (upd : u.Idx → EReal)
    (hx : ∀ i, x i = 0) (hu : ∀ j, upd j = 1) (i' : s.Idx) :
    Ideal.hostScatterAdd d x idx upd i'
      = ((Finset.univ.filter fun j : u.Idx => d.resultIdx? j idx = some i').card : EReal) := by
  unfold Ideal.hostScatterAdd
  rw [hx, zero_add, Finset.sum_congr rfl (fun j _ => hu j), Finset.sum_const, nsmul_one]

/-- No element collects more updates than there are. -/
theorem card_le_numel (d : ScatterDims s si u) (idx : IVec si w) (i' : s.Idx) :
    (Finset.univ.filter fun j : u.Idx => d.resultIdx? j idx = some i').card ≤ u.numel :=
  (Finset.card_le_univ _).trans (Shape.card_idx u).le

/-- The float pattern 0x3F800000 is the real number one. -/
theorem ofBits_one_f32 : Ideal.ofBits .f32 0x3F800000#32 = 1 := by
  simp [Ideal.ofBits, Ideal.ieee, -EReal.coe_mul]; norm_num

/-- On a non-negative signed word the clip below at zero changes nothing, the word is then not negative, and so the
    choice between "word + 256" and "word" takes the word. -/
theorem clip_wrap_id (x : BitVec 32) (hx : 0 ≤ x.toInt) :
    Scalar.select (IntOp.cmpi .slt (IntOp.maxsi 0#32 x) 0#32) (IntOp.addi (IntOp.maxsi 0#32 x) 256#32) (IntOp.maxsi 0#32 x) = x := by
  have hs : x.slt 0#32 = false := by
    rw [Bool.eq_false_iff]
    intro h
    rw [BitVec.slt_iff_toInt_lt] at h
    simp at h
    omega
  have hm : IntOp.maxsi 0#32 x = x := by simp [IntOp.maxsi, hs]
  rw [hm]
  simp [IntOp.cmpi, hs, Scalar.select]

end Count

section
open Cert.KernelIdeal Cert.KernelIdeal.Facts₀

/-- The integer count converted to a float is the float count, for any index array. -/
theorem count_core (b : IVec S50000 32) :
    sitofp (F := Ideal) .f32 (Host.scatter scatter_S256_S50000x1_S50000_n_0_0_1 IntOp.addi (broadcastInDim S256 ![] bcast_S_S256 (constantI S_ 32 0#32))
      (broadcastInDim S50000x1 ![0] bcast_S50000_S50000x1_0 b)
      (broadcastInDim S50000 ![] bcast_S_S50000 (constantI S_ 32 1#32)))
    = Cert.Bridge.Gcnt b := by
  funext i'
  have hk := Count.card_le_numel scatter_S256_S50000x1_S50000_n_0_0_1 (broadcastInDim S50000x1 ![0] bcast_S50000_S50000x1_0 b) i'
  have hn : S50000.numel = 50000 := Shape.numel_rank1 _
  rw [hn] at hk
  have hL := Count.scatter_addi_ones scatter_S256_S50000x1_S50000_n_0_0_1 (broadcastInDim S256 ![] bcast_S_S256 (constantI S_ 32 0#32))
    (broadcastInDim S50000x1 ![0] bcast_S50000_S50000x1_0 b) (broadcastInDim S50000 ![] bcast_S_S50000 (constantI S_ 32 1#32))
    (fun _ => rfl) (fun _ => rfl) i'
  show (((Host.scatter scatter_S256_S50000x1_S50000_n_0_0_1 IntOp.addi (broadcastInDim S256 ![] bcast_S_S256 (constantI S_ 32 0#32))
      (broadcastInDim S50000x1 ![0] bcast_S50000_S50000x1_0 b)
      (broadcastInDim S50000 ![] bcast_S_S50000 (constantI S_ 32 1#32)) i').toInt : ℝ) : EReal) = _
  rw [hL, StableHlo.Predicate.toInt_ofNat_small _ (by omega), Int.cast_natCast]
  unfold Cert.Bridge.Gcnt Host.scatterAdd
  rw [Ideal.hostScatterAdd_def, Count.hostScatterAdd_ones _ _ _ _ ?_ ?_]
  · rfl
  · intro _; exact Ideal.ofBits_zero_f32
  · intro _; exact Count.ofBits_one_f32

/-- THE COUNT: under non-negative ids, the integer per-graph count (clip, move up, scatter of ones, conversion) is
    the float per-graph count. -/
theorem count_eq (b : IVec S50000 32) (hb : ∀ i, 0 ≤ (b i).toInt) :
    sitofp (F := Ideal) .f32 (Host.scatter scatter_S256_S50000x1_S50000_n_0_0_1 IntOp.addi (broadcastInDim S256 ![] bcast_S_S256 (constantI S_ 32 0#32))
      (broadcastInDim S50000x1 ![0] bcast_S50000_S50000x1_0
        (select (cmpi .slt (maxsi (broadcastInDim S50000 ![] bcast_S_S50000 (constantI S_ 32 0#32)) b) (broadcastInDim S50000 ![] bcast_S_S50000 (constantI S_ 32 0#32)))
          (addi (maxsi (broadcastInDim S50000 ![] bcast_S_S50000 (constantI S_ 32 0#32)) b) (broadcastInDim S50000 ![] bcast_S_S50000 (constantI S_ 32 256#32)))
          (maxsi (broadcastInDim S50000 ![] bcast_S_S50000 (constantI S_ 32 0#32)) b)))
      (broadcastInDim S50000 ![] bcast_S_S50000 (constantI S_ 32 1#32)))
    = Cert.Bridge.Gcnt b := by
  have hidx : (select (cmpi .slt (maxsi (broadcastInDim S50000 ![] bcast_S_S50000 (constantI S_ 32 0#32)) b) (broadcastInDim S50000 ![] bcast_S_S50000 (constantI S_ 32 0#32)))
          (addi (maxsi (broadcastInDim S50000 ![] bcast_S_S50000 (constantI S_ 32 0#32)) b) (broadcastInDim S50000 ![] bcast_S_S50000 (constantI S_ 32 256#32)))
          (maxsi (broadcastInDim S50000 ![] bcast_S_S50000 (constantI S_ 32 0#32)) b)) = b :=
    funext fun i => Count.clip_wrap_id (b i) (hb i)
  rw [hidx]
  exact count_core b

end

/-- THE PRECONDITION, its last conjunct read at a node: the id is non-negative as a signed word. -/
theorem batch_nonneg (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000.Idx) :
    0 ≤ ((m ((c.tc : Thread Cert.KernelIdeal.nD Cert.KernelIdeal.τ).loc Cert.KernelIdeal.main_arg2)) i).toInt := by
  haveI : Subsingleton Cert.Pre_finite_inputs.S_.Idx := ⟨fun a b => funext fun d => d.elim0⟩
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  have e2 := (IntOp.andi_eq_one.1 e).2
  have e3 := Host.reduce_andi_all _ _ _ _ _ e2 i
  have e4 := IntOp.cmpi_sge.1 e3
  exact e4

end Cert.Bridge

end
-- ==== Proof.Value.HostK.lean ====
/-
  The host stretches of the program with kernels, read back. Between its kernel regions the program runs short stretches
  of whole-array host operations; the contents of a buffer after a stretch is the composition of the operations that
  lead to it, applied to the contents the stretch started from. Each stretch's useful results are stated here as the
  stage functions of the specification (edge endpoints with self-loops, the symmetric normalisation, the two message
  aggregations, the per-graph mean over the integer node count) or as plain reshapes of an argument, for any float
  instance and any starting contents. The records of shape facts cited by the operations and by the specification
  belong to two programs but are proofs of the same propositions over equal shapes, so the two sides are the same term.

  At the exact instance, with every graph id non-negative, the integer node count is the float node count, and the
  mean is the specification's mean.
-/
import proofs.«413413_j23441931501599_1_alg».proof.Proof.Gen.KernelIdeal.Launch
import proofs.«413413_j23441931501599_1_alg».proof.Proof.Value.Spec
import proofs.«413413_j23441931501599_1_alg».proof.Proof.Value.Count
import Idealize.ShloMosaic.Lib.StableHlo.Run

noncomputable section

namespace Cert.Bridge.HostK

open Idealize.ShloMosaic Idealize.ShloMosaic.TcCoe Idealize.ShloMosaic.StableHlo
open Cert.KernelIdeal Cert.KernelIdeal.Gen

variable {F : FTy → Type} [FloatOps F]
variable (W : Valuation Cert.KernelIdeal.τ Cert.KernelIdeal.sig (Elt F))

/-! ## Before the first region: the graph's index vectors and the normalisation -/

/-- The source index of every message. -/
theorem host0_src : StableHlo.after hostOps0_2 (StableHlo.after hostOps0_1 (StableHlo.after hostOps0 W)) main_v5 = Cert.Bridge.srcIdx (W main_arg1) := by
  after_results_simp
  rfl

/-- The target index of every message. -/
theorem host0_dst : StableHlo.after hostOps0_2 (StableHlo.after hostOps0_1 (StableHlo.after hostOps0 W)) main_v6 = Cert.Bridge.dstIdx (W main_arg1) := by
  after_results_simp
  rfl

/-- The symmetric normalisation of every message. -/
theorem host0_norm : StableHlo.after hostOps0_2 (StableHlo.after hostOps0_1 (StableHlo.after hostOps0 W)) main_v29 = Cert.Bridge.norm (F := F) (W main_arg1) := by
  after_results_simp
  rfl

/-! ## Before the second region: the first aggregation and its bias row -/

/-- Gather at the sources, scale, sum at the targets (width 256), over the index vectors and the normalisation the
    stretch finds in their buffers. -/
theorem host1_agg : StableHlo.after hostOps1 W main_v43
    = Cert.Bridge.aggCore256 (W main_v30) (W main_v5) (W main_v6) (W main_v29) := by
  after_results_simp
  rfl

theorem host1_bias : StableHlo.after hostOps1 W main_v44 = shapeCast S1x256 (W main_arg4) shapeCasts_S256_S1x256 := by
  after_results_simp
  rfl

/-! ## Before the fourth region: the second aggregation and its bias row -/

/-- The same at width 128. -/
theorem host3_agg : StableHlo.after hostOps3 W main_v59
    = Cert.Bridge.aggCore128 (W main_v46) (W main_v5) (W main_v6) (W main_v29) := by
  after_results_simp
  rfl

theorem host3_bias : StableHlo.after hostOps3 W main_v60 = shapeCast S1x128 (W main_arg6) shapeCasts_S128_S1x128 := by
  after_results_simp
  rfl

/-! ## Before the fifth region: the graph ids as a column -/

theorem host4_ids : StableHlo.after hostOps4 W main_v62 = shapeCast S50000x1 (W main_arg2) shapeCasts_S50000_S50000x1 := by
  after_results_simp
  rfl

/-! ## Before the sixth region: the per-graph mean and the dense stack's bias rows -/

/-- The pooled sums divided by the node count floored at one, the count taken in integers: ids clipped below at zero,
    an id still negative moved up by 256, ones scattered by integer addition, the result converted to a float. -/
theorem host5_mean : StableHlo.after hostOps5_2 (StableHlo.after hostOps5_1 (StableHlo.after hostOps5 W)) main_v79
    = Host.divf (W main_v63) (broadcastInDim S256x128 ![0, 1] bcast_S256x1_S256x128_0_1 (broadcastInDim S256x1 ![0] bcast_S256_S256x1_0
        (maximumf (sitofp .f32 (Host.scatter scatter_S256_S50000x1_S50000_n_0_0_1 IntOp.addi (broadcastInDim S256 ![] bcast_S_S256 (constantI S_ 32 0#32))
      (broadcastInDim S50000x1 ![0] bcast_S50000_S50000x1_0
        (select (cmpi .slt (maxsi (broadcastInDim S50000 ![] bcast_S_S50000 (constantI S_ 32 0#32)) (W main_arg2)) (broadcastInDim S50000 ![] bcast_S_S50000 (constantI S_ 32 0#32)))
          (addi (maxsi (broadcastInDim S50000 ![] bcast_S_S50000 (constantI S_ 32 0#32)) (W main_arg2)) (broadcastInDim S50000 ![] bcast_S_S50000 (constantI S_ 32 256#32)))
          (maxsi (broadcastInDim S50000 ![] bcast_S_S50000 (constantI S_ 32 0#32)) (W main_arg2))))
      (broadcastInDim S50000 ![] bcast_S_S50000 (constantI S_ 32 1#32))))
          (broadcastInDim S256 ![] bcast_S_S256 (constant S_ .f32 0x3F800000#32))))) := by
  after_results_simp
  rfl

theorem host5_b1 : StableHlo.after hostOps5_2 (StableHlo.after hostOps5_1 (StableHlo.after hostOps5 W)) main_v80 = shapeCast S1x128 (W main_arg8) shapeCasts_S128_S1x128 := by
  after_results_simp
  rfl

theorem host5_b2 : StableHlo.after hostOps5_2 (StableHlo.after hostOps5_1 (StableHlo.after hostOps5 W)) main_v81 = shapeCast S1x1024 (W main_arg10) shapeCasts_S1024_S1x1024 := by
  after_results_simp
  rfl

theorem host5_b22 : StableHlo.after hostOps5_2 (StableHlo.after hostOps5_1 (StableHlo.after hostOps5 W)) main_v82 = shapeCast S1x1024 (W main_arg12) shapeCasts_S1024_S1x1024 := by
  after_results_simp
  rfl

theorem host5_b23 : StableHlo.after hostOps5_2 (StableHlo.after hostOps5_1 (StableHlo.after hostOps5 W)) main_v83 = shapeCast S1x1024 (W main_arg14) shapeCasts_S1024_S1x1024 := by
  after_results_simp
  rfl

theorem host5_b3 : StableHlo.after hostOps5_2 (StableHlo.after hostOps5_1 (StableHlo.after hostOps5 W)) main_v84 = shapeCast S1x128 (W main_arg16) shapeCasts_S128_S1x128 := by
  after_results_simp
  rfl

/-! ## After the last region: the result flattened -/

theorem host6_out : StableHlo.after hostOps6 W main_v86 = shapeCast S32768 (W main_v85) shapeCasts_S256x128_S32768 := by
  after_results_simp
  rfl

/-! ## The mean at the exact instance -/

/-- With every graph id non-negative, the mean over the integer count is the specification's mean over the float
    count. -/
theorem host5_mean_ideal (W : Valuation Cert.KernelIdeal.τ Cert.KernelIdeal.sig (Elt Ideal))
    (h : ∀ i, 0 ≤ ((W main_arg2) i).toInt) :
    StableHlo.after hostOps5_2 (StableHlo.after hostOps5_1 (StableHlo.after hostOps5 W)) main_v79 = Cert.Bridge.Gmean (F := Ideal) (W main_v63) (Cert.Bridge.Gcnt (W main_arg2)) := by
  rw [host5_mean W, Cert.Bridge.count_eq _ h]
  rfl

end Cert.Bridge.HostK

end
-- ==== Proof.Value.Bridge.lean ====
/-
  The kernels' program ends at the encoder's function of its arguments. Item by item along @main: the index vectors and
  the normalisation made by the first host stretches; the first projection's array; its aggregation; bias and
  rectification; the second projection; its aggregation; bias and rectification; the graph ids laid out as a column; the
  per-graph sums; the mean (the kernels' integer count is the float count once every id is non-negative); the dense stack;
  the flattening. Each region's array is the whole-array function proved for it, each host stretch is read back as the
  specification's own operations, and a buffer nobody writes in between is carried unchanged.
-/
import proofs.«413413_j23441931501599_1_alg».proof.Proof.FrameKernelIdeal.Run
import proofs.«413413_j23441931501599_1_alg».proof.Proof.FrameKernelIdeal.Keep
import proofs.«413413_j23441931501599_1_alg».proof.Proof.Value.Val0
import proofs.«413413_j23441931501599_1_alg».proof.Proof.Value.Val1
import proofs.«413413_j23441931501599_1_alg».proof.Proof.Value.Val2
import proofs.«413413_j23441931501599_1_alg».proof.Proof.Value.Val3
import proofs.«413413_j23441931501599_1_alg».proof.Proof.Value.Val4
import proofs.«413413_j23441931501599_1_alg».proof.Proof.Value.Val5
import proofs.«413413_j23441931501599_1_alg».proof.Proof.Value.Count
import proofs.«413413_j23441931501599_1_alg».proof.Proof.Value.HostK

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- Argument `k` of @main as the launch memory holds it. -/
abbrev arg (r : Ref sig .tc) := m ((c : Thread nD τ).loc r)

/-! ## Before the first region: the graph's index vectors and the normalisation -/

theorem src3 : W3 m c main_v5 = srcIdx (arg m c main_arg1) := HostK.host0_src (F := Ideal) (Gen.V0 m c)
theorem dst3 : W3 m c main_v6 = dstIdx (arg m c main_arg1) := HostK.host0_dst (F := Ideal) (Gen.V0 m c)
theorem norm3 : W3 m c main_v29 = norm (F := Ideal) (arg m c main_arg1) := HostK.host0_norm (F := Ideal) (Gen.V0 m c)

/-! ## The first convolution -/

/-- The hidden features after the first convolution. -/
abbrev H1 := G1 (F := Ideal) (agg256 (F := Ideal) (G0 (F := Ideal) (arg m c main_arg0) (arg m c main_arg3)) (arg m c main_arg1)) (arg m c main_arg4)

theorem v30 : W4 m c main_v30 = G0 (F := Ideal) (arg m c main_arg0) (arg m c main_arg3) := by
  rw [W4_self, val0 (atTc (W3 m)) c]
  show G0 (F := Ideal) (W3 m c main_arg0) (W3 m c main_arg3) = _
  rw [W3_un m c (by decide), W3_un m c (by decide)]

theorem v43 : W5 m c main_v43 = agg256 (F := Ideal) (G0 (F := Ideal) (arg m c main_arg0) (arg m c main_arg3)) (arg m c main_arg1) := by
  refine (HostK.host1_agg (F := Ideal) (W4 m c)).trans ?_
  rw [v30, W4_keep m c main_v5 (by decide), W4_keep m c main_v6 (by decide), W4_keep m c main_v29 (by decide), src3, dst3, norm3]
  rfl
theorem v44 : W5 m c main_v44 = shapeCast S1x256 (arg m c main_arg4) shapeCasts_S256_S1x256 := by
  refine (HostK.host1_bias (F := Ideal) (W4 m c)).trans ?_
  rw [W4_un m c (by decide)]

theorem v45 : W6 m c main_v45 = H1 m c := by
  rw [W6_self, val1 (atTc (W5 m)) c (arg m c main_arg4) (v44 m c)]
  show G1 (F := Ideal) (W5 m c main_v43) _ = _
  rw [v43]

/-! ## The second convolution -/

/-- The node rows after the second convolution. -/
abbrev H2 := G3 (F := Ideal) (agg128 (F := Ideal) (G2 (F := Ideal) (H1 m c) (arg m c main_arg5)) (arg m c main_arg1)) (arg m c main_arg6)

theorem v46 : W7 m c main_v46 = G2 (F := Ideal) (H1 m c) (arg m c main_arg5) := by
  rw [W7_self, val2 (atTc (W6 m)) c]
  show G2 (F := Ideal) (W6 m c main_v45) (W6 m c main_arg5) = _
  rw [v45, W6_un m c (by decide)]

theorem v59 : W8 m c main_v59 = agg128 (F := Ideal) (G2 (F := Ideal) (H1 m c) (arg m c main_arg5)) (arg m c main_arg1) := by
  refine (HostK.host3_agg (F := Ideal) (W7 m c)).trans ?_
  rw [v46, W7_keep m c main_v5 (by decide) (by decide) (by decide) (by decide), W7_keep m c main_v6 (by decide) (by decide) (by decide) (by decide),
    W7_keep m c main_v29 (by decide) (by decide) (by decide) (by decide), src3, dst3, norm3]
  rfl
theorem v60 : W8 m c main_v60 = shapeCast S1x128 (arg m c main_arg6) shapeCasts_S128_S1x128 := by
  refine (HostK.host3_bias (F := Ideal) (W7 m c)).trans ?_
  rw [W7_un m c (by decide)]

theorem v61 : W9 m c main_v61 = H2 m c := by
  rw [W9_self, val3 (atTc (W8 m)) c (arg m c main_arg6) (v60 m c)]
  show G3 (F := Ideal) (W8 m c main_v59) _ = _
  rw [v59]

/-! ## The per-graph mean -/

theorem v62 : W10 m c main_v62 = shapeCast S50000x1 (arg m c main_arg2) shapeCasts_S50000_S50000x1 := by
  refine (HostK.host4_ids (F := Ideal) (W9 m c)).trans ?_
  rw [W9_un m c (by decide)]

theorem v63 : W11 m c main_v63 = G4 (F := Ideal) (H2 m c) (arg m c main_arg2) := by
  rw [W11_self, val4 (atTc (W10 m)) c (arg m c main_arg2) (v62 m c)]
  show G4 (F := Ideal) (W10 m c main_v61) _ = _
  rw [W10_of m c main_v61 (by decide), v61]

/-- The pooled rows. -/
abbrev Pooled := Gmean (F := Ideal) (G4 (F := Ideal) (H2 m c) (arg m c main_arg2)) (Gcnt (F := Ideal) (arg m c main_arg2))

theorem v79 (hpre : Cert.Pre_KernelIdeal m) : W14 m c main_v79 = Pooled m c := by
  refine (HostK.host5_mean_ideal (W11 m c) ?_).trans ?_
  · intro i
    rw [W11_un m c (by decide)]
    exact batch_nonneg m hpre c i
  · rw [v63, W11_un m c (by decide)]

theorem v80 : W14 m c main_v80 = shapeCast S1x128 (arg m c main_arg8) shapeCasts_S128_S1x128 := by
  refine (HostK.host5_b1 (F := Ideal) (W11 m c)).trans ?_; rw [W11_un m c (by decide)]
theorem v81 : W14 m c main_v81 = shapeCast S1x1024 (arg m c main_arg10) shapeCasts_S1024_S1x1024 := by
  refine (HostK.host5_b2 (F := Ideal) (W11 m c)).trans ?_; rw [W11_un m c (by decide)]
theorem v82 : W14 m c main_v82 = shapeCast S1x1024 (arg m c main_arg12) shapeCasts_S1024_S1x1024 := by
  refine (HostK.host5_b22 (F := Ideal) (W11 m c)).trans ?_; rw [W11_un m c (by decide)]
theorem v83 : W14 m c main_v83 = shapeCast S1x1024 (arg m c main_arg14) shapeCasts_S1024_S1x1024 := by
  refine (HostK.host5_b23 (F := Ideal) (W11 m c)).trans ?_; rw [W11_un m c (by decide)]
theorem v84 : W14 m c main_v84 = shapeCast S1x128 (arg m c main_arg16) shapeCasts_S128_S1x128 := by
  refine (HostK.host5_b3 (F := Ideal) (W11 m c)).trans ?_; rw [W11_un m c (by decide)]

/-! ## The dense stack and the result -/

theorem v85 (hpre : Cert.Pre_KernelIdeal m) : W15 m c main_v85 = G5 (F := Ideal) (Pooled m c) (arg m c main_arg7) (arg m c main_arg8) (arg m c main_arg9) (arg m c main_arg10)
    (arg m c main_arg11) (arg m c main_arg12) (arg m c main_arg13) (arg m c main_arg14) (arg m c main_arg15) (arg m c main_arg16) := by
  rw [W15_self, val5 (atTc (W14 m)) c (arg m c main_arg8) (arg m c main_arg10) (arg m c main_arg12) (arg m c main_arg14) (arg m c main_arg16)
    (v80 m c) (v81 m c) (v82 m c) (v83 m c) (v84 m c)]
  show G5 (F := Ideal) (W14 m c main_v79) (W14 m c main_arg7) _ (W14 m c main_arg9) _ (W14 m c main_arg11) _ (W14 m c main_arg13) _ (W14 m c main_arg15) _ = _
  rw [v79 m c hpre, W14_un m c (by decide), W14_un m c (by decide), W14_un m c (by decide), W14_un m c (by decide), W14_un m c (by decide)]

/-- The result buffer of the kernels' program at the end of its run: the encoder's function of the arguments. -/
theorem kernel_result (hpre : Cert.Pre_KernelIdeal m) : W16 m c main_v86
    = forward (F := Ideal) (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11) (arg m c main_arg12)
        (arg m c main_arg13) (arg m c main_arg14) (arg m c main_arg15) (arg m c main_arg16) := by
  refine (HostK.host6_out (F := Ideal) (W15 m c)).trans ?_
  rw [v85 m c hpre]
  rfl

end Cert.Bridge

end
-- ==== Proof.Value.RefVal.lean ====
/-
  The reference program's result is the specification's encoder applied to its seventeen arguments. Both are the same
  composition of the same host operations over the same shape records: the first dense projection, the aggregation of
  the graph's normalised messages, bias and rectification, the second projection, aggregation, bias and rectification,
  the per-graph mean (sum of node rows over the count floored at one), the five dense layers and the final flattening;
  the specification only names the stages. So the two terms are equal by unfolding the names. The statement is made at
  any float instance: nothing about the arithmetic is used.
-/
import proofs.«413413_j23441931501599_1_alg».proof.Proof.RefRun
import proofs.«413413_j23441931501599_1_alg».proof.Proof.Value.Spec

noncomputable section

namespace Cert.Bridge

open Idealize.ShloMosaic Idealize.ShloMosaic.TcCoe Idealize.SL.Sem
open Cert.ReferenceIdeal

variable {F : FTy → Type} [FloatOps F]

set_option maxRecDepth 16384 in
/-- The reference's result buffer, as one term of the launch contents of its arguments, is `forward` of those arguments
    (features, edge list, graph ids, then the weights and biases of the two convolutions and the five dense layers). -/
theorem ref_eq (m : (ℓ : Loc nD τ sig) → Buf (Elt F) ℓ) (c : Dev nD) :
    Cert.ReferenceIdeal.Value.res_main_v128 (F := F) m c
      = forward (F := F) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16)) := by
  unfold Cert.ReferenceIdeal.Value.res_main_v128
  rfl

end Cert.Bridge

end
-- ==== Proof.lean ====
/-
  A graph encoder - two graph convolutions (dense projection, normalised gather and scatter-add, bias, rectification),
  the per-graph mean of the node rows, a five-layer dense stack - computed by six tiled kernels among host operations,
  against the same encoder written with array operations only. Claimed: each program runs to its end without a fault and
  leaves its arguments unchanged, and, read over the extended reals from memories that agree on the arguments, the two
  end with equal results - under the precondition that every float argument is finite and every graph id is
  non-negative (a negative id is outside the segment range: the array-only encoder drops such a node from the per-graph
  count while the kernels' count folds it into graph 0).

  The kernels' program: every region's proof data and body triple, the valuations between the items of @main and the
  run over them are in Proof/FrameKernel (word level) and Proof/FrameKernelIdeal (any float instance, read here at the
  exact one). The value: each region's result array as one whole-array function (Proof/Value/Val0 .. Val5), the host
  stretches read back (Proof/Value/HostK), the count (Proof/Value/Count), composed into the encoder's function
  (Proof/Value/Bridge); the array-only encoder's run ends at the same function of its arguments (Proof/Value/RefVal).
  The sanctioned idealization rewrote nothing, so its conjunct is trivial.
-/
import proofs.«413413_j23441931501599_1_alg».proof.Defs
import proofs.«413413_j23441931501599_1_alg».proof.Proof.Gen.Kernel
import proofs.«413413_j23441931501599_1_alg».proof.Proof.Gen.KernelIdeal
import proofs.«413413_j23441931501599_1_alg».proof.Proof.Gen.ReferenceIdeal
import proofs.«413413_j23441931501599_1_alg».proof.Proof.Gen.Pre_finite_inputs
import proofs.«413413_j23441931501599_1_alg».proof.Proof.RefRun
import proofs.«413413_j23441931501599_1_alg».proof.Proof.FrameKernel.Run
import proofs.«413413_j23441931501599_1_alg».proof.Proof.FrameKernelIdeal.Run
import proofs.«413413_j23441931501599_1_alg».proof.Proof.Value.Bridge
import proofs.«413413_j23441931501599_1_alg».proof.Proof.Value.RefVal

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the encoder's function of the arguments, which the two memories share. -/
theorem algebraic : Cert.algebraic_KernelIdeal_ReferenceIdeal := by
  intro m ρ m' ρ' hpre hagree
  refine ⟨fun c => Cert.KernelIdeal.Hand.W16 (F := Ideal) m c Cert.KernelIdeal.main_v86, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.Bridge.ref_eq]
  refine Eq.trans ?_ (Cert.Bridge.kernel_result m c hpre).symm
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
